-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x4 : Shape := ⟨2, ![128, 4]⟩
abbrev S4 : Shape := ⟨1, ![4]⟩
abbrev S128x2 : Shape := ⟨2, ![128, 2]⟩
abbrev S2 : Shape := ⟨1, ![2]⟩
abbrev S128x1 : Shape := ⟨2, ![128, 1]⟩
abbrev S1 : Shape := ⟨1, ![1]⟩
abbrev S263x128 : Shape := ⟨2, ![263, 128]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S263x128 : S_.BroadcastsInDim S263x128 (![] : Fin 0 → Fin S263x128.rank)
  reducesTo_S263x128_S_d0_1 : S263x128.ReducesTo [0, 1] S_

variable [Facts]

def fn_part6 {F : FTy → Type} [FloatOps F] (main_arg21 : FVec F S128x1 .f32) (main_arg22 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x1 .f32 := Host.absf main_arg21
  let main_cst_40 : FVec F S_ .f32 := constant S_ .f32 0x7F800000#32
  let main_v105 : FVec F S128x1 .f32 := broadcastInDim S128x1 ![] bcast_S_S128x1 main_cst_40
  let main_v106 : IVec S128x1 1 := cmpf .olt main_v104 main_v105
  let main_c_41 : IVec S_ 1 := constantI S_ 1 1#1
  let main_v107 : IVec S_ 1 := (fun x v => Host.reduce IntOp.andi x v reducesTo_S128x1_S_d0_1 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg18 : FVec F S1 .f32) (main_arg19 : FVec F S263x128 .f32) (main_arg20 : FVec F S128 .f32) (main_arg21 : FVec F S128x1 .f32) (main_arg22 : FVec F S1 .f32) (main_v83 : IVec S_ 1) (main_v84 : FVec F S128x1 .f32) (main_cst_32 : FVec F S_ .f32) : IVec S_ 1 :=
  let main_v85 : FVec F S128x1 .f32 := broadcastInDim S128x1 ![] bcast_S_S128x1 main_cst_32
  let main_v86 : IVec S128x1 1 := cmpf .olt main_v84 main_v85
  let main_c_33 : IVec S_ 1 := constantI S_ 1 1#1
  let main_v87 : IVec S_ 1 := (fun x v => Host.reduce IntOp.andi x v reducesTo_S128x1_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S263x128 .f32 := Host.absf main_arg19
  let main_cst_36 : FVec F S_ .f32 := constant S_ .f32 0x7F800000#32
  let main_v95 : FVec F S263x128 .f32 := broadcastInDim S263x128 ![] bcast_S_S263x128 main_cst_36
  let main_v96 : IVec S263x128 1 := cmpf .olt main_v94 main_v95
  let main_c_37 : IVec S_ 1 := constantI S_ 1 1#1
  let main_v97 : IVec S_ 1 := (fun x v => Host.reduce IntOp.andi x v reducesTo_S263x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S2 .f32) (main_arg15 : FVec F S256x128 .f32) (main_arg16 : FVec F S128 .f32) (main_arg17 : FVec F S128x1 .f32) (main_arg18 : FVec F S1 .f32) (main_arg19 : FVec F S263x128 .f32) (main_arg20 : FVec F S128 .f32) (main_arg21 : FVec F S128x1 .f32) (main_arg22 : FVec F S1 .f32) (main_v63 : IVec S_ 1) (main_v67 : IVec S_ 1) : IVec S_ 1 :=
  let main_v68 : IVec S_ 1 := andi main_v63 main_v67
  let main_v69 : FVec F S2 .f32 := Host.absf main_arg14
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  let main_v74 : FVec F S256x128 .f32 := Host.absf main_arg15
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x1 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S256x128 .f32) (main_arg12 : FVec F S128 .f32) (main_arg13 : FVec F S128x2 .f32) (main_arg14 : FVec F S2 .f32) (main_arg15 : FVec F S256x128 .f32) (main_arg16 : FVec F S128 .f32) (main_arg17 : FVec F S128x1 .f32) (main_arg18 : FVec F S1 .f32) (main_arg19 : FVec F S263x128 .f32) (main_arg20 : FVec F S128 .f32) (main_arg21 : FVec F S128x1 .f32) (main_arg22 : FVec F S1 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S256x128 .f32 := Host.absf main_arg11
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x2 .f32 := Host.absf main_arg13
  let main_cst_24 : FVec F S_ .f32 := constant S_ .f32 0x7F800000#32
  let main_v65 : FVec F S128x2 .f32 := broadcastInDim S128x2 ![] bcast_S_S128x2 main_cst_24
  let main_v66 : IVec S128x2 1 := cmpf .olt main_v64 main_v65
  let main_c_25 : IVec S_ 1 := constantI S_ 1 1#1
  let main_v67 : IVec S_ 1 := (fun x v => Host.reduce IntOp.andi x v reducesTo_S128x2_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S256x128 .f32) (main_arg8 : FVec F S128 .f32) (main_arg9 : FVec F S128x4 .f32) (main_arg10 : FVec F S4 .f32) (main_arg11 : FVec F S256x128 .f32) (main_arg12 : FVec F S128 .f32) (main_arg13 : FVec F S128x2 .f32) (main_arg14 : FVec F S2 .f32) (main_arg15 : FVec F S256x128 .f32) (main_arg16 : FVec F S128 .f32) (main_arg17 : FVec F S128x1 .f32) (main_arg18 : FVec F S1 .f32) (main_arg19 : FVec F S263x128 .f32) (main_arg20 : FVec F S128 .f32) (main_arg21 : FVec F S128x1 .f32) (main_arg22 : FVec F S1 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x4 .f32 := Host.absf main_arg9
  let main_cst_16 : FVec F S_ .f32 := constant S_ .f32 0x7F800000#32
  let main_v45 : FVec F S128x4 .f32 := broadcastInDim S128x4 ![] bcast_S_S128x4 main_cst_16
  let main_v46 : IVec S128x4 1 := cmpf .olt main_v44 main_v45
  let main_c_17 : IVec S_ 1 := constantI S_ 1 1#1
  let main_v47 : IVec S_ 1 := (fun x v => Host.reduce IntOp.andi x v reducesTo_S128x4_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S256 .f32) (main_arg5 : FVec F S256x256 .f32) (main_arg6 : FVec F S256 .f32) (main_arg7 : FVec F S256x128 .f32) (main_arg8 : FVec F S128 .f32) (main_arg9 : FVec F S128x4 .f32) (main_arg10 : FVec F S4 .f32) (main_arg11 : FVec F S256x128 .f32) (main_arg12 : FVec F S128 .f32) (main_arg13 : FVec F S128x2 .f32) (main_arg14 : FVec F S2 .f32) (main_arg15 : FVec F S256x128 .f32) (main_arg16 : FVec F S128 .f32) (main_arg17 : FVec F S128x1 .f32) (main_arg18 : FVec F S1 .f32) (main_arg19 : FVec F S263x128 .f32) (main_arg20 : FVec F S128 .f32) (main_arg21 : FVec F S128x1 .f32) (main_arg22 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S20000x512 .f32) (main_arg1 : FVec F S512x256 .f32) (main_arg2 : FVec F S256 .f32) (main_arg3 : FVec F S256 .f32) (main_arg4 : FVec F S256 .f32) (main_arg5 : FVec F S256x256 .f32) (main_arg6 : FVec F S256 .f32) (main_arg7 : FVec F S256x128 .f32) (main_arg8 : FVec F S128 .f32) (main_arg9 : FVec F S128x4 .f32) (main_arg10 : FVec F S4 .f32) (main_arg11 : FVec F S256x128 .f32) (main_arg12 : FVec F S128 .f32) (main_arg13 : FVec F S128x2 .f32) (main_arg14 : FVec F S2 .f32) (main_arg15 : FVec F S256x128 .f32) (main_arg16 : FVec F S128 .f32) (main_arg17 : FVec F S128x1 .f32) (main_arg18 : FVec F S1 .f32) (main_arg19 : FVec F S263x128 .f32) (main_arg20 : FVec F S128 .f32) (main_arg21 : FVec F S128x1 .f32) (main_arg22 : FVec F S1 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S20000x512 : Shape := ⟨2, ![20000, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x4 : Shape := ⟨2, ![128, 4]⟩
abbrev S4 : Shape := ⟨1, ![4]⟩
abbrev S128x2 : Shape := ⟨2, ![128, 2]⟩
abbrev S2 : Shape := ⟨1, ![2]⟩
abbrev S128x1 : Shape := ⟨2, ![128, 1]⟩
abbrev S1 : Shape := ⟨1, ![1]⟩
abbrev S263x128 : Shape := ⟨2, ![263, 128]⟩
abbrev S1x256 : Shape := ⟨2, ![1, 256]⟩
abbrev S1x128 : Shape := ⟨2, ![1, 128]⟩
abbrev S1x4 : Shape := ⟨2, ![1, 4]⟩
abbrev S1x2 : Shape := ⟨2, ![1, 2]⟩
abbrev S1x1 : Shape := ⟨2, ![1, 1]⟩
abbrev S20000x4 : Shape := ⟨2, ![20000, 4]⟩
abbrev S20000x2 : Shape := ⟨2, ![20000, 2]⟩
abbrev S20000x1 : Shape := ⟨2, ![20000, 1]⟩
abbrev S4000x512 : Shape := ⟨2, ![4000, 512]⟩
abbrev S4000x4 : Shape := ⟨2, ![4000, 4]⟩
abbrev S4000x2 : Shape := ⟨2, ![4000, 2]⟩
abbrev S4000x1 : Shape := ⟨2, ![4000, 1]⟩
abbrev S4000x256 : Shape := ⟨2, ![4000, 256]⟩
abbrev S4000 : Shape := ⟨1, ![4000]⟩
abbrev S4000x128 : Shape := ⟨2, ![4000, 128]⟩
abbrev S4000x7 : Shape := ⟨2, ![4000, 7]⟩
abbrev S7x128 : Shape := ⟨2, ![7, 128]⟩
abbrev S4x128 : Shape := ⟨2, ![4, 128]⟩
abbrev S2x128 : Shape := ⟨2, ![2, 128]⟩

abbrev nBuf : Space → Nat
  | .hbm => 39
  | .vmem => 32
  | .smem => 0
  | _ => 0

abbrev bufTy : (tb : Table) → Fin (tcTables nBuf tb) → BufTy
  | .hbm, ⟨0, _⟩ => ⟨S20000x512, .f32⟩
  | .hbm, ⟨1, _⟩ => ⟨S512x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x4, .f32⟩
  | .hbm, ⟨10, _⟩ => ⟨S4, .f32⟩
  | .hbm, ⟨11, _⟩ => ⟨S256x128, .f32⟩
  | .hbm, ⟨12, _⟩ => ⟨S128, .f32⟩
  | .hbm, ⟨13, _⟩ => ⟨S128x2, .f32⟩
  | .hbm, ⟨14, _⟩ => ⟨S2, .f32⟩
  | .hbm, ⟨15, _⟩ => ⟨S256x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S263x128, .f32⟩
  | .hbm, ⟨20, _⟩ => ⟨S128, .f32⟩
  | .hbm, ⟨21, _⟩ => ⟨S128x1, .f32⟩
  | .hbm, ⟨22, _⟩ => ⟨S1, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x128, .f32⟩
  | .hbm, ⟨28, _⟩ => ⟨S1x4, .f32⟩
  | .hbm, ⟨29, _⟩ => ⟨S1x128, .f32⟩
  | .hbm, ⟨30, _⟩ => ⟨S1x2, .f32⟩
  | .hbm, ⟨31, _⟩ => ⟨S1x128, .f32⟩
  | .hbm, ⟨32, _⟩ => ⟨S1x1, .f32⟩
  | .hbm, ⟨33, _⟩ => ⟨S1x128, .f32⟩
  | .hbm, ⟨34, _⟩ => ⟨S1x1, .f32⟩
  | .hbm, ⟨35, _⟩ => ⟨S20000x4, .f32⟩
  | .hbm, ⟨36, _⟩ => ⟨S20000x2, .f32⟩
  | .hbm, ⟨37, _⟩ => ⟨S20000x1, .f32⟩
  | .hbm, ⟨38, _⟩ => ⟨S20000x1, .f32⟩
  | .local _ .vmem, ⟨0, _⟩ => ⟨S4000x512, .f32⟩
  | .local _ .vmem, ⟨1, _⟩ => ⟨S4000x512, .f32⟩
  | .local _ .vmem, ⟨2, _⟩ => ⟨S512x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S128x4, .f32⟩
  | .local _ .vmem, ⟨11, _⟩ => ⟨S1x4, .f32⟩
  | .local _ .vmem, ⟨12, _⟩ => ⟨S256x128, .f32⟩
  | .local _ .vmem, ⟨13, _⟩ => ⟨S1x128, .f32⟩
  | .local _ .vmem, ⟨14, _⟩ => ⟨S128x2, .f32⟩
  | .local _ .vmem, ⟨15, _⟩ => ⟨S1x2, .f32⟩
  | .local _ .vmem, ⟨16, _⟩ => ⟨S256x128, .f32⟩
  | .local _ .vmem, ⟨17, _⟩ => ⟨S1x128, .f32⟩
  | .local _ .vmem, ⟨18, _⟩ => ⟨S128x1, .f32⟩
  | .local _ .vmem, ⟨19, _⟩ => ⟨S1x1, .f32⟩
  | .local _ .vmem, ⟨20, _⟩ => ⟨S263x128, .f32⟩
  | .local _ .vmem, ⟨21, _⟩ => ⟨S1x128, .f32⟩
  | .local _ .vmem, ⟨22, _⟩ => ⟨S128x1, .f32⟩
  | .local _ .vmem, ⟨23, _⟩ => ⟨S1x1, .f32⟩
  | .local _ .vmem, ⟨24, _⟩ => ⟨S4000x4, .f32⟩
  | .local _ .vmem, ⟨25, _⟩ => ⟨S4000x4, .f32⟩
  | .local _ .vmem, ⟨26, _⟩ => ⟨S4000x2, .f32⟩
  | .local _ .vmem, ⟨27, _⟩ => ⟨S4000x2, .f32⟩
  | .local _ .vmem, ⟨28, _⟩ => ⟨S4000x1, .f32⟩
  | .local _ .vmem, ⟨29, _⟩ => ⟨S4000x1, .f32⟩
  | .local _ .vmem, ⟨30, _⟩ => ⟨S4000x1, .f32⟩
  | .local _ .vmem, ⟨31, _⟩ => ⟨S4000x1, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v0_0 : Ref sig .tc := ⟨.hbm, 35, rfl⟩
abbrev main_v0_1 : Ref sig .tc := ⟨.hbm, 36, rfl⟩
abbrev main_v0_2 : Ref sig .tc := ⟨.hbm, 37, rfl⟩
abbrev main_v0_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_stg24_0 : Ref sig .tc := ⟨.vmem, 26, rfl⟩
abbrev cc0_stg24_1 : Ref sig .tc := ⟨.vmem, 27, rfl⟩
abbrev cc0_stg25_0 : Ref sig .tc := ⟨.vmem, 28, rfl⟩
abbrev cc0_stg25_1 : Ref sig .tc := ⟨.vmem, 29, rfl⟩
abbrev cc0_stg26_0 : Ref sig .tc := ⟨.vmem, 30, rfl⟩
abbrev cc0_stg26_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25
abbrev cc0_sem24_0 : DmaSem sig := 26
abbrev cc0_sem24_1 : DmaSem sig := 27
abbrev cc0_sem25_0 : DmaSem sig := 28
abbrev cc0_sem25_1 : DmaSem sig := 29
abbrev cc0_sem26_0 : DmaSem sig := 30
abbrev cc0_sem26_1 : DmaSem sig := 31

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S263x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S4000x4 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S4000x2 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S4000x1 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S4000x1 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  bcast_S256_S1x256_1 : S256.BroadcastsInDim S1x256 (![1] : Fin 1 → Fin S1x256.rank)
  bcast_S128_S1x128_1 : S128.BroadcastsInDim S1x128 (![1] : Fin 1 → Fin S1x128.rank)
  bcast_S4_S1x4_1 : S4.BroadcastsInDim S1x4 (![1] : Fin 1 → Fin S1x4.rank)
  bcast_S2_S1x2_1 : S2.BroadcastsInDim S1x2 (![1] : Fin 1 → Fin S1x2.rank)
  bcast_S1_S1x1_1 : S1.BroadcastsInDim S1x1 (![1] : Fin 1 → Fin S1x1.rank)
  inb_S4000x512_S4000x512_0_0 : ∀ a, (![0, 0] : Fin 2 → Nat) a + S4000x512.size a ≤ S4000x512.size a
  h_S4000x512 : 0 < S4000x512.numel
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  reduces_S4000x256_S4000 : S4000x256.Reduces [1] S4000
  shapeCasts_S4000_S4000x1 : S4000.ShapeCasts S4000x1
  broadcasts_S4000x1_S4000x256 : S4000x1.Broadcasts S4000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S4000x4 : S1x4.Broadcasts S4000x4
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  concatenates_S4000x4_S4000x2_S4000x1_S4000x7_d1 : Shape.Concatenates [S4000x4, S4000x2, S4000x1] S4000x7 1
  inb_S263x128_S7x128_256_0 : ∀ a, (![256, 0] : Fin 2 → Nat) a + S7x128.size a ≤ S263x128.size a
  h_S7x128 : 0 < S7x128.numel
  slices_S7x128_o0_0_S4x128 : S7x128.Slices ![0, 0] S4x128
  slices_S7x128_o4_0_S2x128 : S7x128.Slices ![4, 0] S2x128
  slices_S7x128_o6_0_S1x128 : S7x128.Slices ![6, 0] S1x128
  concatenates_S4x128_S2x128_S1x128_S7x128_d0 : Shape.Concatenates [S4x128, S2x128, S1x128] S7x128 0
  slices_S7x128_o4_0_S1x128 : S7x128.Slices ![4, 0] S1x128
  slices_S7x128_o5_0_S1x128 : S7x128.Slices ![5, 0] S1x128
  inb_S263x128_S256x128_0_0 : ∀ a, (![0, 0] : Fin 2 → Nat) a + S256x128.size a ≤ S263x128.size a
  slices_S4000x7_o0_0_S4000x4 : S4000x7.Slices ![0, 0] S4000x4
  inb_S4000x4_S4000x4_0_0 : ∀ a, (![0, 0] : Fin 2 → Nat) a + S4000x4.size a ≤ S4000x4.size a
  h_S4000x4 : 0 < S4000x4.numel
  slices_S4000x7_o0_4_S4000x2 : S4000x7.Slices ![0, 4] S4000x2
  inb_S4000x2_S4000x2_0_0 : ∀ a, (![0, 0] : Fin 2 → Nat) a + S4000x2.size a ≤ S4000x2.size a
  h_S4000x2 : 0 < S4000x2.numel
  slices_S4000x7_o0_6_S4000x1 : S4000x7.Slices ![0, 6] S4000x1
  inb_S4000x1_S4000x1_0_0 : ∀ a, (![0, 0] : Fin 2 → Nat) a + S4000x1.size a ≤ S4000x1.size a
  h_S4000x1 : 0 < S4000x1.numel
  dot_S4000x512_S512x256_S4000x256_1_0_0_1_n_n_wf : DotDims.WF S4000x512 S512x256 S4000x256 [1] [0] [0] [1] [] []
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  dot_S4000x128_S128x4_S4000x4_1_0_0_1_n_n_wf : DotDims.WF S4000x128 S128x4 S4000x4 [1] [0] [0] [1] [] []
  dot_S4000x128_S128x2_S4000x2_1_0_0_1_n_n_wf : DotDims.WF S4000x128 S128x2 S4000x2 [1] [0] [0] [1] [] []
  dot_S4000x128_S128x1_S4000x1_1_0_0_1_n_n_wf : DotDims.WF S4000x128 S128x1 S4000x1 [1] [0] [0] [1] [] []
  dot_S4000x7_S7x128_S4000x128_1_0_0_1_n_n_wf : DotDims.WF S4000x7 S7x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S20000x512.size a
  hwx0_0 : ∀ i : grid0.Coords, EltTy.bits .f32 = 32 ∨ (Rect.block (s := S20000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x4.size a ≤ S128x4.size a
  hwx0_9 : ∀ i : grid0.Coords, EltTy.bits .f32 = 32 ∨ (Rect.block (s := S128x4) S128x4.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x4.size a ≤ S1x4.size a
  hwx0_10 : ∀ i : grid0.Coords, EltTy.bits .f32 = 32 ∨ (Rect.block (s := S1x4) S1x4.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S256x128.size a
  hwx0_11 : ∀ i : grid0.Coords, EltTy.bits .f32 = 32 ∨ (Rect.block (s := S256x128) S256x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x2.size a ≤ S128x2.size a
  hwx0_13 : ∀ i : grid0.Coords, EltTy.bits .f32 = 32 ∨ (Rect.block (s := S128x2) S128x2.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x2.size a ≤ S1x2.size a
  hwx0_14 : ∀ i : grid0.Coords, EltTy.bits .f32 = 32 ∨ (Rect.block (s := S1x2) S1x2.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x128.size a ≤ S256x128.size a
  hwx0_15 : ∀ i : grid0.Coords, EltTy.bits .f32 = 32 ∨ (Rect.block (s := S256x128) S256x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x1.size a ≤ S128x1.size a
  hwx0_17 : ∀ i : grid0.Coords, EltTy.bits .f32 = 32 ∨ (Rect.block (s := S128x1) S128x1.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x1.size a ≤ S1x1.size a
  hwx0_18 : ∀ i : grid0.Coords, EltTy.bits .f32 = 32 ∨ (Rect.block (s := S1x1) S1x1.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S263x128.size a ≤ S263x128.size a
  hwx0_19 : ∀ i : grid0.Coords, EltTy.bits .f32 = 32 ∨ (Rect.block (s := S263x128) S263x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x1.size a ≤ S128x1.size a
  hwx0_21 : ∀ i : grid0.Coords, EltTy.bits .f32 = 32 ∨ (Rect.block (s := S128x1) S128x1.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x1.size a ≤ S1x1.size a
  hwx0_22 : ∀ i : grid0.Coords, EltTy.bits .f32 = 32 ∨ (Rect.block (s := S1x1) S1x1.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S4000x4.size a ≤ S20000x4.size a
  hwx0_23 : ∀ i : grid0.Coords, EltTy.bits .f32 = 32 ∨ (Rect.block (s := S20000x4) S4000x4.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S4000x2.size a ≤ S20000x2.size a
  hwx0_24 : ∀ i : grid0.Coords, EltTy.bits .f32 = 32 ∨ (Rect.block (s := S20000x2) S4000x2.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S4000x1.size a ≤ S20000x1.size a
  hwx0_25 : ∀ i : grid0.Coords, EltTy.bits .f32 = 32 ∨ (Rect.block (s := S20000x1) S4000x1.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S4000x1.size a ≤ S20000x1.size a
  hwx0_26 : ∀ i : grid0.Coords, EltTy.bits .f32 = 32 ∨ (Rect.block (s := S20000x1) S4000x1.size (cc0_transform_26 i) (hinb0_26 i)).WholeWords (EltTy.packing .f32)

variable [Facts₀]

def dot_S4000x512_S512x256_S4000x256_1_0_0_1_n_n : DotDims S4000x512 S512x256 S4000x256 where
  lhsContracting := [1]
  rhsContracting := [0]
  lhsNonContracting := [0]
  rhsNonContracting := [1]
  lhsBatch := []
  rhsBatch := []
  wf := dot_S4000x512_S512x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x4_S4000x4_1_0_0_1_n_n : DotDims S4000x128 S128x4 S4000x4 where
  lhsContracting := [1]
  rhsContracting := [0]
  lhsNonContracting := [0]
  rhsNonContracting := [1]
  lhsBatch := []
  rhsBatch := []
  wf := dot_S4000x128_S128x4_S4000x4_1_0_0_1_n_n_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def dot_S4000x7_S7x128_S4000x128_1_0_0_1_n_n : DotDims S4000x7 S7x128 S4000x128 where
  lhsContracting := [1]
  rhsContracting := [0]
  lhsNonContracting := [0]
  rhsNonContracting := [1]
  lhsBatch := []
  rhsBatch := []
  wf := dot_S4000x7_S7x128_S4000x128_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v4) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v5) S1x4.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v6) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128x2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_call0_v7) S1x2.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_call0_v8) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_call0_v9) S1x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S263x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_call0_v10) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S128x1.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_call0_v11) S1x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v0_0) S4000x4.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v0_1) S4000x2.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v0_2) S4000x1.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v0_3) S4000x1.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S20000x512 : Shape := ⟨2, ![20000, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x4 : Shape := ⟨2, ![128, 4]⟩
abbrev S4 : Shape := ⟨1, ![4]⟩
abbrev S128x2 : Shape := ⟨2, ![128, 2]⟩
abbrev S2 : Shape := ⟨1, ![2]⟩
abbrev S128x1 : Shape := ⟨2, ![128, 1]⟩
abbrev S1 : Shape := ⟨1, ![1]⟩
abbrev S263x128 : Shape := ⟨2, ![263, 128]⟩
abbrev S20000x256 : Shape := ⟨2, ![20000, 256]⟩
abbrev S1x256 : Shape := ⟨2, ![1, 256]⟩
abbrev S_ : Shape := ⟨0, ![]⟩
abbrev S20000 : Shape := ⟨1, ![20000]⟩
abbrev S20000x1 : Shape := ⟨2, ![20000, 1]⟩
abbrev S20000x128 : Shape := ⟨2, ![20000, 128]⟩
abbrev S1x128 : Shape := ⟨2, ![1, 128]⟩
abbrev S20000x4 : Shape := ⟨2, ![20000, 4]⟩
abbrev S1x4 : Shape := ⟨2, ![1, 4]⟩
abbrev S20000x2 : Shape := ⟨2, ![20000, 2]⟩
abbrev S1x2 : Shape := ⟨2, ![1, 2]⟩
abbrev S1x1 : Shape := ⟨2, ![1, 1]⟩
abbrev S20000x7 : Shape := ⟨2, ![20000, 7]⟩
abbrev S20000x263 : Shape := ⟨2, ![20000, 263]⟩

abbrev nBuf : Space → Nat
  | .hbm => 162
  | .vmem => 0
  | .smem => 0
  | _ => 0

abbrev hbmTy0_0 (i : Nat) : BufTy := match i % 128 with
  | 0 => ⟨S20000x512, .f32⟩
  | 1 => ⟨S512x256, .f32⟩
  | 2 => ⟨S256, .f32⟩
  | 3 => ⟨S256, .f32⟩
  | 4 => ⟨S256, .f32⟩
  | 5 => ⟨S256x256, .f32⟩
  | 6 => ⟨S256, .f32⟩
  | 7 => ⟨S256x128, .f32⟩
  | 8 => ⟨S128, .f32⟩
  | 9 => ⟨S128x4, .f32⟩
  | 10 => ⟨S4, .f32⟩
  | 11 => ⟨S256x128, .f32⟩
  | 12 => ⟨S128, .f32⟩
  | 13 => ⟨S128x2, .f32⟩
  | 14 => ⟨S2, .f32⟩
  | 15 => ⟨S256x128, .f32⟩
  | 16 => ⟨S128, .f32⟩
  | 17 => ⟨S128x1, .f32⟩
  | 18 => ⟨S1, .f32⟩
  | 19 => ⟨S263x128, .f32⟩
  | 20 => ⟨S128, .f32⟩
  | 21 => ⟨S128x1, .f32⟩
  | 22 => ⟨S1, .f32⟩
  | 23 => ⟨S20000x256, .f32⟩
  | 24 => ⟨S1x256, .f32⟩
  | 25 => ⟨S20000x256, .f32⟩
  | 26 => ⟨S20000x256, .f32⟩
  | 27 => ⟨S_, .f32⟩
  | 28 => ⟨S20000, .f32⟩
  | 29 => ⟨S20000x1, .f32⟩
  | 30 => ⟨S_, .f32⟩
  | 31 => ⟨S20000x1, .f32⟩
  | 32 => ⟨S20000x1, .f32⟩
  | 33 => ⟨S_, .i32⟩
  | 34 => ⟨S_, .f32⟩
  | 35 => ⟨S20000, .f32⟩
  | 36 => ⟨S20000x1, .f32⟩
  | 37 => ⟨S_, .f32⟩
  | 38 => ⟨S20000x1, .f32⟩
  | 39 => ⟨S20000x1, .f32⟩
  | 40 => ⟨S20000x256, .f32⟩
  | 41 => ⟨S20000x256, .f32⟩
  | 42 => ⟨S20000x256, .f32⟩
  | 43 => ⟨S_, .f32⟩
  | 44 => ⟨S_, .f32⟩
  | 45 => ⟨S_, .f32⟩
  | 46 => ⟨S_, .f32⟩
  | 47 => ⟨S20000, .f32⟩
  | 48 => ⟨S20000x1, .f32⟩
  | 49 => ⟨S20000x1, .f32⟩
  | 50 => ⟨S20000x1, .f32⟩
  | 51 => ⟨S_, .f32⟩
  | 52 => ⟨S_, .i1⟩
  | 53 => ⟨S_, .f32⟩
  | 54 => ⟨S_, .f32⟩
  | 55 => ⟨S20000x1, .f32⟩
  | 56 => ⟨S20000x1, .f32⟩
  | 57 => ⟨S20000x256, .f32⟩
  | 58 => ⟨S20000x256, .f32⟩
  | 59 => ⟨S_, .f32⟩
  | 60 => ⟨S20000x1, .f32⟩
  | 61 => ⟨S20000x1, .f32⟩
  | 62 => ⟨S20000x1, .f32⟩
  | 63 => ⟨S20000x256, .f32⟩
  | 64 => ⟨S20000x256, .f32⟩
  | 65 => ⟨S1x256, .f32⟩
  | 66 => ⟨S20000x256, .f32⟩
  | 67 => ⟨S20000x256, .f32⟩
  | 68 => ⟨S1x256, .f32⟩
  | 69 => ⟨S20000x256, .f32⟩
  | 70 => ⟨S20000x256, .f32⟩
  | 71 => ⟨S_, .f32⟩
  | 72 => ⟨S20000x256, .f32⟩
  | 73 => ⟨S20000x256, .f32⟩
  | 74 => ⟨S20000x256, .f32⟩
  | 75 => ⟨S1x256, .f32⟩
  | 76 => ⟨S20000x256, .f32⟩
  | 77 => ⟨S20000x256, .f32⟩
  | 78 => ⟨S20000x128, .f32⟩
  | 79 => ⟨S1x128, .f32⟩
  | 80 => ⟨S20000x128, .f32⟩
  | 81 => ⟨S20000x128, .f32⟩
  | 82 => ⟨S_, .f32⟩
  | 83 => ⟨S20000x128, .f32⟩
  | 84 => ⟨S20000x128, .f32⟩
  | 85 => ⟨S20000x4, .f32⟩
  | 86 => ⟨S1x4, .f32⟩
  | 87 => ⟨S20000x4, .f32⟩
  | 88 => ⟨S20000x4, .f32⟩
  | 89 => ⟨S20000x4, .f32⟩
  | 90 => ⟨S20000x4, .f32⟩
  | 91 => ⟨S_, .f32⟩
  | 92 => ⟨S20000x4, .f32⟩
  | 93 => ⟨S20000x4, .f32⟩
  | 94 => ⟨S_, .f32⟩
  | 95 => ⟨S20000x4, .f32⟩
  | 96 => ⟨S20000x4, .f32⟩
  | 97 => ⟨S20000x128, .f32⟩
  | 98 => ⟨S1x128, .f32⟩
  | 99 => ⟨S20000x128, .f32⟩
  | 100 => ⟨S20000x128, .f32⟩
  | 101 => ⟨S_, .f32⟩
  | 102 => ⟨S20000x128, .f32⟩
  | 103 => ⟨S20000x128, .f32⟩
  | 104 => ⟨S20000x2, .f32⟩
  | 105 => ⟨S1x2, .f32⟩
  | 106 => ⟨S20000x2, .f32⟩
  | 107 => ⟨S20000x2, .f32⟩
  | 108 => ⟨S20000x2, .f32⟩
  | 109 => ⟨S20000x2, .f32⟩
  | 110 => ⟨S_, .f32⟩
  | 111 => ⟨S20000x2, .f32⟩
  | 112 => ⟨S20000x2, .f32⟩
  | 113 => ⟨S_, .f32⟩
  | 114 => ⟨S20000x2, .f32⟩
  | 115 => ⟨S20000x2, .f32⟩
  | 116 => ⟨S_, .f32⟩
  | 117 => ⟨S20000x2, .f32⟩
  | 118 => ⟨S20000x2, .f32⟩
  | 119 => ⟨S_, .f32⟩
  | 120 => ⟨S20000x2, .f32⟩
  | 121 => ⟨S20000x2, .f32⟩
  | 122 => ⟨S20000x128, .f32⟩
  | 123 => ⟨S1x128, .f32⟩
  | 124 => ⟨S20000x128, .f32⟩
  | 125 => ⟨S20000x128, .f32⟩
  | 126 => ⟨S_, .f32⟩
  | 127 => ⟨S20000x128, .f32⟩
  | _ => ⟨S20000x512, .f32⟩

abbrev hbmTy0_1 (i : Nat) : BufTy := match i % 128 with
  | 0 => ⟨S20000x128, .f32⟩
  | 1 => ⟨S20000x1, .f32⟩
  | 2 => ⟨S1x1, .f32⟩
  | 3 => ⟨S20000x1, .f32⟩
  | 4 => ⟨S20000x1, .f32⟩
  | 5 => ⟨S20000x1, .f32⟩
  | 6 => ⟨S20000x1, .f32⟩
  | 7 => ⟨S_, .f32⟩
  | 8 => ⟨S20000x1, .f32⟩
  | 9 => ⟨S20000x1, .f32⟩
  | 10 => ⟨S_, .f32⟩
  | 11 => ⟨S20000x1, .f32⟩
  | 12 => ⟨S20000x1, .f32⟩
  | 13 => ⟨S20000x7, .f32⟩
  | 14 => ⟨S20000x263, .f32⟩
  | 15 => ⟨S20000x128, .f32⟩
  | 16 => ⟨S1x128, .f32⟩
  | 17 => ⟨S20000x128, .f32⟩
  | 18 => ⟨S20000x128, .f32⟩
  | 19 => ⟨S_, .f32⟩
  | 20 => ⟨S20000x128, .f32⟩
  | 21 => ⟨S20000x128, .f32⟩
  | 22 => ⟨S20000x1, .f32⟩
  | 23 => ⟨S1x1, .f32⟩
  | 24 => ⟨S20000x1, .f32⟩
  | 25 => ⟨S20000x1, .f32⟩
  | 26 => ⟨S20000x1, .f32⟩
  | 27 => ⟨S20000x1, .f32⟩
  | 28 => ⟨S_, .f32⟩
  | 29 => ⟨S20000x1, .f32⟩
  | 30 => ⟨S20000x1, .f32⟩
  | 31 => ⟨S_, .f32⟩
  | 32 => ⟨S20000x1, .f32⟩
  | 33 => ⟨S20000x1, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_c : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_cst_3 : Ref sig .tc := ⟨.hbm, 51, rfl⟩
abbrev main_call0_v13 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_1 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_call1_cst : Ref sig .tc := ⟨.hbm, 71, rfl⟩
abbrev main_call1_v0 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_call2_cst : Ref sig .tc := ⟨.hbm, 82, rfl⟩
abbrev main_call2_v0 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_cst_2 : Ref sig .tc := ⟨.hbm, 91, rfl⟩
abbrev main_v38 : Ref sig .tc := ⟨.hbm, 92, rfl⟩
abbrev main_v39 : Ref sig .tc := ⟨.hbm, 93, rfl⟩
abbrev main_cst_3 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_call3_cst : Ref sig .tc := ⟨.hbm, 101, rfl⟩
abbrev main_call3_v0 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_cst_4 : Ref sig .tc := ⟨.hbm, 110, rfl⟩
abbrev main_v53 : Ref sig .tc := ⟨.hbm, 111, rfl⟩
abbrev main_v54 : Ref sig .tc := ⟨.hbm, 112, rfl⟩
abbrev main_cst_5 : Ref sig .tc := ⟨.hbm, 113, rfl⟩
abbrev main_v55 : Ref sig .tc := ⟨.hbm, 114, rfl⟩
abbrev main_v56 : Ref sig .tc := ⟨.hbm, 115, rfl⟩
abbrev main_cst_6 : Ref sig .tc := ⟨.hbm, 116, rfl⟩
abbrev main_v57 : Ref sig .tc := ⟨.hbm, 117, rfl⟩
abbrev main_v58 : Ref sig .tc := ⟨.hbm, 118, rfl⟩
abbrev main_cst_7 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_call4_cst : Ref sig .tc := ⟨.hbm, 126, rfl⟩
abbrev main_call4_v0 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_cst_8 : Ref sig .tc := ⟨.hbm, 135, rfl⟩
abbrev main_v72 : Ref sig .tc := ⟨.hbm, 136, rfl⟩
abbrev main_v73 : Ref sig .tc := ⟨.hbm, 137, rfl⟩
abbrev main_cst_9 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_call5_cst : Ref sig .tc := ⟨.hbm, 147, rfl⟩
abbrev main_call5_v0 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_cst_10 : Ref sig .tc := ⟨.hbm, 156, rfl⟩
abbrev main_v89 : Ref sig .tc := ⟨.hbm, 157, rfl⟩
abbrev main_v90 : Ref sig .tc := ⟨.hbm, 158, rfl⟩
abbrev main_cst_11 : Ref sig .tc := ⟨.hbm, 159, rfl⟩
abbrev main_v91 : Ref sig .tc := ⟨.hbm, 160, rfl⟩
abbrev main_v92 : Ref sig .tc := ⟨.hbm, 161, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  reducesTo_S20000x256_S20000_d1 : S20000x256.ReducesTo [1] S20000
  h_S_ : 0 < S_.numel
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  bcast_S_S20000x256 : S_.BroadcastsInDim S20000x256 (![] : Fin 0 → Fin S20000x256.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S4_S1x4_1 : S4.BroadcastsInDim S1x4 (![1] : Fin 1 → Fin S1x4.rank)
  bcast_S1x4_S20000x4_0_1 : S1x4.BroadcastsInDim S20000x4 (![0, 1] : Fin 2 → Fin S20000x4.rank)
  bcast_S_S20000x4 : S_.BroadcastsInDim S20000x4 (![] : Fin 0 → Fin S20000x4.rank)
  bcast_S2_S1x2_1 : S2.BroadcastsInDim S1x2 (![1] : Fin 1 → Fin S1x2.rank)
  bcast_S1x2_S20000x2_0_1 : S1x2.BroadcastsInDim S20000x2 (![0, 1] : Fin 2 → Fin S20000x2.rank)
  bcast_S_S20000x2 : S_.BroadcastsInDim S20000x2 (![] : Fin 0 → Fin S20000x2.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  concatenates_S20000x4_S20000x2_S20000x1_S20000x7_d1 : Shape.Concatenates [S20000x4, S20000x2, S20000x1] S20000x7 1
  concatenates_S20000x256_S20000x7_S20000x263_d1 : Shape.Concatenates [S20000x256, S20000x7] S20000x263 1
  dot_S20000x512_S512x256_S20000x256_1_0_0_1_n_n_wf : DotDims.WF S20000x512 S512x256 S20000x256 [1] [0] [0] [1] [] []
  dot_S20000x256_S256x256_S20000x256_1_0_0_1_n_n_wf : DotDims.WF S20000x256 S256x256 S20000x256 [1] [0] [0] [1] [] []
  dot_S20000x256_S256x128_S20000x128_1_0_0_1_n_n_wf : DotDims.WF S20000x256 S256x128 S20000x128 [1] [0] [0] [1] [] []
  dot_S20000x128_S128x4_S20000x4_1_0_0_1_n_n_wf : DotDims.WF S20000x128 S128x4 S20000x4 [1] [0] [0] [1] [] []
  dot_S20000x128_S128x2_S20000x2_1_0_0_1_n_n_wf : DotDims.WF S20000x128 S128x2 S20000x2 [1] [0] [0] [1] [] []
  dot_S20000x128_S128x1_S20000x1_1_0_0_1_n_n_wf : DotDims.WF S20000x128 S128x1 S20000x1 [1] [0] [0] [1] [] []
  dot_S20000x263_S263x128_S20000x128_1_0_0_1_n_n_wf : DotDims.WF S20000x263 S263x128 S20000x128 [1] [0] [0] [1] [] []

variable [Facts₀]

def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S20000x128_S128x4_S20000x4_1_0_0_1_n_n : DotDims S20000x128 S128x4 S20000x4 where
  lhsContracting := [1]
  rhsContracting := [0]
  lhsNonContracting := [0]
  rhsNonContracting := [1]
  lhsBatch := []
  rhsBatch := []
  wf := dot_S20000x128_S128x4_S20000x4_1_0_0_1_n_n_wf
def dot_S20000x128_S128x2_S20000x2_1_0_0_1_n_n : DotDims S20000x128 S128x2 S20000x2 where
  lhsContracting := [1]
  rhsContracting := [0]
  lhsNonContracting := [0]
  rhsNonContracting := [1]
  lhsBatch := []
  rhsBatch := []
  wf := dot_S20000x128_S128x2_S20000x2_1_0_0_1_n_n_wf
def dot_S20000x128_S128x1_S20000x1_1_0_0_1_n_n : DotDims S20000x128 S128x1 S20000x1 where
  lhsContracting := [1]
  rhsContracting := [0]
  lhsNonContracting := [0]
  rhsNonContracting := [1]
  lhsBatch := []
  rhsBatch := []
  wf := dot_S20000x128_S128x1_S20000x1_1_0_0_1_n_n_wf
def dot_S20000x263_S263x128_S20000x128_1_0_0_1_n_n : DotDims S20000x263 S263x128 S20000x128 where
  lhsContracting := [1]
  rhsContracting := [0]
  lhsNonContracting := [0]
  rhsNonContracting := [1]
  lhsBatch := []
  rhsBatch := []
  wf := dot_S20000x263_S263x128_S20000x128_1_0_0_1_n_n_wf

class Facts : Prop extends Facts₀ where

variable [Facts]
-- ==== Proof.HeadRow.lean ====
/-
  One row of the detection head, as plain functions over the extended reals.

  A row of features f (512 numbers) goes through an affine layer (W1, b1), a layer normalisation over its 256
  coordinates (gain g, shift be, the small constant eps under the root), a rectifier, a second affine layer (W2, b2),
  and then three small two-layer heads whose last layers end in the logistic function: four box numbers, two scale
  numbers (stretched by span and moved by the least size), one context score.  A fourth head reads the 256 trunk
  numbers and the seven head outputs side by side (263 numbers) through a 263 x 128 matrix fW1, a rectifier, a last
  column fW2 and the logistic function: the confidence.

  The two programs spell three steps differently, and both spellings are written down here.
  * The variance: the mean of the squares less the squared mean (first program), the mean of the squared
    distances from the mean (second program).
  * The normalisation: times the reciprocal root (first), divided by the root (second).
  * The confidence head's first layer: the first program never forms the stretched scales as an input.  It multiplies the
    raw logistic outputs with a copy of rows 256..262 of fW1 whose rows 260 and 261 are stretched by span, and adds
    least-size times (row 260 + row 261) to the bias; the second program multiplies the 263 inputs with fW1 as it is.
  That they agree on finite inputs is proved in the module that imports this one.
-/
import Idealize.ShloMosaic.PureOps.Ideal
import Idealize.ShloMosaic.Lib.ValueIdx

noncomputable section

namespace HeadRow

open Idealize.ShloMosaic Idealize.ShloMosaic.ValueIdx

/-- An extended real that is a real number. -/
def IsReal (x : EReal) : Prop := ∃ r : ℝ, x = (r : EReal)

/-! ## The constants, as the words both programs print -/

abbrev c0 : EReal := Ideal.ofBits .f32 0x00000000#32
abbrev c1 : EReal := Ideal.ofBits .f32 0x3F800000#32
abbrev c256 : EReal := Ideal.ofBits .f32 0x43800000#32
abbrev ceps : EReal := Ideal.ofBits .f32 0x3727C5AC#32
abbrev cspan : EReal := Ideal.ofBits .f32 0x3DA3D70A#32
abbrev cmin : EReal := Ideal.ofBits .f32 0x3CA3D70A#32

/-! ## The weights -/

/-- Every weight but the confidence head's first matrix. -/
structure Common where
  W1 : Fin 512 → Fin 256 → EReal
  b1 : Fin 256 → EReal
  g : Fin 256 → EReal
  be : Fin 256 → EReal
  W2 : Fin 256 → Fin 256 → EReal
  b2 : Fin 256 → EReal
  lW1 : Fin 256 → Fin 128 → EReal
  lb1 : Fin 128 → EReal
  lW2 : Fin 128 → Fin 4 → EReal
  lb2 : Fin 4 → EReal
  sW1 : Fin 256 → Fin 128 → EReal
  sb1 : Fin 128 → EReal
  sW2 : Fin 128 → Fin 2 → EReal
  sb2 : Fin 2 → EReal
  cW1 : Fin 256 → Fin 128 → EReal
  cb1 : Fin 128 → EReal
  cW2 : Fin 128 → Fin 1 → EReal
  cb2 : Fin 1 → EReal

/-- All the weights, the confidence head's first matrix whole: 263 rows. -/
structure Params extends Common where
  fW1 : Fin 263 → Fin 128 → EReal
  fb1 : Fin 128 → EReal
  fW2 : Fin 128 → Fin 1 → EReal
  fb2 : Fin 1 → EReal

/-- All the weights, that matrix in two parts: rows 0..255 and rows 256..262. -/
structure KParams extends Common where
  fLo : Fin 256 → Fin 128 → EReal
  fHi : Fin 7 → Fin 128 → EReal
  fb1 : Fin 128 → EReal
  fW2 : Fin 128 → Fin 1 → EReal
  fb2 : Fin 1 → EReal

/-- The whole matrix cut in its two parts. -/
def Params.toK (P : Params) : KParams where
  toCommon := P.toCommon
  fLo := fun k j => P.fW1 ⟨k.val, by have := k.isLt; omega⟩ j
  fHi := fun i j => P.fW1 ⟨256 + i.val, by have := i.isLt; omega⟩ j
  fb1 := P.fb1
  fW2 := P.fW2
  fb2 := P.fb2

/-! ## The steps both programs share -/

/-- An affine layer: `x · W + b`. -/
def lin {K N : Nat} (W : Fin K → Fin N → EReal) (b : Fin N → EReal) (x : Fin K → EReal) (j : Fin N) : EReal :=
  (∑ k : Fin K, x k * W k j) + b j

/-- The rectifier. -/
def relu {N : Nat} (x : Fin N → EReal) (j : Fin N) : EReal := max (x j) c0

/-- The mean of 256 numbers. -/
def mean (x : Fin 256 → EReal) : EReal := Ideal.div (∑ j : Fin 256, x j) c256

/-- The first layer's output. -/
def x1 (C : Common) (f : Fin 512 → EReal) : Fin 256 → EReal := lin C.W1 C.b1 f

/-- Three pieces of 4, 2 and 1 numbers side by side. -/
def cat7 (a : Fin 4 → EReal) (b : Fin 2 → EReal) (c : Fin 1 → EReal) (i : Fin 7) : EReal :=
  if h : i.val < 4 then a ⟨i.val, h⟩
  else if h2 : i.val < 6 then b ⟨i.val - 4, by omega⟩
  else c ⟨i.val - 6, by have := i.isLt; omega⟩

/-- 256 numbers and 7 numbers side by side. -/
def cat263 (z : Fin 256 → EReal) (u : Fin 7 → EReal) (k : Fin 263) : EReal :=
  if h : k.val < 256 then z ⟨k.val, h⟩ else u ⟨k.val - 256, by have := k.isLt; omega⟩

/-- The three heads before the logistic function, from the trunk's output `z`. -/
def preL (C : Common) (z : Fin 256 → EReal) : Fin 4 → EReal := lin C.lW2 C.lb2 (relu (lin C.lW1 C.lb1 z))
def preS (C : Common) (z : Fin 256 → EReal) : Fin 2 → EReal := lin C.sW2 C.sb2 (relu (lin C.sW1 C.sb1 z))
def preC (C : Common) (z : Fin 256 → EReal) : Fin 1 → EReal := lin C.cW2 C.cb2 (relu (lin C.cW1 C.cb1 z))

/-! ## The first program's spelling -/

/-- Mean of squares less squared mean. -/
def varK (x : Fin 256 → EReal) : EReal := Ideal.div (∑ j : Fin 256, x j * x j) c256 - mean x * mean x

/-- Normalise with the reciprocal root, scale by `g`, shift by `be`, rectify. -/
def normK (g be : Fin 256 → EReal) (x : Fin 256 → EReal) (j : Fin 256) : EReal :=
  max (((x j - mean x) * Ideal.rsqrt (varK x + ceps)) * g j + be j) c0

/-- The trunk's output. -/
def zK (C : Common) (f : Fin 512 → EReal) : Fin 256 → EReal := lin C.W2 C.b2 (normK C.g C.be (x1 C f))

/-- The logistic function over the seven packed head values. -/
def sig7 (C : Common) (z : Fin 256 → EReal) (i : Fin 7) : EReal :=
  Ideal.logistic (cat7 (preL C z) (preS C z) (preC C z) i)

/-- Rows 256..262 of the confidence matrix (`fHi`) with rows 260 and 261 stretched by span. -/
def fHiS (fHi : Fin 7 → Fin 128 → EReal) (i : Fin 7) (j : Fin 128) : EReal :=
  cat7 (fun a => fHi ⟨a.val, by have := a.isLt; omega⟩ j)
    (fun a => fHi ⟨a.val + 4, by have := a.isLt; omega⟩ j * cspan)
    (fun a => fHi ⟨a.val + 6, by have := a.isLt; omega⟩ j) i

/-- The confidence head's hidden layer, first program: the trunk's output `z` against rows 0..255, the seven raw
    logistic values `s` against the stretched rows 256..262, and the bias with least-size times (row 260 + row 261). -/
def hidK (fLo : Fin 256 → Fin 128 → EReal) (fHi : Fin 7 → Fin 128 → EReal) (fb1 : Fin 128 → EReal)
    (z : Fin 256 → EReal) (s : Fin 7 → EReal) (j : Fin 128) : EReal :=
  max (((∑ k : Fin 256, z k * fLo k j) + (∑ i : Fin 7, s i * fHiS fHi i j)) + (fb1 j + cmin * (fHi 4 j + fHi 5 j))) c0

def boxesK (C : Common) (f : Fin 512 → EReal) (q : Fin 4) : EReal :=
  sig7 C (zK C f) ⟨q.val, by have := q.isLt; omega⟩
def scalesK (C : Common) (f : Fin 512 → EReal) (q : Fin 2) : EReal :=
  sig7 C (zK C f) ⟨q.val + 4, by have := q.isLt; omega⟩ * cspan + cmin
def ctxK (C : Common) (f : Fin 512 → EReal) (_q : Fin 1) : EReal :=
  sig7 C (zK C f) 6
def confK (P : KParams) (f : Fin 512 → EReal) (_q : Fin 1) : EReal :=
  Ideal.logistic ((∑ k : Fin 128, hidK P.fLo P.fHi P.fb1 (zK P.toCommon f) (sig7 P.toCommon (zK P.toCommon f)) k * P.fW2 k 0)
    + P.fb2 0)

/-! ## The second program's spelling -/

/-- Mean of squared distances from the mean. -/
def varR (x : Fin 256 → EReal) : EReal := Ideal.div (∑ j : Fin 256, (x j - mean x) * (x j - mean x)) c256

/-- Normalise by dividing by the root, scale, shift, rectify. -/
def normR (g be : Fin 256 → EReal) (x : Fin 256 → EReal) (j : Fin 256) : EReal :=
  max (Ideal.div (x j - mean x) (Ideal.sqrt (varR x + ceps)) * g j + be j) c0

def zR (C : Common) (f : Fin 512 → EReal) : Fin 256 → EReal := lin C.W2 C.b2 (normR C.g C.be (x1 C f))

def boxesZ (C : Common) (z : Fin 256 → EReal) (q : Fin 4) : EReal := Ideal.logistic (preL C z q)
def scalesZ (C : Common) (z : Fin 256 → EReal) (q : Fin 2) : EReal := Ideal.logistic (preS C z q) * cspan + cmin
def ctxZ (C : Common) (z : Fin 256 → EReal) (q : Fin 1) : EReal := Ideal.logistic (preC C z q)

/-- The confidence from the trunk's output, second program. -/
def confZ (P : Params) (z : Fin 256 → EReal) : EReal :=
  Ideal.logistic (lin P.fW2 P.fb2 (relu (lin P.fW1 P.fb1
    (cat263 z (cat7 (boxesZ P.toCommon z) (scalesZ P.toCommon z) (ctxZ P.toCommon z))))) 0)

def boxesR (P : Params) (f : Fin 512 → EReal) (q : Fin 4) : EReal := boxesZ P.toCommon (zR P.toCommon f) q
def scalesR (P : Params) (f : Fin 512 → EReal) (q : Fin 2) : EReal := scalesZ P.toCommon (zR P.toCommon f) q
def ctxR (P : Params) (f : Fin 512 → EReal) (q : Fin 1) : EReal := ctxZ P.toCommon (zR P.toCommon f) q
def confR (P : Params) (f : Fin 512 → EReal) (_q : Fin 1) : EReal := confZ P (zR P.toCommon f)

/-! ## The weights read off whole arrays -/

abbrev Arr2 (a b : Nat) : Type := (⟨2, ![a, b]⟩ : Shape).Idx → EReal
abbrev Arr1 (a : Nat) : Type := (⟨1, ![a]⟩ : Shape).Idx → EReal

/-- A matrix as a function of its two coordinates. -/
def mat {a b : Nat} (A : Arr2 a b) : Fin a → Fin b → EReal := fun k j => A (ix2 k j)
/-- A rank-one array as a function of its coordinate. -/
def vec {a : Nat} (A : Arr1 a) : Fin a → EReal := fun j => A (ix1 j)
/-- Row `r` of a matrix. -/
def rowOf {a b : Nat} (A : Arr2 a b) (r : Fin a) : Fin b → EReal := fun k => A (ix2 r k)

/-- The one row of a [1, n] array. -/
def row0 {n : Nat} (A : Arr2 1 n) : Fin n → EReal := fun j => A (ix2 0 j)

/-- The weights from the 22 weight arguments as the programs receive them (biases rank one). -/
def paramsOf (a1 : Arr2 512 256) (a2 a3 a4 : Arr1 256) (a5 : Arr2 256 256) (a6 : Arr1 256)
    (a7 : Arr2 256 128) (a8 : Arr1 128) (a9 : Arr2 128 4) (a10 : Arr1 4)
    (a11 : Arr2 256 128) (a12 : Arr1 128) (a13 : Arr2 128 2) (a14 : Arr1 2)
    (a15 : Arr2 256 128) (a16 : Arr1 128) (a17 : Arr2 128 1) (a18 : Arr1 1)
    (a19 : Arr2 263 128) (a20 : Arr1 128) (a21 : Arr2 128 1) (a22 : Arr1 1) : Params where
  W1 := mat a1
  b1 := vec a2
  g := vec a3
  be := vec a4
  W2 := mat a5
  b2 := vec a6
  lW1 := mat a7
  lb1 := vec a8
  lW2 := mat a9
  lb2 := vec a10
  sW1 := mat a11
  sb1 := vec a12
  sW2 := mat a13
  sb2 := vec a14
  cW1 := mat a15
  cb1 := vec a16
  cW2 := mat a17
  cb2 := vec a18
  fW1 := mat a19
  fb1 := vec a20
  fW2 := mat a21
  fb2 := vec a22

/-- The trunk's and the three heads' weights as the first program's body loads them (biases as [1, n] rows). -/
def commonOfLoads (p1 : Arr2 512 256) (p2 p3 p4 : Arr2 1 256) (p5 : Arr2 256 256) (p6 : Arr2 1 256)
    (p7 : Arr2 256 128) (p8 : Arr2 1 128) (p9 : Arr2 128 4) (p10 : Arr2 1 4)
    (p11 : Arr2 256 128) (p12 : Arr2 1 128) (p13 : Arr2 128 2) (p14 : Arr2 1 2)
    (p15 : Arr2 256 128) (p16 : Arr2 1 128) (p17 : Arr2 128 1) (p18 : Arr2 1 1) : Common where
  W1 := mat p1
  b1 := row0 p2
  g := row0 p3
  be := row0 p4
  W2 := mat p5
  b2 := row0 p6
  lW1 := mat p7
  lb1 := row0 p8
  lW2 := mat p9
  lb2 := row0 p10
  sW1 := mat p11
  sb1 := row0 p12
  sW2 := mat p13
  sb2 := row0 p14
  cW1 := mat p15
  cb1 := row0 p16
  cW2 := mat p17
  cb2 := row0 p18

/-- All the weights as the first program's body loads them: rows 256..262 of the confidence matrix (`p19`) and
    its rows 0..255 (`p21`) are two loads. -/
def kparamsOfLoads (p1 : Arr2 512 256) (p2 p3 p4 : Arr2 1 256) (p5 : Arr2 256 256) (p6 : Arr2 1 256)
    (p7 : Arr2 256 128) (p8 : Arr2 1 128) (p9 : Arr2 128 4) (p10 : Arr2 1 4)
    (p11 : Arr2 256 128) (p12 : Arr2 1 128) (p13 : Arr2 128 2) (p14 : Arr2 1 2)
    (p15 : Arr2 256 128) (p16 : Arr2 1 128) (p17 : Arr2 128 1) (p18 : Arr2 1 1)
    (p19 : Arr2 7 128) (p20 : Arr2 1 128) (p21 : Arr2 256 128) (p22 : Arr2 128 1) (p23 : Arr2 1 1) : KParams where
  toCommon := commonOfLoads p1 p2 p3 p4 p5 p6 p7 p8 p9 p10 p11 p12 p13 p14 p15 p16 p17 p18
  fLo := mat p21
  fHi := mat p19
  fb1 := row0 p20
  fW2 := mat p22
  fb2 := row0 p23

/-! ## The four results as whole arrays: entry (r, q) is the row function of row r of the features -/

section Whole
variable (a0 : Arr2 20000 512) (a1 : Arr2 512 256) (a2 a3 a4 : Arr1 256) (a5 : Arr2 256 256) (a6 : Arr1 256)
    (a7 : Arr2 256 128) (a8 : Arr1 128) (a9 : Arr2 128 4) (a10 : Arr1 4)
    (a11 : Arr2 256 128) (a12 : Arr1 128) (a13 : Arr2 128 2) (a14 : Arr1 2)
    (a15 : Arr2 256 128) (a16 : Arr1 128) (a17 : Arr2 128 1) (a18 : Arr1 1)
    (a19 : Arr2 263 128) (a20 : Arr1 128) (a21 : Arr2 128 1) (a22 : Arr1 1)

/-- The first program's spelling. -/
def GK_boxes : Arr2 20000 4 := fun i =>
  boxesK (paramsOf a1 a2 a3 a4 a5 a6 a7 a8 a9 a10 a11 a12 a13 a14 a15 a16 a17 a18 a19 a20 a21 a22).toCommon (rowOf a0 (i 0)) (i 1)
def GK_scales : Arr2 20000 2 := fun i =>
  scalesK (paramsOf a1 a2 a3 a4 a5 a6 a7 a8 a9 a10 a11 a12 a13 a14 a15 a16 a17 a18 a19 a20 a21 a22).toCommon (rowOf a0 (i 0)) (i 1)
def GK_ctx : Arr2 20000 1 := fun i =>
  ctxK (paramsOf a1 a2 a3 a4 a5 a6 a7 a8 a9 a10 a11 a12 a13 a14 a15 a16 a17 a18 a19 a20 a21 a22).toCommon (rowOf a0 (i 0)) (i 1)
def GK_conf : Arr2 20000 1 := fun i =>
  confK (paramsOf a1 a2 a3 a4 a5 a6 a7 a8 a9 a10 a11 a12 a13 a14 a15 a16 a17 a18 a19 a20 a21 a22).toK (rowOf a0 (i 0)) (i 1)

/-- The second program's spelling. -/
def GR_boxes : Arr2 20000 4 := fun i =>
  boxesR (paramsOf a1 a2 a3 a4 a5 a6 a7 a8 a9 a10 a11 a12 a13 a14 a15 a16 a17 a18 a19 a20 a21 a22) (rowOf a0 (i 0)) (i 1)
def GR_scales : Arr2 20000 2 := fun i =>
  scalesR (paramsOf a1 a2 a3 a4 a5 a6 a7 a8 a9 a10 a11 a12 a13 a14 a15 a16 a17 a18 a19 a20 a21 a22) (rowOf a0 (i 0)) (i 1)
def GR_ctx : Arr2 20000 1 := fun i =>
  ctxR (paramsOf a1 a2 a3 a4 a5 a6 a7 a8 a9 a10 a11 a12 a13 a14 a15 a16 a17 a18 a19 a20 a21 a22) (rowOf a0 (i 0)) (i 1)
def GR_conf : Arr2 20000 1 := fun i =>
  confR (paramsOf a1 a2 a3 a4 a5 a6 a7 a8 a9 a10 a11 a12 a13 a14 a15 a16 a17 a18 a19 a20 a21 a22) (rowOf a0 (i 0)) (i 1)

end Whole

end HeadRow

end
-- ==== Proof.KernelBlocks.lean ====
import proofs.«161107_g884763263511_cont_9to1_m_545_23_alg».proof.Proof.Gen.KernelIdeal.Frame
import proofs.«161107_g884763263511_cont_9to1_m_545_23_alg».proof.Proof.HeadRow
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen HeadRow Idealize.ShloMosaic Idealize.ShloMosaic.TcCoe Idealize.SL.Sem Idealize.ShloMosaic.ValueIdx

variable (m : (ℓ : Loc nD τ sig) → Buf (Elt Ideal) ℓ)

/-- Load 0 of the body at point `t`: rectangle `r0_0` of window 0's block. -/
abbrev ld0 (c : Dev nD) (t : Fin cfg0.N) : Vec Ideal S4000x512 .f32 := View.ld (iblk m c 0 t) r0_0
/-- Load 1 of the body at point `t`: rectangle `r0_1` of window 1's block. -/
abbrev ld1 (c : Dev nD) (t : Fin cfg0.N) : Vec Ideal S512x256 .f32 := View.ld (iblk m c 1 t) r0_1
/-- Load 2 of the body at point `t`: rectangle `r0_2` of window 2's block. -/
abbrev ld2 (c : Dev nD) (t : Fin cfg0.N) : Vec Ideal S1x256 .f32 := View.ld (iblk m c 2 t) r0_2
/-- Load 3 of the body at point `t`: rectangle `r0_2` of window 3's block. -/
abbrev ld3 (c : Dev nD) (t : Fin cfg0.N) : Vec Ideal S1x256 .f32 := View.ld (iblk m c 3 t) r0_2
/-- Load 4 of the body at point `t`: rectangle `r0_2` of window 4's block. -/
abbrev ld4 (c : Dev nD) (t : Fin cfg0.N) : Vec Ideal S1x256 .f32 := View.ld (iblk m c 4 t) r0_2
/-- Load 5 of the body at point `t`: rectangle `r0_3` of window 5's block. -/
abbrev ld5 (c : Dev nD) (t : Fin cfg0.N) : Vec Ideal S256x256 .f32 := View.ld (iblk m c 5 t) r0_3
/-- Load 6 of the body at point `t`: rectangle `r0_2` of window 6's block. -/
abbrev ld6 (c : Dev nD) (t : Fin cfg0.N) : Vec Ideal S1x256 .f32 := View.ld (iblk m c 6 t) r0_2
/-- Load 7 of the body at point `t`: rectangle `r0_4` of window 7's block. -/
abbrev ld7 (c : Dev nD) (t : Fin cfg0.N) : Vec Ideal S256x128 .f32 := View.ld (iblk m c 7 t) r0_4
/-- Load 8 of the body at point `t`: rectangle `r0_5` of window 8's block. -/
abbrev ld8 (c : Dev nD) (t : Fin cfg0.N) : Vec Ideal S1x128 .f32 := View.ld (iblk m c 8 t) r0_5
/-- Load 9 of the body at point `t`: rectangle `r0_6` of window 9's block. -/
abbrev ld9 (c : Dev nD) (t : Fin cfg0.N) : Vec Ideal S128x4 .f32 := View.ld (iblk m c 9 t) r0_6
/-- Load 10 of the body at point `t`: rectangle `r0_7` of window 10's block. -/
abbrev ld10 (c : Dev nD) (t : Fin cfg0.N) : Vec Ideal S1x4 .f32 := View.ld (iblk m c 10 t) r0_7
/-- Load 11 of the body at point `t`: rectangle `r0_4` of window 11's block. -/
abbrev ld11 (c : Dev nD) (t : Fin cfg0.N) : Vec Ideal S256x128 .f32 := View.ld (iblk m c 11 t) r0_4
/-- Load 12 of the body at point `t`: rectangle `r0_5` of window 12's block. -/
abbrev ld12 (c : Dev nD) (t : Fin cfg0.N) : Vec Ideal S1x128 .f32 := View.ld (iblk m c 12 t) r0_5
/-- Load 13 of the body at point `t`: rectangle `r0_8` of window 13's block. -/
abbrev ld13 (c : Dev nD) (t : Fin cfg0.N) : Vec Ideal S128x2 .f32 := View.ld (iblk m c 13 t) r0_8
/-- Load 14 of the body at point `t`: rectangle `r0_9` of window 14's block. -/
abbrev ld14 (c : Dev nD) (t : Fin cfg0.N) : Vec Ideal S1x2 .f32 := View.ld (iblk m c 14 t) r0_9
/-- Load 15 of the body at point `t`: rectangle `r0_4` of window 15's block. -/
abbrev ld15 (c : Dev nD) (t : Fin cfg0.N) : Vec Ideal S256x128 .f32 := View.ld (iblk m c 15 t) r0_4
/-- Load 16 of the body at point `t`: rectangle `r0_5` of window 16's block. -/
abbrev ld16 (c : Dev nD) (t : Fin cfg0.N) : Vec Ideal S1x128 .f32 := View.ld (iblk m c 16 t) r0_5
/-- Load 17 of the body at point `t`: rectangle `r0_10` of window 17's block. -/
abbrev ld17 (c : Dev nD) (t : Fin cfg0.N) : Vec Ideal S128x1 .f32 := View.ld (iblk m c 17 t) r0_10
/-- Load 18 of the body at point `t`: rectangle `r0_11` of window 18's block. -/
abbrev ld18 (c : Dev nD) (t : Fin cfg0.N) : Vec Ideal S1x1 .f32 := View.ld (iblk m c 18 t) r0_11
/-- Load 19 of the body at point `t`: rectangle `r0_12` of window 19's block. -/
abbrev ld19 (c : Dev nD) (t : Fin cfg0.N) : Vec Ideal S7x128 .f32 := View.ld (iblk m c 19 t) r0_12
/-- Load 20 of the body at point `t`: rectangle `r0_5` of window 20's block. -/
abbrev ld20 (c : Dev nD) (t : Fin cfg0.N) : Vec Ideal S1x128 .f32 := View.ld (iblk m c 20 t) r0_5
/-- Load 21 of the body at point `t`: rectangle `r0_13` of window 19's block. -/
abbrev ld21 (c : Dev nD) (t : Fin cfg0.N) : Vec Ideal S256x128 .f32 := View.ld (iblk m c 19 t) r0_13
/-- Load 22 of the body at point `t`: rectangle `r0_10` of window 21's block. -/
abbrev ld22 (c : Dev nD) (t : Fin cfg0.N) : Vec Ideal S128x1 .f32 := View.ld (iblk m c 21 t) r0_10
/-- Load 23 of the body at point `t`: rectangle `r0_11` of window 22's block. -/
abbrev ld23 (c : Dev nD) (t : Fin cfg0.N) : Vec Ideal S1x1 .f32 := View.ld (iblk m c 22 t) r0_11

/-- Row `p` of point `t`'s block of the features is row `4000 t + p` of the features. -/
def grow (t : Fin cfg0.N) (p : Fin 4000) : Fin 20000 :=
  ⟨4000 * t.val + p.val, by have ht : t.val < 5 := t.isLt; have := p.isLt; omega⟩

/-! ## Zero offsets, and a load through a whole rectangle

A load through the rectangle that starts at offset zero on both axes and has the buffer's own sizes reads the
buffer itself. -/

/-- The offsets (0, 0) are the constant-zero function of the axis. -/
private theorem hz : (![0, 0] : Fin 2 → Nat) = fun _ => 0 := funext fun a => by fin_cases a <;> rfl

private theorem ld_r0_0 (X : Vec Ideal S4000x512 .f32) : View.ld X r0_0 = X := View.ld_unit_zero (S := S4000x512) hz _ X
private theorem ld_r0_1 (X : Vec Ideal S512x256 .f32) : View.ld X r0_1 = X := View.ld_unit_zero (S := S512x256) hz _ X
private theorem ld_r0_2 (X : Vec Ideal S1x256 .f32) : View.ld X r0_2 = X := View.ld_unit_zero (S := S1x256) hz _ X
private theorem ld_r0_3 (X : Vec Ideal S256x256 .f32) : View.ld X r0_3 = X := View.ld_unit_zero (S := S256x256) hz _ X
private theorem ld_r0_4 (X : Vec Ideal S256x128 .f32) : View.ld X r0_4 = X := View.ld_unit_zero (S := S256x128) hz _ X
private theorem ld_r0_5 (X : Vec Ideal S1x128 .f32) : View.ld X r0_5 = X := View.ld_unit_zero (S := S1x128) hz _ X
private theorem ld_r0_6 (X : Vec Ideal S128x4 .f32) : View.ld X r0_6 = X := View.ld_unit_zero (S := S128x4) hz _ X
private theorem ld_r0_7 (X : Vec Ideal S1x4 .f32) : View.ld X r0_7 = X := View.ld_unit_zero (S := S1x4) hz _ X
private theorem ld_r0_8 (X : Vec Ideal S128x2 .f32) : View.ld X r0_8 = X := View.ld_unit_zero (S := S128x2) hz _ X
private theorem ld_r0_9 (X : Vec Ideal S1x2 .f32) : View.ld X r0_9 = X := View.ld_unit_zero (S := S1x2) hz _ X
private theorem ld_r0_10 (X : Vec Ideal S128x1 .f32) : View.ld X r0_10 = X := View.ld_unit_zero (S := S128x1) hz _ X
private theorem ld_r0_11 (X : Vec Ideal S1x1 .f32) : View.ld X r0_11 = X := View.ld_unit_zero (S := S1x1) hz _ X

/-- Rows 256..262 of a 263-row buffer: entry (i, j) of the load is entry (256 + i, j) of the buffer, the rectangle
    having offset 256 and stride one on the row axis and offset zero on the column axis. -/
private theorem ld_r0_12 (X : Vec Ideal S263x128 .f32) (i : Fin 7) (j : Fin 128) :
    (View.ld X r0_12 : Vec Ideal S7x128 .f32) (ix2 i j) = X (ix2 ⟨256 + i.val, by have := i.isLt; omega⟩ j) := by
  show X _ = X _
  congr 1
  funext a
  apply Fin.ext
  match a with
  | ⟨0, _⟩ => show 256 + 1 * i.val = 256 + i.val; omega
  | ⟨1, _⟩ => show 0 + 1 * j.val = j.val; omega

/-- Rows 0..255 of a 263-row buffer: entry (i, j) of the load is entry (i, j) of the buffer. -/
private theorem ld_r0_13 (X : Vec Ideal S263x128 .f32) (i : Fin 256) (j : Fin 128) :
    (View.ld X r0_13 : Vec Ideal S256x128 .f32) (ix2 i j) = X (ix2 ⟨i.val, by have := i.isLt; omega⟩ j) := by
  show X _ = X _
  congr 1
  funext a
  apply Fin.ext
  match a with
  | ⟨0, _⟩ => show 0 + 1 * i.val = i.val; omega
  | ⟨1, _⟩ => show 0 + 1 * j.val = j.val; omega

/-! ## The features' window

Its index map sends point t to block (t, 0), and a block has 4000 rows and all 512 columns: entry (p, k) of the
block at t sits at row t * 4000 + p, column k, of the array; no operation before the region writes the array. -/

private theorem idx0 : ∀ t : Fin cfg0.N, win0_0.index t (0 : Fin 2) = t.val ∧ win0_0.index t (1 : Fin 2) = 0 :=
  (by decide +kernel : ∀ t : Fin grid0.N, _)

private theorem iblk0_apply (c : Dev nD) (t : Fin cfg0.N) (p : Fin 4000) (k : Fin 512) :
    (iblk m c 0 t : Vec Ideal S4000x512 .f32) (ix2 p k)
      = (m ((c.tc : Thread nD τ).loc main_arg0) : S20000x512.Idx → EReal) (ix2 (grow t p) k) := by
  obtain ⟨e0, e1⟩ := idx0 t
  unfold iblk
  rw [View.read_apply]
  show V m c main_arg0 _ = _
  rw [V_main_arg0]
  congr 1
  funext a
  apply Fin.ext
  match a with
  | ⟨0, _⟩ => show win0_0.index t 0 * 4000 + 1 * p.val = 4000 * t.val + p.val; rw [e0]; omega
  | ⟨1, _⟩ => show win0_0.index t 1 * 512 + 1 * k.val = k.val; rw [e1]; omega

/-! ## The weight matrices' windows

Each has the constant index map (0, 0) and a block as large as its array, so entry x of the block at any point is
entry x of the array (0 * size + x on each axis), and no operation before the region writes the array. -/

private theorem idx1 : ∀ t : Fin cfg0.N, win0_1.index t (0 : Fin 2) = 0 ∧ win0_1.index t (1 : Fin 2) = 0 :=
  (by decide +kernel : ∀ t : Fin grid0.N, _)

private theorem iblk1_apply (c : Dev nD) (t : Fin cfg0.N) (x : S512x256.Idx) :
    (iblk m c 1 t : Vec Ideal S512x256 .f32) x = (m ((c.tc : Thread nD τ).loc main_arg1) : S512x256.Idx → EReal) x := by
  obtain ⟨e0, e1⟩ := idx1 t
  unfold iblk
  rw [View.read_apply]
  show V m c main_arg1 _ = _
  rw [V_main_arg1]
  congr 1
  funext a
  apply Fin.ext
  match a with
  | ⟨0, _⟩ => show win0_1.index t 0 * 512 + 1 * (x 0).val = (x 0).val; rw [e0]; omega
  | ⟨1, _⟩ => show win0_1.index t 1 * 256 + 1 * (x 1).val = (x 1).val; rw [e1]; omega

private theorem idx5 : ∀ t : Fin cfg0.N, win0_5.index t (0 : Fin 2) = 0 ∧ win0_5.index t (1 : Fin 2) = 0 :=
  (by decide +kernel : ∀ t : Fin grid0.N, _)

private theorem iblk5_apply (c : Dev nD) (t : Fin cfg0.N) (x : S256x256.Idx) :
    (iblk m c 5 t : Vec Ideal S256x256 .f32) x = (m ((c.tc : Thread nD τ).loc main_arg5) : S256x256.Idx → EReal) x := by
  obtain ⟨e0, e1⟩ := idx5 t
  unfold iblk
  rw [View.read_apply]
  show V m c main_arg5 _ = _
  rw [V_main_arg5]
  congr 1
  funext a
  apply Fin.ext
  match a with
  | ⟨0, _⟩ => show win0_5.index t 0 * 256 + 1 * (x 0).val = (x 0).val; rw [e0]; omega
  | ⟨1, _⟩ => show win0_5.index t 1 * 256 + 1 * (x 1).val = (x 1).val; rw [e1]; omega

private theorem idx7 : ∀ t : Fin cfg0.N, win0_7.index t (0 : Fin 2) = 0 ∧ win0_7.index t (1 : Fin 2) = 0 :=
  (by decide +kernel : ∀ t : Fin grid0.N, _)

private theorem iblk7_apply (c : Dev nD) (t : Fin cfg0.N) (x : S256x128.Idx) :
    (iblk m c 7 t : Vec Ideal S256x128 .f32) x = (m ((c.tc : Thread nD τ).loc main_arg7) : S256x128.Idx → EReal) x := by
  obtain ⟨e0, e1⟩ := idx7 t
  unfold iblk
  rw [View.read_apply]
  show V m c main_arg7 _ = _
  rw [V_main_arg7]
  congr 1
  funext a
  apply Fin.ext
  match a with
  | ⟨0, _⟩ => show win0_7.index t 0 * 256 + 1 * (x 0).val = (x 0).val; rw [e0]; omega
  | ⟨1, _⟩ => show win0_7.index t 1 * 128 + 1 * (x 1).val = (x 1).val; rw [e1]; omega

private theorem idx9 : ∀ t : Fin cfg0.N, win0_9.index t (0 : Fin 2) = 0 ∧ win0_9.index t (1 : Fin 2) = 0 :=
  (by decide +kernel : ∀ t : Fin grid0.N, _)

private theorem iblk9_apply (c : Dev nD) (t : Fin cfg0.N) (x : S128x4.Idx) :
    (iblk m c 9 t : Vec Ideal S128x4 .f32) x = (m ((c.tc : Thread nD τ).loc main_arg9) : S128x4.Idx → EReal) x := by
  obtain ⟨e0, e1⟩ := idx9 t
  unfold iblk
  rw [View.read_apply]
  show V m c main_arg9 _ = _
  rw [V_main_arg9]
  congr 1
  funext a
  apply Fin.ext
  match a with
  | ⟨0, _⟩ => show win0_9.index t 0 * 128 + 1 * (x 0).val = (x 0).val; rw [e0]; omega
  | ⟨1, _⟩ => show win0_9.index t 1 * 4 + 1 * (x 1).val = (x 1).val; rw [e1]; omega

private theorem idx11 : ∀ t : Fin cfg0.N, win0_11.index t (0 : Fin 2) = 0 ∧ win0_11.index t (1 : Fin 2) = 0 :=
  (by decide +kernel : ∀ t : Fin grid0.N, _)

private theorem iblk11_apply (c : Dev nD) (t : Fin cfg0.N) (x : S256x128.Idx) :
    (iblk m c 11 t : Vec Ideal S256x128 .f32) x = (m ((c.tc : Thread nD τ).loc main_arg11) : S256x128.Idx → EReal) x := by
  obtain ⟨e0, e1⟩ := idx11 t
  unfold iblk
  rw [View.read_apply]
  show V m c main_arg11 _ = _
  rw [V_main_arg11]
  congr 1
  funext a
  apply Fin.ext
  match a with
  | ⟨0, _⟩ => show win0_11.index t 0 * 256 + 1 * (x 0).val = (x 0).val; rw [e0]; omega
  | ⟨1, _⟩ => show win0_11.index t 1 * 128 + 1 * (x 1).val = (x 1).val; rw [e1]; omega

private theorem idx13 : ∀ t : Fin cfg0.N, win0_13.index t (0 : Fin 2) = 0 ∧ win0_13.index t (1 : Fin 2) = 0 :=
  (by decide +kernel : ∀ t : Fin grid0.N, _)

private theorem iblk13_apply (c : Dev nD) (t : Fin cfg0.N) (x : S128x2.Idx) :
    (iblk m c 13 t : Vec Ideal S128x2 .f32) x = (m ((c.tc : Thread nD τ).loc main_arg13) : S128x2.Idx → EReal) x := by
  obtain ⟨e0, e1⟩ := idx13 t
  unfold iblk
  rw [View.read_apply]
  show V m c main_arg13 _ = _
  rw [V_main_arg13]
  congr 1
  funext a
  apply Fin.ext
  match a with
  | ⟨0, _⟩ => show win0_13.index t 0 * 128 + 1 * (x 0).val = (x 0).val; rw [e0]; omega
  | ⟨1, _⟩ => show win0_13.index t 1 * 2 + 1 * (x 1).val = (x 1).val; rw [e1]; omega

private theorem idx15 : ∀ t : Fin cfg0.N, win0_15.index t (0 : Fin 2) = 0 ∧ win0_15.index t (1 : Fin 2) = 0 :=
  (by decide +kernel : ∀ t : Fin grid0.N, _)

private theorem iblk15_apply (c : Dev nD) (t : Fin cfg0.N) (x : S256x128.Idx) :
    (iblk m c 15 t : Vec Ideal S256x128 .f32) x = (m ((c.tc : Thread nD τ).loc main_arg15) : S256x128.Idx → EReal) x := by
  obtain ⟨e0, e1⟩ := idx15 t
  unfold iblk
  rw [View.read_apply]
  show V m c main_arg15 _ = _
  rw [V_main_arg15]
  congr 1
  funext a
  apply Fin.ext
  match a with
  | ⟨0, _⟩ => show win0_15.index t 0 * 256 + 1 * (x 0).val = (x 0).val; rw [e0]; omega
  | ⟨1, _⟩ => show win0_15.index t 1 * 128 + 1 * (x 1).val = (x 1).val; rw [e1]; omega

private theorem idx17 : ∀ t : Fin cfg0.N, win0_17.index t (0 : Fin 2) = 0 ∧ win0_17.index t (1 : Fin 2) = 0 :=
  (by decide +kernel : ∀ t : Fin grid0.N, _)

private theorem iblk17_apply (c : Dev nD) (t : Fin cfg0.N) (x : S128x1.Idx) :
    (iblk m c 17 t : Vec Ideal S128x1 .f32) x = (m ((c.tc : Thread nD τ).loc main_arg17) : S128x1.Idx → EReal) x := by
  obtain ⟨e0, e1⟩ := idx17 t
  unfold iblk
  rw [View.read_apply]
  show V m c main_arg17 _ = _
  rw [V_main_arg17]
  congr 1
  funext a
  apply Fin.ext
  match a with
  | ⟨0, _⟩ => show win0_17.index t 0 * 128 + 1 * (x 0).val = (x 0).val; rw [e0]; omega
  | ⟨1, _⟩ => show win0_17.index t 1 * 1 + 1 * (x 1).val = (x 1).val; rw [e1]; omega

private theorem idx19 : ∀ t : Fin cfg0.N, win0_19.index t (0 : Fin 2) = 0 ∧ win0_19.index t (1 : Fin 2) = 0 :=
  (by decide +kernel : ∀ t : Fin grid0.N, _)

private theorem iblk19_apply (c : Dev nD) (t : Fin cfg0.N) (x : S263x128.Idx) :
    (iblk m c 19 t : Vec Ideal S263x128 .f32) x = (m ((c.tc : Thread nD τ).loc main_arg19) : S263x128.Idx → EReal) x := by
  obtain ⟨e0, e1⟩ := idx19 t
  unfold iblk
  rw [View.read_apply]
  show V m c main_arg19 _ = _
  rw [V_main_arg19]
  congr 1
  funext a
  apply Fin.ext
  match a with
  | ⟨0, _⟩ => show win0_19.index t 0 * 263 + 1 * (x 0).val = (x 0).val; rw [e0]; omega
  | ⟨1, _⟩ => show win0_19.index t 1 * 128 + 1 * (x 1).val = (x 1).val; rw [e1]; omega

private theorem idx21 : ∀ t : Fin cfg0.N, win0_21.index t (0 : Fin 2) = 0 ∧ win0_21.index t (1 : Fin 2) = 0 :=
  (by decide +kernel : ∀ t : Fin grid0.N, _)

private theorem iblk21_apply (c : Dev nD) (t : Fin cfg0.N) (x : S128x1.Idx) :
    (iblk m c 21 t : Vec Ideal S128x1 .f32) x = (m ((c.tc : Thread nD τ).loc main_arg21) : S128x1.Idx → EReal) x := by
  obtain ⟨e0, e1⟩ := idx21 t
  unfold iblk
  rw [View.read_apply]
  show V m c main_arg21 _ = _
  rw [V_main_arg21]
  congr 1
  funext a
  apply Fin.ext
  match a with
  | ⟨0, _⟩ => show win0_21.index t 0 * 128 + 1 * (x 0).val = (x 0).val; rw [e0]; omega
  | ⟨1, _⟩ => show win0_21.index t 1 * 1 + 1 * (x 1).val = (x 1).val; rw [e1]; omega

/-! ## The bias windows

A bias window's array is written before the region by one operation: the rank-one argument of n numbers laid out as
the one row of a [1, n] array (axis 0 of the argument goes to axis 1 of the result). Entry (0, j) of that row is entry
j of the argument. The window's index map is the constant (0, 0) and its block is the whole [1, n] array. -/

/-- A rank-one array laid out as the one row of a [1, n] array, read at (i, j): entry j. (When n = 1 the source
    axis has extent one and is read at 0, which is j.) -/
private theorem bcast_row {n : Nat} (h : (⟨1, ![n]⟩ : Shape).BroadcastsInDim (⟨2, ![1, n]⟩ : Shape) ![1])
    (x : (⟨1, ![n]⟩ : Shape).Idx → EReal) (i : Fin 1) (j : Fin n) :
    broadcastInDim (⟨2, ![1, n]⟩ : Shape) ![1] h x (ix2 i j) = x (ix1 j) := by
  refine broadcastInDim_apply _ _ _ _ _ fun a => ?_
  match a with
  | ⟨0, _⟩ =>
    show j.val = if n = 1 then 0 else j.val
    split_ifs with h1
    · have := j.isLt; omega
    · rfl

private theorem idx2 : ∀ t : Fin cfg0.N, win0_2.index t (0 : Fin 2) = 0 ∧ win0_2.index t (1 : Fin 2) = 0 :=
  (by decide +kernel : ∀ t : Fin grid0.N, _)

/-- What the region finds in window 2's array: argument 2 as one row. -/
private theorem V_v0 (c : Dev nD) : (V m c main_call0_v0 : S1x256.Idx → EReal)
    = broadcastInDim S1x256 ![1] bcast_S256_S1x256_1 (m ((c.tc : Thread nD τ).loc main_arg2) : S256.Idx → EReal) := by
  dsimp only [Gen.V, Gen.hostOps0]; after_results; rfl

private theorem iblk2_apply (c : Dev nD) (t : Fin cfg0.N) (j : Fin 256) :
    (iblk m c 2 t : Vec Ideal S1x256 .f32) (ix2 0 j) = (m ((c.tc : Thread nD τ).loc main_arg2) : S256.Idx → EReal) (ix1 j) := by
  obtain ⟨e0, e1⟩ := idx2 t
  unfold iblk
  rw [View.read_apply]
  show V m c main_call0_v0 _ = _
  rw [V_v0]
  refine Eq.trans (congrArg _ ?_) (bcast_row bcast_S256_S1x256_1 _ 0 j)
  funext a
  apply Fin.ext
  match a with
  | ⟨0, _⟩ => show win0_2.index t 0 * 1 + 1 * 0 = 0; rw [e0]
  | ⟨1, _⟩ => show win0_2.index t 1 * 256 + 1 * j.val = j.val; rw [e1]; omega

private theorem idx3 : ∀ t : Fin cfg0.N, win0_3.index t (0 : Fin 2) = 0 ∧ win0_3.index t (1 : Fin 2) = 0 :=
  (by decide +kernel : ∀ t : Fin grid0.N, _)

/-- What the region finds in window 3's array: argument 3 as one row. -/
private theorem V_v1 (c : Dev nD) : (V m c main_call0_v1 : S1x256.Idx → EReal)
    = broadcastInDim S1x256 ![1] bcast_S256_S1x256_1 (m ((c.tc : Thread nD τ).loc main_arg3) : S256.Idx → EReal) := by
  dsimp only [Gen.V, Gen.hostOps0]; after_results; rfl

private theorem iblk3_apply (c : Dev nD) (t : Fin cfg0.N) (j : Fin 256) :
    (iblk m c 3 t : Vec Ideal S1x256 .f32) (ix2 0 j) = (m ((c.tc : Thread nD τ).loc main_arg3) : S256.Idx → EReal) (ix1 j) := by
  obtain ⟨e0, e1⟩ := idx3 t
  unfold iblk
  rw [View.read_apply]
  show V m c main_call0_v1 _ = _
  rw [V_v1]
  refine Eq.trans (congrArg _ ?_) (bcast_row bcast_S256_S1x256_1 _ 0 j)
  funext a
  apply Fin.ext
  match a with
  | ⟨0, _⟩ => show win0_3.index t 0 * 1 + 1 * 0 = 0; rw [e0]
  | ⟨1, _⟩ => show win0_3.index t 1 * 256 + 1 * j.val = j.val; rw [e1]; omega

private theorem idx4 : ∀ t : Fin cfg0.N, win0_4.index t (0 : Fin 2) = 0 ∧ win0_4.index t (1 : Fin 2) = 0 :=
  (by decide +kernel : ∀ t : Fin grid0.N, _)

/-- What the region finds in window 4's array: argument 4 as one row. -/
private theorem V_v2 (c : Dev nD) : (V m c main_call0_v2 : S1x256.Idx → EReal)
    = broadcastInDim S1x256 ![1] bcast_S256_S1x256_1 (m ((c.tc : Thread nD τ).loc main_arg4) : S256.Idx → EReal) := by
  dsimp only [Gen.V, Gen.hostOps0]; after_results; rfl

private theorem iblk4_apply (c : Dev nD) (t : Fin cfg0.N) (j : Fin 256) :
    (iblk m c 4 t : Vec Ideal S1x256 .f32) (ix2 0 j) = (m ((c.tc : Thread nD τ).loc main_arg4) : S256.Idx → EReal) (ix1 j) := by
  obtain ⟨e0, e1⟩ := idx4 t
  unfold iblk
  rw [View.read_apply]
  show V m c main_call0_v2 _ = _
  rw [V_v2]
  refine Eq.trans (congrArg _ ?_) (bcast_row bcast_S256_S1x256_1 _ 0 j)
  funext a
  apply Fin.ext
  match a with
  | ⟨0, _⟩ => show win0_4.index t 0 * 1 + 1 * 0 = 0; rw [e0]
  | ⟨1, _⟩ => show win0_4.index t 1 * 256 + 1 * j.val = j.val; rw [e1]; omega

private theorem idx6 : ∀ t : Fin cfg0.N, win0_6.index t (0 : Fin 2) = 0 ∧ win0_6.index t (1 : Fin 2) = 0 :=
  (by decide +kernel : ∀ t : Fin grid0.N, _)

/-- What the region finds in window 6's array: argument 6 as one row. -/
private theorem V_v3 (c : Dev nD) : (V m c main_call0_v3 : S1x256.Idx → EReal)
    = broadcastInDim S1x256 ![1] bcast_S256_S1x256_1 (m ((c.tc : Thread nD τ).loc main_arg6) : S256.Idx → EReal) := by
  dsimp only [Gen.V, Gen.hostOps0]; after_results; rfl

private theorem iblk6_apply (c : Dev nD) (t : Fin cfg0.N) (j : Fin 256) :
    (iblk m c 6 t : Vec Ideal S1x256 .f32) (ix2 0 j) = (m ((c.tc : Thread nD τ).loc main_arg6) : S256.Idx → EReal) (ix1 j) := by
  obtain ⟨e0, e1⟩ := idx6 t
  unfold iblk
  rw [View.read_apply]
  show V m c main_call0_v3 _ = _
  rw [V_v3]
  refine Eq.trans (congrArg _ ?_) (bcast_row bcast_S256_S1x256_1 _ 0 j)
  funext a
  apply Fin.ext
  match a with
  | ⟨0, _⟩ => show win0_6.index t 0 * 1 + 1 * 0 = 0; rw [e0]
  | ⟨1, _⟩ => show win0_6.index t 1 * 256 + 1 * j.val = j.val; rw [e1]; omega

private theorem idx8 : ∀ t : Fin cfg0.N, win0_8.index t (0 : Fin 2) = 0 ∧ win0_8.index t (1 : Fin 2) = 0 :=
  (by decide +kernel : ∀ t : Fin grid0.N, _)

/-- What the region finds in window 8's array: argument 8 as one row. -/
private theorem V_v4 (c : Dev nD) : (V m c main_call0_v4 : S1x128.Idx → EReal)
    = broadcastInDim S1x128 ![1] bcast_S128_S1x128_1 (m ((c.tc : Thread nD τ).loc main_arg8) : S128.Idx → EReal) := by
  dsimp only [Gen.V, Gen.hostOps0]; after_results; rfl

private theorem iblk8_apply (c : Dev nD) (t : Fin cfg0.N) (j : Fin 128) :
    (iblk m c 8 t : Vec Ideal S1x128 .f32) (ix2 0 j) = (m ((c.tc : Thread nD τ).loc main_arg8) : S128.Idx → EReal) (ix1 j) := by
  obtain ⟨e0, e1⟩ := idx8 t
  unfold iblk
  rw [View.read_apply]
  show V m c main_call0_v4 _ = _
  rw [V_v4]
  refine Eq.trans (congrArg _ ?_) (bcast_row bcast_S128_S1x128_1 _ 0 j)
  funext a
  apply Fin.ext
  match a with
  | ⟨0, _⟩ => show win0_8.index t 0 * 1 + 1 * 0 = 0; rw [e0]
  | ⟨1, _⟩ => show win0_8.index t 1 * 128 + 1 * j.val = j.val; rw [e1]; omega

private theorem idx10 : ∀ t : Fin cfg0.N, win0_10.index t (0 : Fin 2) = 0 ∧ win0_10.index t (1 : Fin 2) = 0 :=
  (by decide +kernel : ∀ t : Fin grid0.N, _)

/-- What the region finds in window 10's array: argument 10 as one row. -/
private theorem V_v5 (c : Dev nD) : (V m c main_call0_v5 : S1x4.Idx → EReal)
    = broadcastInDim S1x4 ![1] bcast_S4_S1x4_1 (m ((c.tc : Thread nD τ).loc main_arg10) : S4.Idx → EReal) := by
  dsimp only [Gen.V, Gen.hostOps0]; after_results; rfl

private theorem iblk10_apply (c : Dev nD) (t : Fin cfg0.N) (j : Fin 4) :
    (iblk m c 10 t : Vec Ideal S1x4 .f32) (ix2 0 j) = (m ((c.tc : Thread nD τ).loc main_arg10) : S4.Idx → EReal) (ix1 j) := by
  obtain ⟨e0, e1⟩ := idx10 t
  unfold iblk
  rw [View.read_apply]
  show V m c main_call0_v5 _ = _
  rw [V_v5]
  refine Eq.trans (congrArg _ ?_) (bcast_row bcast_S4_S1x4_1 _ 0 j)
  funext a
  apply Fin.ext
  match a with
  | ⟨0, _⟩ => show win0_10.index t 0 * 1 + 1 * 0 = 0; rw [e0]
  | ⟨1, _⟩ => show win0_10.index t 1 * 4 + 1 * j.val = j.val; rw [e1]; omega

private theorem idx12 : ∀ t : Fin cfg0.N, win0_12.index t (0 : Fin 2) = 0 ∧ win0_12.index t (1 : Fin 2) = 0 :=
  (by decide +kernel : ∀ t : Fin grid0.N, _)

/-- What the region finds in window 12's array: argument 12 as one row. -/
private theorem V_v6 (c : Dev nD) : (V m c main_call0_v6 : S1x128.Idx → EReal)
    = broadcastInDim S1x128 ![1] bcast_S128_S1x128_1 (m ((c.tc : Thread nD τ).loc main_arg12) : S128.Idx → EReal) := by
  dsimp only [Gen.V, Gen.hostOps0]; after_results; rfl

private theorem iblk12_apply (c : Dev nD) (t : Fin cfg0.N) (j : Fin 128) :
    (iblk m c 12 t : Vec Ideal S1x128 .f32) (ix2 0 j) = (m ((c.tc : Thread nD τ).loc main_arg12) : S128.Idx → EReal) (ix1 j) := by
  obtain ⟨e0, e1⟩ := idx12 t
  unfold iblk
  rw [View.read_apply]
  show V m c main_call0_v6 _ = _
  rw [V_v6]
  refine Eq.trans (congrArg _ ?_) (bcast_row bcast_S128_S1x128_1 _ 0 j)
  funext a
  apply Fin.ext
  match a with
  | ⟨0, _⟩ => show win0_12.index t 0 * 1 + 1 * 0 = 0; rw [e0]
  | ⟨1, _⟩ => show win0_12.index t 1 * 128 + 1 * j.val = j.val; rw [e1]; omega

private theorem idx14 : ∀ t : Fin cfg0.N, win0_14.index t (0 : Fin 2) = 0 ∧ win0_14.index t (1 : Fin 2) = 0 :=
  (by decide +kernel : ∀ t : Fin grid0.N, _)

/-- What the region finds in window 14's array: argument 14 as one row. -/
private theorem V_v7 (c : Dev nD) : (V m c main_call0_v7 : S1x2.Idx → EReal)
    = broadcastInDim S1x2 ![1] bcast_S2_S1x2_1 (m ((c.tc : Thread nD τ).loc main_arg14) : S2.Idx → EReal) := by
  dsimp only [Gen.V, Gen.hostOps0]; after_results; rfl

private theorem iblk14_apply (c : Dev nD) (t : Fin cfg0.N) (j : Fin 2) :
    (iblk m c 14 t : Vec Ideal S1x2 .f32) (ix2 0 j) = (m ((c.tc : Thread nD τ).loc main_arg14) : S2.Idx → EReal) (ix1 j) := by
  obtain ⟨e0, e1⟩ := idx14 t
  unfold iblk
  rw [View.read_apply]
  show V m c main_call0_v7 _ = _
  rw [V_v7]
  refine Eq.trans (congrArg _ ?_) (bcast_row bcast_S2_S1x2_1 _ 0 j)
  funext a
  apply Fin.ext
  match a with
  | ⟨0, _⟩ => show win0_14.index t 0 * 1 + 1 * 0 = 0; rw [e0]
  | ⟨1, _⟩ => show win0_14.index t 1 * 2 + 1 * j.val = j.val; rw [e1]; omega

private theorem idx16 : ∀ t : Fin cfg0.N, win0_16.index t (0 : Fin 2) = 0 ∧ win0_16.index t (1 : Fin 2) = 0 :=
  (by decide +kernel : ∀ t : Fin grid0.N, _)

/-- What the region finds in window 16's array: argument 16 as one row. -/
private theorem V_v8 (c : Dev nD) : (V m c main_call0_v8 : S1x128.Idx → EReal)
    = broadcastInDim S1x128 ![1] bcast_S128_S1x128_1 (m ((c.tc : Thread nD τ).loc main_arg16) : S128.Idx → EReal) := by
  dsimp only [Gen.V, Gen.hostOps0]; after_results; rfl

private theorem iblk16_apply (c : Dev nD) (t : Fin cfg0.N) (j : Fin 128) :
    (iblk m c 16 t : Vec Ideal S1x128 .f32) (ix2 0 j) = (m ((c.tc : Thread nD τ).loc main_arg16) : S128.Idx → EReal) (ix1 j) := by
  obtain ⟨e0, e1⟩ := idx16 t
  unfold iblk
  rw [View.read_apply]
  show V m c main_call0_v8 _ = _
  rw [V_v8]
  refine Eq.trans (congrArg _ ?_) (bcast_row bcast_S128_S1x128_1 _ 0 j)
  funext a
  apply Fin.ext
  match a with
  | ⟨0, _⟩ => show win0_16.index t 0 * 1 + 1 * 0 = 0; rw [e0]
  | ⟨1, _⟩ => show win0_16.index t 1 * 128 + 1 * j.val = j.val; rw [e1]; omega

private theorem idx18 : ∀ t : Fin cfg0.N, win0_18.index t (0 : Fin 2) = 0 ∧ win0_18.index t (1 : Fin 2) = 0 :=
  (by decide +kernel : ∀ t : Fin grid0.N, _)

/-- What the region finds in window 18's array: argument 18 as one row. -/
private theorem V_v9 (c : Dev nD) : (V m c main_call0_v9 : S1x1.Idx → EReal)
    = broadcastInDim S1x1 ![1] bcast_S1_S1x1_1 (m ((c.tc : Thread nD τ).loc main_arg18) : S1.Idx → EReal) := by
  dsimp only [Gen.V, Gen.hostOps0]; after_results; rfl

private theorem iblk18_apply (c : Dev nD) (t : Fin cfg0.N) (j : Fin 1) :
    (iblk m c 18 t : Vec Ideal S1x1 .f32) (ix2 0 j) = (m ((c.tc : Thread nD τ).loc main_arg18) : S1.Idx → EReal) (ix1 j) := by
  obtain ⟨e0, e1⟩ := idx18 t
  unfold iblk
  rw [View.read_apply]
  show V m c main_call0_v9 _ = _
  rw [V_v9]
  refine Eq.trans (congrArg _ ?_) (bcast_row bcast_S1_S1x1_1 _ 0 j)
  funext a
  apply Fin.ext
  match a with
  | ⟨0, _⟩ => show win0_18.index t 0 * 1 + 1 * 0 = 0; rw [e0]
  | ⟨1, _⟩ => show win0_18.index t 1 * 1 + 1 * j.val = j.val; rw [e1]; omega

private theorem idx20 : ∀ t : Fin cfg0.N, win0_20.index t (0 : Fin 2) = 0 ∧ win0_20.index t (1 : Fin 2) = 0 :=
  (by decide +kernel : ∀ t : Fin grid0.N, _)

/-- What the region finds in window 20's array: argument 20 as one row. -/
private theorem V_v10 (c : Dev nD) : (V m c main_call0_v10 : S1x128.Idx → EReal)
    = broadcastInDim S1x128 ![1] bcast_S128_S1x128_1 (m ((c.tc : Thread nD τ).loc main_arg20) : S128.Idx → EReal) := by
  dsimp only [Gen.V, Gen.hostOps0]; after_results; rfl

private theorem iblk20_apply (c : Dev nD) (t : Fin cfg0.N) (j : Fin 128) :
    (iblk m c 20 t : Vec Ideal S1x128 .f32) (ix2 0 j) = (m ((c.tc : Thread nD τ).loc main_arg20) : S128.Idx → EReal) (ix1 j) := by
  obtain ⟨e0, e1⟩ := idx20 t
  unfold iblk
  rw [View.read_apply]
  show V m c main_call0_v10 _ = _
  rw [V_v10]
  refine Eq.trans (congrArg _ ?_) (bcast_row bcast_S128_S1x128_1 _ 0 j)
  funext a
  apply Fin.ext
  match a with
  | ⟨0, _⟩ => show win0_20.index t 0 * 1 + 1 * 0 = 0; rw [e0]
  | ⟨1, _⟩ => show win0_20.index t 1 * 128 + 1 * j.val = j.val; rw [e1]; omega

private theorem idx22 : ∀ t : Fin cfg0.N, win0_22.index t (0 : Fin 2) = 0 ∧ win0_22.index t (1 : Fin 2) = 0 :=
  (by decide +kernel : ∀ t : Fin grid0.N, _)

/-- What the region finds in window 22's array: argument 22 as one row. -/
private theorem V_v11 (c : Dev nD) : (V m c main_call0_v11 : S1x1.Idx → EReal)
    = broadcastInDim S1x1 ![1] bcast_S1_S1x1_1 (m ((c.tc : Thread nD τ).loc main_arg22) : S1.Idx → EReal) := by
  dsimp only [Gen.V, Gen.hostOps0]; after_results; rfl

private theorem iblk22_apply (c : Dev nD) (t : Fin cfg0.N) (j : Fin 1) :
    (iblk m c 22 t : Vec Ideal S1x1 .f32) (ix2 0 j) = (m ((c.tc : Thread nD τ).loc main_arg22) : S1.Idx → EReal) (ix1 j) := by
  obtain ⟨e0, e1⟩ := idx22 t
  unfold iblk
  rw [View.read_apply]
  show V m c main_call0_v11 _ = _
  rw [V_v11]
  refine Eq.trans (congrArg _ ?_) (bcast_row bcast_S1_S1x1_1 _ 0 j)
  funext a
  apply Fin.ext
  match a with
  | ⟨0, _⟩ => show win0_22.index t 0 * 1 + 1 * 0 = 0; rw [e0]
  | ⟨1, _⟩ => show win0_22.index t 1 * 1 + 1 * j.val = j.val; rw [e1]; omega

/-! ## Each load as the weights it holds -/

private theorem mat1 (c : Dev nD) (t : Fin cfg0.N) : mat (ld1 m c t) = mat (m ((c.tc : Thread nD τ).loc main_arg1)) := by
  show mat (View.ld (iblk m c 1 t) r0_1 : Vec Ideal S512x256 .f32) = _
  rw [ld_r0_1]
  funext k j
  exact iblk1_apply m c t (ix2 k j)

private theorem mat5 (c : Dev nD) (t : Fin cfg0.N) : mat (ld5 m c t) = mat (m ((c.tc : Thread nD τ).loc main_arg5)) := by
  show mat (View.ld (iblk m c 5 t) r0_3 : Vec Ideal S256x256 .f32) = _
  rw [ld_r0_3]
  funext k j
  exact iblk5_apply m c t (ix2 k j)

private theorem mat7 (c : Dev nD) (t : Fin cfg0.N) : mat (ld7 m c t) = mat (m ((c.tc : Thread nD τ).loc main_arg7)) := by
  show mat (View.ld (iblk m c 7 t) r0_4 : Vec Ideal S256x128 .f32) = _
  rw [ld_r0_4]
  funext k j
  exact iblk7_apply m c t (ix2 k j)

private theorem mat9 (c : Dev nD) (t : Fin cfg0.N) : mat (ld9 m c t) = mat (m ((c.tc : Thread nD τ).loc main_arg9)) := by
  show mat (View.ld (iblk m c 9 t) r0_6 : Vec Ideal S128x4 .f32) = _
  rw [ld_r0_6]
  funext k j
  exact iblk9_apply m c t (ix2 k j)

private theorem mat11 (c : Dev nD) (t : Fin cfg0.N) : mat (ld11 m c t) = mat (m ((c.tc : Thread nD τ).loc main_arg11)) := by
  show mat (View.ld (iblk m c 11 t) r0_4 : Vec Ideal S256x128 .f32) = _
  rw [ld_r0_4]
  funext k j
  exact iblk11_apply m c t (ix2 k j)

private theorem mat13 (c : Dev nD) (t : Fin cfg0.N) : mat (ld13 m c t) = mat (m ((c.tc : Thread nD τ).loc main_arg13)) := by
  show mat (View.ld (iblk m c 13 t) r0_8 : Vec Ideal S128x2 .f32) = _
  rw [ld_r0_8]
  funext k j
  exact iblk13_apply m c t (ix2 k j)

private theorem mat15 (c : Dev nD) (t : Fin cfg0.N) : mat (ld15 m c t) = mat (m ((c.tc : Thread nD τ).loc main_arg15)) := by
  show mat (View.ld (iblk m c 15 t) r0_4 : Vec Ideal S256x128 .f32) = _
  rw [ld_r0_4]
  funext k j
  exact iblk15_apply m c t (ix2 k j)

private theorem mat17 (c : Dev nD) (t : Fin cfg0.N) : mat (ld17 m c t) = mat (m ((c.tc : Thread nD τ).loc main_arg17)) := by
  show mat (View.ld (iblk m c 17 t) r0_10 : Vec Ideal S128x1 .f32) = _
  rw [ld_r0_10]
  funext k j
  exact iblk17_apply m c t (ix2 k j)

private theorem mat22 (c : Dev nD) (t : Fin cfg0.N) : mat (ld22 m c t) = mat (m ((c.tc : Thread nD τ).loc main_arg21)) := by
  show mat (View.ld (iblk m c 21 t) r0_10 : Vec Ideal S128x1 .f32) = _
  rw [ld_r0_10]
  funext k j
  exact iblk21_apply m c t (ix2 k j)

private theorem row2 (c : Dev nD) (t : Fin cfg0.N) : row0 (ld2 m c t) = vec (m ((c.tc : Thread nD τ).loc main_arg2)) := by
  show row0 (View.ld (iblk m c 2 t) r0_2 : Vec Ideal S1x256 .f32) = _
  rw [ld_r0_2]
  funext j
  exact iblk2_apply m c t j

private theorem row3 (c : Dev nD) (t : Fin cfg0.N) : row0 (ld3 m c t) = vec (m ((c.tc : Thread nD τ).loc main_arg3)) := by
  show row0 (View.ld (iblk m c 3 t) r0_2 : Vec Ideal S1x256 .f32) = _
  rw [ld_r0_2]
  funext j
  exact iblk3_apply m c t j

private theorem row4 (c : Dev nD) (t : Fin cfg0.N) : row0 (ld4 m c t) = vec (m ((c.tc : Thread nD τ).loc main_arg4)) := by
  show row0 (View.ld (iblk m c 4 t) r0_2 : Vec Ideal S1x256 .f32) = _
  rw [ld_r0_2]
  funext j
  exact iblk4_apply m c t j

private theorem row6 (c : Dev nD) (t : Fin cfg0.N) : row0 (ld6 m c t) = vec (m ((c.tc : Thread nD τ).loc main_arg6)) := by
  show row0 (View.ld (iblk m c 6 t) r0_2 : Vec Ideal S1x256 .f32) = _
  rw [ld_r0_2]
  funext j
  exact iblk6_apply m c t j

private theorem row8 (c : Dev nD) (t : Fin cfg0.N) : row0 (ld8 m c t) = vec (m ((c.tc : Thread nD τ).loc main_arg8)) := by
  show row0 (View.ld (iblk m c 8 t) r0_5 : Vec Ideal S1x128 .f32) = _
  rw [ld_r0_5]
  funext j
  exact iblk8_apply m c t j

private theorem row10 (c : Dev nD) (t : Fin cfg0.N) : row0 (ld10 m c t) = vec (m ((c.tc : Thread nD τ).loc main_arg10)) := by
  show row0 (View.ld (iblk m c 10 t) r0_7 : Vec Ideal S1x4 .f32) = _
  rw [ld_r0_7]
  funext j
  exact iblk10_apply m c t j

private theorem row12 (c : Dev nD) (t : Fin cfg0.N) : row0 (ld12 m c t) = vec (m ((c.tc : Thread nD τ).loc main_arg12)) := by
  show row0 (View.ld (iblk m c 12 t) r0_5 : Vec Ideal S1x128 .f32) = _
  rw [ld_r0_5]
  funext j
  exact iblk12_apply m c t j

private theorem row14 (c : Dev nD) (t : Fin cfg0.N) : row0 (ld14 m c t) = vec (m ((c.tc : Thread nD τ).loc main_arg14)) := by
  show row0 (View.ld (iblk m c 14 t) r0_9 : Vec Ideal S1x2 .f32) = _
  rw [ld_r0_9]
  funext j
  exact iblk14_apply m c t j

private theorem row16 (c : Dev nD) (t : Fin cfg0.N) : row0 (ld16 m c t) = vec (m ((c.tc : Thread nD τ).loc main_arg16)) := by
  show row0 (View.ld (iblk m c 16 t) r0_5 : Vec Ideal S1x128 .f32) = _
  rw [ld_r0_5]
  funext j
  exact iblk16_apply m c t j

private theorem row18 (c : Dev nD) (t : Fin cfg0.N) : row0 (ld18 m c t) = vec (m ((c.tc : Thread nD τ).loc main_arg18)) := by
  show row0 (View.ld (iblk m c 18 t) r0_11 : Vec Ideal S1x1 .f32) = _
  rw [ld_r0_11]
  funext j
  exact iblk18_apply m c t j

private theorem row20 (c : Dev nD) (t : Fin cfg0.N) : row0 (ld20 m c t) = vec (m ((c.tc : Thread nD τ).loc main_arg20)) := by
  show row0 (View.ld (iblk m c 20 t) r0_5 : Vec Ideal S1x128 .f32) = _
  rw [ld_r0_5]
  funext j
  exact iblk20_apply m c t j

private theorem row23 (c : Dev nD) (t : Fin cfg0.N) : row0 (ld23 m c t) = vec (m ((c.tc : Thread nD τ).loc main_arg22)) := by
  show row0 (View.ld (iblk m c 22 t) r0_11 : Vec Ideal S1x1 .f32) = _
  rw [ld_r0_11]
  funext j
  exact iblk22_apply m c t j

/-- The load of rows 256..262 of the confidence matrix. -/
private theorem mat19 (c : Dev nD) (t : Fin cfg0.N) :
    mat (ld19 m c t) = fun i j => mat (m ((c.tc : Thread nD τ).loc main_arg19)) ⟨256 + i.val, by have := i.isLt; omega⟩ j := by
  funext i j
  show (View.ld (iblk m c 19 t) r0_12 : Vec Ideal S7x128 .f32) (ix2 i j) = _
  rw [ld_r0_12]
  exact iblk19_apply m c t _

/-- The load of rows 0..255 of the confidence matrix. -/
private theorem mat21 (c : Dev nD) (t : Fin cfg0.N) :
    mat (ld21 m c t) = fun k j => mat (m ((c.tc : Thread nD τ).loc main_arg19)) ⟨k.val, by have := k.isLt; omega⟩ j := by
  funext i j
  show (View.ld (iblk m c 19 t) r0_13 : Vec Ideal S256x128 .f32) (ix2 i j) = _
  rw [ld_r0_13]
  exact iblk19_apply m c t _

/-- The features' load at point `t`, row by row. -/
theorem feat_row (c : Dev nD) (t : Fin cfg0.N) (p : Fin 4000) :
    rowOf (ld0 m c t) p = rowOf (m ((c.tc : Thread nD τ).loc main_arg0)) (grow t p) := by
  show rowOf (View.ld (iblk m c 0 t) r0_0 : Vec Ideal S4000x512 .f32) p = _
  rw [ld_r0_0]
  funext k
  exact iblk0_apply m c t p k

/-- The trunk's and the heads' weights as loaded at any point are the weight arguments: every weight window's block
    is its whole array, and a bias window's array is its argument as one row. -/
theorem common_eq (c : Dev nD) (t : Fin cfg0.N) :
    commonOfLoads (ld1 m c t) (ld2 m c t) (ld3 m c t) (ld4 m c t) (ld5 m c t) (ld6 m c t) (ld7 m c t) (ld8 m c t) (ld9 m c t)
        (ld10 m c t) (ld11 m c t) (ld12 m c t) (ld13 m c t) (ld14 m c t) (ld15 m c t) (ld16 m c t) (ld17 m c t) (ld18 m c t)
      = (paramsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))).toCommon := by
  unfold commonOfLoads paramsOf
  dsimp only
  rw [mat1 m c t, row2 m c t, row3 m c t, row4 m c t, mat5 m c t, row6 m c t, mat7 m c t, row8 m c t, mat9 m c t, row10 m c t, mat11 m c t, row12 m c t, mat13 m c t, row14 m c t, mat15 m c t, row16 m c t, mat17 m c t, row18 m c t]

/-- All the weights as loaded: the two loads of the confidence matrix are its rows 256..262 and its rows 0..255. -/
theorem kparams_eq (c : Dev nD) (t : Fin cfg0.N) :
    kparamsOfLoads (ld1 m c t) (ld2 m c t) (ld3 m c t) (ld4 m c t) (ld5 m c t) (ld6 m c t) (ld7 m c t) (ld8 m c t) (ld9 m c t)
        (ld10 m c t) (ld11 m c t) (ld12 m c t) (ld13 m c t) (ld14 m c t) (ld15 m c t) (ld16 m c t) (ld17 m c t) (ld18 m c t)
        (ld19 m c t) (ld20 m c t) (ld21 m c t) (ld22 m c t) (ld23 m c t)
      = (paramsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))).toK := by
  unfold kparamsOfLoads Params.toK
  rw [common_eq m c t, mat19 m c t, row20 m c t, mat21 m c t, mat22 m c t, row23 m c t]
  rfl

end Cert.KernelIdeal.Blocks

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.PayTrunk.lean ====
import proofs.«161107_g884763263511_cont_9to1_m_545_23_alg».proof.Proof.Gen.KernelIdeal.Skeleton
import proofs.«161107_g884763263511_cont_9to1_m_545_23_alg».proof.Proof.HeadRow
import proofs.«161107_g884763263511_cont_9to1_m_545_23_alg».proof.Proof.LibPlainDot
import Idealize.ShloMosaic.PureOps.Ideal.Laws
import Idealize.ShloMosaic.Lib.Pipeline.Value
import Idealize.ShloMosaic.Lib.ValueLayout

noncomputable section

namespace Cert.KernelIdeal.Pay

open Cert.KernelIdeal Cert.KernelIdeal.Gen HeadRow Idealize.ShloMosaic Idealize.ShloMosaic.ValueIdx

/-! ## The layout steps read at an index -/

/-- A [1, 256] row cast onto its own shape and spread over 4000 rows reads, at (p, j), the row at j. -/
private theorem rowSpread_apply (v : FVec Ideal S1x256 .f32) (p : Fin 4000) (j : Fin 256) :
    broadcastTo S4000x256 (shapeCast S1x256 v shapeCasts_S1x256_S1x256) broadcasts_S1x256_S4000x256 (ix2 p j)
      = row0 v j := by
  rw [shapeCast_self]
  exact broadcastTo_1b_ab_apply v broadcasts_S1x256_S4000x256 p j

/-- A [4000, 1] column spread over 256 lanes reads, at (p, j), the column at row p. -/
private theorem colSpread_apply (v : FVec Ideal S4000x1 .f32) (p : Fin 4000) (j : Fin 256) :
    broadcastTo S4000x256 v broadcasts_S4000x1_S4000x256 (ix2 p j) = v (ix2 p (0 : Fin 1)) := by
  refine broadcastTo_apply v broadcasts_S4000x1_S4000x256 (ix2 p j) (ix2 p (0 : Fin 1)) fun ax => ?_
  match ax with
  | ⟨0, _⟩ => rfl
  | ⟨1, _⟩ => rfl

/-- The sum over the 256 lanes, cast from [4000] to a [4000, 1] column, reads at (p, q) the sum of row p. -/
private theorem laneSum_apply (v : FVec Ideal S4000x256 .f32) (p : Fin 4000) (q : Fin 1) :
    shapeCast S4000x1 (multiReduction (F := Ideal) .add [1] S4000 v 0x00000000#32 reduces_S4000x256_S4000 (.inl rfl) rfl)
        shapeCasts_S4000_S4000x1 (ix2 p q)
      = ∑ k : Fin 256, v (ix2 p k) := by
  refine (shapeCast_apply _ shapeCasts_S4000_S4000x1 (ix2 p q) (ix1 p) ?_).trans ?_
  · rw [Shape.rowMajor_val_two, Shape.rowMajor_val_one]
    have hq : q.val = 0 := by omega
    show p.val = p.val * 1 + q.val
    omega
  · refine (Ideal.multiReduction_add_single v _ reduces_S4000x256_S4000 _ _ (ix1 p)).trans ?_
    refine Finset.sum_congr rfl fun k _ => congrArg v ?_
    funext a
    apply Fin.ext
    match a with
    | ⟨0, _⟩ => rfl
    | ⟨1, _⟩ => rfl

/-- The first matrix product at (p, j): row p of the features against column j of the first matrix. -/
private theorem prod1_apply (l : FVec Ideal S4000x512 .f32) (r : FVec Ideal S512x256 .f32) (p : Fin 4000) (j : Fin 256) :
    matmul (F := Ideal) dot_S4000x512_S512x256_S4000x256_1_0_0_1_n_n none l r (constant (F := Ideal) S4000x256 .f32 0x00000000#32) (ix2 p j)
      = ∑ k : Fin 512, l (ix2 p k) * r (ix2 k j) := by
  refine (Ideal.matmul_constant_zero_apply _ none l r (ix2 p j)).trans ?_
  exact PlainDot.sum_eq dot_S4000x512_S512x256_S4000x256_1_0_0_1_n_n rfl rfl rfl rfl rfl rfl l r p j

/-- The second matrix product at (p, j). -/
private theorem prod2_apply (l : FVec Ideal S4000x256 .f32) (r : FVec Ideal S256x256 .f32) (p : Fin 4000) (j : Fin 256) :
    matmul (F := Ideal) dot_S4000x256_S256x256_S4000x256_1_0_0_1_n_n none l r (constant (F := Ideal) S4000x256 .f32 0x00000000#32) (ix2 p j)
      = ∑ k : Fin 256, l (ix2 p k) * r (ix2 k j) := by
  refine (Ideal.matmul_constant_zero_apply _ none l r (ix2 p j)).trans ?_
  exact PlainDot.sum_eq dot_S4000x256_S256x256_S4000x256_1_0_0_1_n_n rfl rfl rfl rfl rfl rfl l r p j

/-! ## The stages of the payload, named -/

/-- The first layer: the first product plus the first bias row spread over the rows. -/
private def layer1 (v0 : FVec Ideal S4000x512 .f32) (v1 : FVec Ideal S512x256 .f32) (v3 : FVec Ideal S1x256 .f32) :
    FVec Ideal S4000x256 .f32 :=
  addf (matmul (F := Ideal) dot_S4000x512_S512x256_S4000x256_1_0_0_1_n_n none v0 v1 (constant S4000x256 .f32 0x00000000#32))
    (broadcastTo S4000x256 (shapeCast S1x256 v3 shapeCasts_S1x256_S1x256) broadcasts_S1x256_S4000x256)

/-- The lane sum of a [4000, 256] array as a column, divided by 256. -/
private def laneMean (v : FVec Ideal S4000x256 .f32) : FVec Ideal S4000x1 .f32 :=
  divf (shapeCast S4000x1 (multiReduction (F := Ideal) .add [1] S4000 v 0x00000000#32 reduces_S4000x256_S4000 (.inl rfl) rfl)
      shapeCasts_S4000_S4000x1)
    (broadcast S4000x1 (Scalar.ofBits (F := Ideal) .f32 0x43800000#32))

/-- The column of variances: the lane mean of the squares less the squared lane mean. -/
private def laneVar (v6 : FVec Ideal S4000x256 .f32) : FVec Ideal S4000x1 .f32 :=
  subf (laneMean (mulf v6 v6)) (mulf (laneMean v6) (laneMean v6))

/-- The normalised, scaled, shifted and rectified first layer. -/
private def normed (v6 : FVec Ideal S4000x256 .f32) (v25 v29 : FVec Ideal S1x256 .f32) : FVec Ideal S4000x256 .f32 :=
  maximumf
    (addf
      (mulf
        (mulf (subf v6 (broadcastTo S4000x256 (laneMean v6) broadcasts_S4000x1_S4000x256))
          (broadcastTo S4000x256
            (rsqrt (addf (laneVar v6) (broadcast S4000x1 (Scalar.ofBits (F := Ideal) .f32 0x3727C5AC#32))))
            broadcasts_S4000x1_S4000x256))
        (broadcastTo S4000x256 (shapeCast S1x256 v25 shapeCasts_S1x256_S1x256) broadcasts_S1x256_S4000x256))
      (broadcastTo S4000x256 (shapeCast S1x256 v29 shapeCasts_S1x256_S1x256) broadcasts_S1x256_S4000x256))
    (broadcast S4000x256 (Scalar.ofBits (F := Ideal) .f32 0x00000000#32))

/-- The payload is the second product of the normalised first layer. -/
private theorem pay5_eq (P0 : Vec Ideal S4000x512 .f32) (P1 : Vec Ideal S512x256 .f32) (P2 P3 P4 : Vec Ideal S1x256 .f32)
    (P5 : Vec Ideal S256x256 .f32) :
    k0_pay5 P0 P1 P2 P3 P4 P5
      = matmul (F := Ideal) (φ₁ := .f32) (φ₂ := .f32) dot_S4000x256_S256x256_S4000x256_1_0_0_1_n_n none
          (normed (layer1 P0 P1 P2) P3 P4) P5 (constant S4000x256 .f32 0x00000000#32) := rfl

/-! ## Each stage at an index -/

/-- The first layer at (p, j) is the affine layer of row p of the features. -/
private theorem layer1_apply (v0 : FVec Ideal S4000x512 .f32) (v1 : FVec Ideal S512x256 .f32) (v3 : FVec Ideal S1x256 .f32)
    (p : Fin 4000) (j : Fin 256) :
    layer1 v0 v1 v3 (ix2 p j) = lin (mat v1) (row0 v3) (rowOf v0 p) j := by
  show matmul (F := Ideal) dot_S4000x512_S512x256_S4000x256_1_0_0_1_n_n none v0 v1 (constant S4000x256 .f32 0x00000000#32) (ix2 p j)
      + broadcastTo S4000x256 (shapeCast S1x256 v3 shapeCasts_S1x256_S1x256) broadcasts_S1x256_S4000x256 (ix2 p j) = _
  rw [prod1_apply, rowSpread_apply]
  rfl

/-- The lane mean at row p is the mean of that row. -/
private theorem laneMean_apply (v : FVec Ideal S4000x256 .f32) (p : Fin 4000) (q : Fin 1) :
    laneMean v (ix2 p q) = mean (rowOf v p) := by
  show Ideal.div (shapeCast S4000x1 (multiReduction (F := Ideal) .add [1] S4000 v 0x00000000#32 reduces_S4000x256_S4000 (.inl rfl) rfl)
      shapeCasts_S4000_S4000x1 (ix2 p q)) c256 = _
  rw [laneSum_apply]
  rfl

/-- The variance column at row p is the first program's variance of that row. -/
private theorem laneVar_apply (v : FVec Ideal S4000x256 .f32) (p : Fin 4000) (q : Fin 1) :
    laneVar v (ix2 p q) = varK (rowOf v p) := by
  show laneMean (mulf v v) (ix2 p q) - laneMean v (ix2 p q) * laneMean v (ix2 p q) = _
  rw [laneMean_apply, laneMean_apply]
  rfl

/-- The normalised first layer at (p, k) is the first program's normalisation of row p at k. -/
private theorem normed_apply (v6 : FVec Ideal S4000x256 .f32) (v25 v29 : FVec Ideal S1x256 .f32) (p : Fin 4000) (k : Fin 256) :
    normed v6 v25 v29 (ix2 p k) = normK (row0 v25) (row0 v29) (rowOf v6 p) k := by
  show max
      (((v6 (ix2 p k) - broadcastTo S4000x256 (laneMean v6) broadcasts_S4000x1_S4000x256 (ix2 p k))
          * broadcastTo S4000x256
              (rsqrt (addf (laneVar v6) (broadcast S4000x1 (Scalar.ofBits (F := Ideal) .f32 0x3727C5AC#32))))
              broadcasts_S4000x1_S4000x256 (ix2 p k))
        * broadcastTo S4000x256 (shapeCast S1x256 v25 shapeCasts_S1x256_S1x256) broadcasts_S1x256_S4000x256 (ix2 p k)
        + broadcastTo S4000x256 (shapeCast S1x256 v29 shapeCasts_S1x256_S1x256) broadcasts_S1x256_S4000x256 (ix2 p k))
      c0 = _
  rw [colSpread_apply, colSpread_apply, rowSpread_apply, rowSpread_apply]
  show max (((v6 (ix2 p k) - laneMean v6 (ix2 p 0)) * Ideal.rsqrt (laneVar v6 (ix2 p 0) + ceps)) * row0 v25 k + row0 v29 k) c0 = _
  rw [laneMean_apply, laneVar_apply]
  rfl

/-! ## The two payloads -/

/-- The second matrix product of the trunk at (p, j): the normalised, rectified first layer of row p against column j of W2. -/
theorem pay5_apply (P0 : Vec Ideal S4000x512 .f32) (P1 : Vec Ideal S512x256 .f32) (P2 P3 P4 : Vec Ideal S1x256 .f32)
    (P5 : Vec Ideal S256x256 .f32) (p : Fin 4000) (j : Fin 256) :
    k0_pay5 P0 P1 P2 P3 P4 P5 (ix2 p j)
      = ∑ k : Fin 256, normK (row0 P3) (row0 P4) (lin (mat P1) (row0 P2) (rowOf P0 p)) k * mat P5 k j := by
  rw [pay5_eq]
  refine (prod2_apply (normed (layer1 P0 P1 P2) P3 P4) P5 p j).trans ?_
  refine Finset.sum_congr rfl fun k _ => ?_
  have hrow : rowOf (layer1 P0 P1 P2) p = lin (mat P1) (row0 P2) (rowOf P0 p) :=
    funext fun i => layer1_apply P0 P1 P2 p i
  rw [normed_apply, hrow]
  rfl

/-- Adding the second bias. -/
theorem pay6_apply (v36 : FVec Ideal S4000x256 .f32) (P6 : Vec Ideal S1x256 .f32) (p : Fin 4000) (j : Fin 256) :
    k0_pay6 v36 P6 (ix2 p j) = v36 (ix2 p j) + row0 P6 j := by
  show v36 (ix2 p j)
      + broadcastTo S4000x256 (shapeCast S1x256 P6 shapeCasts_S1x256_S1x256) broadcasts_S1x256_S4000x256 (ix2 p j) = _
  rw [rowSpread_apply]

end Cert.KernelIdeal.Pay

end
-- ==== Proof.PayHeads.lean ====
import proofs.«161107_g884763263511_cont_9to1_m_545_23_alg».proof.Proof.Gen.KernelIdeal.Skeleton
import proofs.«161107_g884763263511_cont_9to1_m_545_23_alg».proof.Proof.HeadRow
import proofs.«161107_g884763263511_cont_9to1_m_545_23_alg».proof.Proof.LibPlainDot
import Idealize.ShloMosaic.PureOps.Ideal.Laws
import Idealize.ShloMosaic.Lib.Pipeline.Value
import Idealize.ShloMosaic.Lib.ValueLayout

noncomputable section

namespace Cert.KernelIdeal.Pay

open Cert.KernelIdeal Cert.KernelIdeal.Gen HeadRow Idealize.ShloMosaic Idealize.ShloMosaic.ValueIdx

/-- The trunk's output at (p, k): the product `v36` there plus the bias row's entry k.  The bias row is cast onto its
    own shape (the identity) and broadcast over the 4000 rows, which reads its one row at column k. -/
private theorem pay6_apply (v36 : FVec Ideal S4000x256 .f32) (P6 : Vec Ideal S1x256 .f32) (p : Fin 4000) (k : Fin 256) :
    k0_pay6 v36 P6 (ix2 p k) = v36 (ix2 p k) + row0 P6 k := by
  unfold k0_pay6
  show v36 (ix2 p k)
      + broadcastTo S4000x256 (shapeCast S1x256 P6 shapeCasts_S1x256_S1x256) broadcasts_S1x256_S4000x256 (ix2 p k) = _
  rw [shapeCast_self]
  exact congrArg (v36 (ix2 p k) + ·) (broadcastTo_1b_ab_apply P6 broadcasts_S1x256_S4000x256 p k)

/-- A head's hidden layer at (p, j): the trunk's output times the head's first matrix (a plain sum over the 256
    trunk coordinates, in the order input times weight), plus the first bias row's entry j, rectified against the
    zero constant.  The bias row is cast onto its own shape and broadcast over the rows. -/
private theorem hid_apply (v36 : FVec Ideal S4000x256 .f32) (P6 : Vec Ideal S1x256 .f32) (W : Vec Ideal S256x128 .f32)
    (b : Vec Ideal S1x128 .f32) (p : Fin 4000) (j : Fin 128) :
    maximumf
        (addf
          (matmul (φ₁ := .f32) (φ₂ := .f32) dot_S4000x256_S256x128_S4000x128_1_0_0_1_n_n none (k0_pay6 v36 P6) W
            (constant S4000x128 .f32 0x00000000#32))
          (broadcastTo S4000x128 (shapeCast S1x128 b shapeCasts_S1x128_S1x128) broadcasts_S1x128_S4000x128))
        (broadcast S4000x128 (Scalar.ofBits .f32 0x00000000#32 : Ideal .f32)) (ix2 p j)
      = relu (lin (mat W) (row0 b) (fun k => v36 (ix2 p k) + row0 P6 k)) j := by
  show max (matmul (φ₁ := .f32) (φ₂ := .f32) dot_S4000x256_S256x128_S4000x128_1_0_0_1_n_n none (k0_pay6 v36 P6) W
            (constant S4000x128 .f32 0x00000000#32) (ix2 p j)
          + broadcastTo S4000x128 (shapeCast S1x128 b shapeCasts_S1x128_S1x128) broadcasts_S1x128_S4000x128 (ix2 p j)) c0
      = max ((∑ k : Fin 256, (v36 (ix2 p k) + row0 P6 k) * W (ix2 k j)) + b (ix2 0 j)) c0
  refine congrArg (max · c0) (congrArg₂ (· + ·) ?_ ?_)
  · refine (Ideal.matmul_constant_zero_apply dot_S4000x256_S256x128_S4000x128_1_0_0_1_n_n none (k0_pay6 v36 P6) W (ix2 p j)).trans ?_
    refine (PlainDot.sum_eq dot_S4000x256_S256x128_S4000x128_1_0_0_1_n_n rfl rfl rfl rfl rfl rfl (k0_pay6 v36 P6) W p j).trans ?_
    exact Finset.sum_congr rfl fun k _ => congrArg (· * W (ix2 k j)) (pay6_apply v36 P6 p k)
  · rw [shapeCast_self]
    exact broadcastTo_1b_ab_apply b broadcasts_S1x128_S4000x128 p j

/-- The box head before the logistic function at (p, q), from the trunk's product `v36` and the second bias. -/
theorem pay7_apply (v36 : FVec Ideal S4000x256 .f32) (P6 : Vec Ideal S1x256 .f32) (P7 : Vec Ideal S256x128 .f32)
    (P8 : Vec Ideal S1x128 .f32) (P9 : Vec Ideal S128x4 .f32) (P10 : Vec Ideal S1x4 .f32) (p : Fin 4000) (q : Fin 4) :
    k0_pay7 v36 P6 P7 P8 P9 P10 (ix2 p q)
      = lin (mat P9) (row0 P10) (relu (lin (mat P7) (row0 P8) (fun k => v36 (ix2 p k) + row0 P6 k))) q := by
  unfold k0_pay7
  show matmul (φ₁ := .f32) (φ₂ := .f32) dot_S4000x128_S128x4_S4000x4_1_0_0_1_n_n none
          (maximumf
            (addf
              (matmul (φ₁ := .f32) (φ₂ := .f32) dot_S4000x256_S256x128_S4000x128_1_0_0_1_n_n none (k0_pay6 v36 P6) P7
                (constant S4000x128 .f32 0x00000000#32))
              (broadcastTo S4000x128 (shapeCast S1x128 P8 shapeCasts_S1x128_S1x128) broadcasts_S1x128_S4000x128))
            (broadcast S4000x128 (Scalar.ofBits .f32 0x00000000#32 : Ideal .f32)))
          P9 (constant S4000x4 .f32 0x00000000#32) (ix2 p q)
        + broadcastTo S4000x4 (shapeCast S1x4 P10 shapeCasts_S1x4_S1x4) broadcasts_S1x4_S4000x4 (ix2 p q)
      = (∑ k : Fin 128, relu (lin (mat P7) (row0 P8) (fun k => v36 (ix2 p k) + row0 P6 k)) k * P9 (ix2 k q))
        + P10 (ix2 0 q)
  refine congrArg₂ (· + ·) ?_ ?_
  · refine (Ideal.matmul_constant_zero_apply dot_S4000x128_S128x4_S4000x4_1_0_0_1_n_n none _ P9 (ix2 p q)).trans ?_
    refine (PlainDot.sum_eq dot_S4000x128_S128x4_S4000x4_1_0_0_1_n_n rfl rfl rfl rfl rfl rfl _ P9 p q).trans ?_
    exact Finset.sum_congr rfl fun k _ => congrArg (· * P9 (ix2 k q)) (hid_apply v36 P6 P7 P8 p k)
  · rw [shapeCast_self]
    exact broadcastTo_1b_ab_apply P10 broadcasts_S1x4_S4000x4 p q

/-- The scale head before the logistic function. -/
theorem pay8_apply (v36 : FVec Ideal S4000x256 .f32) (P6 : Vec Ideal S1x256 .f32) (P11 : Vec Ideal S256x128 .f32)
    (P12 : Vec Ideal S1x128 .f32) (P13 : Vec Ideal S128x2 .f32) (P14 : Vec Ideal S1x2 .f32) (p : Fin 4000) (q : Fin 2) :
    k0_pay8 v36 P6 P11 P12 P13 P14 (ix2 p q)
      = lin (mat P13) (row0 P14) (relu (lin (mat P11) (row0 P12) (fun k => v36 (ix2 p k) + row0 P6 k))) q := by
  unfold k0_pay8
  show matmul (φ₁ := .f32) (φ₂ := .f32) dot_S4000x128_S128x2_S4000x2_1_0_0_1_n_n none
          (maximumf
            (addf
              (matmul (φ₁ := .f32) (φ₂ := .f32) dot_S4000x256_S256x128_S4000x128_1_0_0_1_n_n none (k0_pay6 v36 P6) P11
                (constant S4000x128 .f32 0x00000000#32))
              (broadcastTo S4000x128 (shapeCast S1x128 P12 shapeCasts_S1x128_S1x128) broadcasts_S1x128_S4000x128))
            (broadcast S4000x128 (Scalar.ofBits .f32 0x00000000#32 : Ideal .f32)))
          P13 (constant S4000x2 .f32 0x00000000#32) (ix2 p q)
        + broadcastTo S4000x2 (shapeCast S1x2 P14 shapeCasts_S1x2_S1x2) broadcasts_S1x2_S4000x2 (ix2 p q)
      = (∑ k : Fin 128, relu (lin (mat P11) (row0 P12) (fun k => v36 (ix2 p k) + row0 P6 k)) k * P13 (ix2 k q))
        + P14 (ix2 0 q)
  refine congrArg₂ (· + ·) ?_ ?_
  · refine (Ideal.matmul_constant_zero_apply dot_S4000x128_S128x2_S4000x2_1_0_0_1_n_n none _ P13 (ix2 p q)).trans ?_
    refine (PlainDot.sum_eq dot_S4000x128_S128x2_S4000x2_1_0_0_1_n_n rfl rfl rfl rfl rfl rfl _ P13 p q).trans ?_
    exact Finset.sum_congr rfl fun k _ => congrArg (· * P13 (ix2 k q)) (hid_apply v36 P6 P11 P12 p k)
  · rw [shapeCast_self]
    exact broadcastTo_1b_ab_apply P14 broadcasts_S1x2_S4000x2 p q

/-- The context head's first product, no bias yet. -/
theorem pay9_apply (v36 : FVec Ideal S4000x256 .f32) (P6 : Vec Ideal S1x256 .f32) (P15 : Vec Ideal S256x128 .f32)
    (p : Fin 4000) (j : Fin 128) :
    k0_pay9 v36 P6 P15 (ix2 p j) = ∑ k : Fin 256, (v36 (ix2 p k) + row0 P6 k) * mat P15 k j := by
  unfold k0_pay9
  refine (Ideal.matmul_constant_zero_apply dot_S4000x256_S256x128_S4000x128_1_0_0_1_n_n none (k0_pay6 v36 P6) P15 (ix2 p j)).trans ?_
  refine (PlainDot.sum_eq dot_S4000x256_S256x128_S4000x128_1_0_0_1_n_n rfl rfl rfl rfl rfl rfl (k0_pay6 v36 P6) P15 p j).trans ?_
  exact Finset.sum_congr rfl fun k _ => congrArg (· * P15 (ix2 k j)) (pay6_apply v36 P6 p k)

end Cert.KernelIdeal.Pay

end
-- ==== Proof.PayConf.lean ====
import proofs.«161107_g884763263511_cont_9to1_m_545_23_alg».proof.Proof.Gen.KernelIdeal.Skeleton
import proofs.«161107_g884763263511_cont_9to1_m_545_23_alg».proof.Proof.HeadRow
import proofs.«161107_g884763263511_cont_9to1_m_545_23_alg».proof.Proof.LibPlainDot
import Idealize.ShloMosaic.PureOps.Ideal.Laws
import Idealize.ShloMosaic.Lib.Pipeline.Value
import Idealize.ShloMosaic.Lib.ValueLayout

noncomputable section

namespace Cert.KernelIdeal.Pay

open Cert.KernelIdeal Cert.KernelIdeal.Gen HeadRow Idealize.ShloMosaic Idealize.ShloMosaic.ValueIdx

/-- A [1, n] row cast onto its own shape and spread over the rows, read at (p, c): the row at c. -/
private theorem bias_apply {a b : Nat} (v : (⟨2, ![1, b]⟩ : Shape).Idx → EReal)
    (hc : (⟨2, ![1, b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix2 (0 : Fin 1) c) := by
  rw [shapeCast_self]
  exact broadcastTo_1b_ab_apply v hb p c

/-- Three pieces of 4, 2 and 1 columns side by side, read at (p, i): the piece whose span holds i. -/
private theorem catCols_apply (A : FVec Ideal S4000x4 .f32) (B : FVec Ideal S4000x2 .f32) (C : FVec Ideal S4000x1 .f32)
    (h : Shape.Concatenates [S4000x4, S4000x2, S4000x1] S4000x7 1)
    (p : Fin 4000) (i : Fin 7) :
    concatenate S4000x7 1 [⟨S4000x4, A⟩, ⟨S4000x2, B⟩, ⟨S4000x1, C⟩] h (ix2 p i)
      = cat7 (fun q => A (ix2 p q)) (fun q => B (ix2 p q)) (fun q => C (ix2 p q)) i := by
  unfold cat7
  by_cases h4 : i.val < 4
  · rw [dif_pos h4]
    refine concatenate_apply_piece (t := S4000x7) (1 : Fin 2) [⟨S4000x4, A⟩, ⟨S4000x2, B⟩, ⟨S4000x1, C⟩] h (ix2 p i) 0 (by show (0 : Nat) < 3; omega) S4000x4 A rfl rfl 0 rfl (ix2 p ⟨i.val, h4⟩) (fun b hb => ?_) ?_
    · match b with
      | ⟨0, _⟩ => rfl
      | ⟨1, _⟩ => exact absurd rfl hb
    · exact Nat.zero_add _
  · rw [dif_neg h4]
    by_cases h6 : i.val < 6
    · rw [dif_pos h6]
      refine concatenate_apply_piece (t := S4000x7) (1 : Fin 2) [⟨S4000x4, A⟩, ⟨S4000x2, B⟩, ⟨S4000x1, C⟩] h (ix2 p i) 1 (by show (1 : Nat) < 3; omega) S4000x2 B rfl rfl 4 rfl (ix2 p ⟨i.val - 4, by omega⟩) (fun b hb => ?_) ?_
      · match b with
        | ⟨0, _⟩ => rfl
        | ⟨1, _⟩ => exact absurd rfl hb
      · show 4 + (i.val - 4) = i.val
        omega
    · rw [dif_neg h6]
      refine concatenate_apply_piece (t := S4000x7) (1 : Fin 2) [⟨S4000x4, A⟩, ⟨S4000x2, B⟩, ⟨S4000x1, C⟩] h (ix2 p i) 2 (by show (2 : Nat) < 3; omega) S4000x1 C rfl rfl 6 rfl (ix2 p ⟨i.val - 6, by have := i.isLt; omega⟩) (fun b hb => ?_) ?_
      · match b with
        | ⟨0, _⟩ => rfl
        | ⟨1, _⟩ => exact absurd rfl hb
      · show 6 + (i.val - 6) = i.val
        omega

/-- Three pieces of 4, 2 and 1 rows stacked, read at (i, k): the piece whose span holds i. -/
private theorem catRows_apply (A : FVec Ideal S4x128 .f32) (B : FVec Ideal S2x128 .f32) (C : FVec Ideal S1x128 .f32)
    (h : Shape.Concatenates [S4x128, S2x128, S1x128] S7x128 0) (i : Fin 7) (k : Fin 128) :
    concatenate S7x128 0 [⟨S4x128, A⟩, ⟨S2x128, B⟩, ⟨S1x128, C⟩] h (ix2 i k)
      = cat7 (fun a => A (ix2 a k)) (fun a => B (ix2 a k)) (fun a => C (ix2 a k)) i := by
  unfold cat7
  by_cases h4 : i.val < 4
  · rw [dif_pos h4]
    refine concatenate_apply_piece (t := S7x128) (0 : Fin 2) [⟨S4x128, A⟩, ⟨S2x128, B⟩, ⟨S1x128, C⟩] h (ix2 i k) 0 (by show (0 : Nat) < 3; omega) S4x128 A rfl rfl 0 rfl (ix2 ⟨i.val, h4⟩ k) (fun b hb => ?_) ?_
    · match b with
      | ⟨0, _⟩ => exact absurd rfl hb
      | ⟨1, _⟩ => rfl
    · exact Nat.zero_add _
  · rw [dif_neg h4]
    by_cases h6 : i.val < 6
    · rw [dif_pos h6]
      refine concatenate_apply_piece (t := S7x128) (0 : Fin 2) [⟨S4x128, A⟩, ⟨S2x128, B⟩, ⟨S1x128, C⟩] h (ix2 i k) 1 (by show (1 : Nat) < 3; omega) S2x128 B rfl rfl 4 rfl (ix2 ⟨i.val - 4, by omega⟩ k) (fun b hb => ?_) ?_
      · match b with
        | ⟨0, _⟩ => exact absurd rfl hb
        | ⟨1, _⟩ => rfl
      · show 4 + (i.val - 4) = i.val
        omega
    · rw [dif_neg h6]
      refine concatenate_apply_piece (t := S7x128) (0 : Fin 2) [⟨S4x128, A⟩, ⟨S2x128, B⟩, ⟨S1x128, C⟩] h (ix2 i k) 2 (by show (2 : Nat) < 3; omega) S1x128 C rfl rfl 6 rfl (ix2 ⟨i.val - 6, by have := i.isLt; omega⟩ k) (fun b hb => ?_) ?_
      · match b with
        | ⟨0, _⟩ => exact absurd rfl hb
        | ⟨1, _⟩ => rfl
      · show 6 + (i.val - 6) = i.val
        omega

/-- The logistic function over the seven packed head values at (p, i). -/
theorem pay10_apply (v54 : FVec Ideal S4000x4 .f32) (v68 : FVec Ideal S4000x2 .f32) (v70 : FVec Ideal S4000x128 .f32)
    (P16 : Vec Ideal S1x128 .f32) (P17 : Vec Ideal S128x1 .f32) (P18 : Vec Ideal S1x1 .f32) (p : Fin 4000) (i : Fin 7) :
    k0_pay10 v54 v68 v70 P16 P17 P18 (ix2 p i)
      = Ideal.logistic (cat7 (fun q => v54 (ix2 p q)) (fun q => v68 (ix2 p q))
          (lin (mat P17) (row0 P18) (relu (fun k => v70 (ix2 p k) + row0 P16 k))) i) := by
  -- The seven values are the three pieces side by side; only the third piece (the context score before the logistic
  -- function) is computed here: bias, rectifier, the sum against the last column, and the last bias.
  unfold k0_pay10
  refine congrArg Ideal.logistic ?_
  refine (catCols_apply _ _ _ _ p i).trans ?_
  refine congrArg (fun c => cat7 (fun q => v54 (ix2 p q)) (fun q => v68 (ix2 p q)) c i) (funext fun q => ?_)
  rw [addf_apply, bias_apply]
  refine congrArg (· + P18 (ix2 (0 : Fin 1) q)) ?_
  refine (Ideal.matmul_constant_zero_apply _ _ _ _ _).trans ?_
  refine (PlainDot.sum_eq dot_S4000x128_S128x1_S4000x1_1_0_0_1_n_n rfl rfl rfl rfl rfl rfl _ _ p q).trans ?_
  refine Finset.sum_congr rfl fun k _ => ?_
  refine congrArg (· * P17 (ix2 k q)) ?_
  rw [maximumf_apply, addf_apply, bias_apply]
  rfl

/-- The confidence head's last product at (p, q): its hidden layer against the last column. -/
theorem pay11_apply (v40 : FVec Ideal S4000x256 .f32) (v54 : FVec Ideal S4000x4 .f32) (v68 : FVec Ideal S4000x2 .f32)
    (v70 : FVec Ideal S4000x128 .f32) (P16 : Vec Ideal S1x128 .f32) (P17 : Vec Ideal S128x1 .f32) (P18 : Vec Ideal S1x1 .f32)
    (P19 : Vec Ideal S7x128 .f32) (P20 : Vec Ideal S1x128 .f32) (P21 : Vec Ideal S256x128 .f32) (P22 : Vec Ideal S128x1 .f32)
    (p : Fin 4000) (q : Fin 1) :
    k0_pay11 v40 v54 v68 v70 P16 P17 P18 P19 P20 P21 P22 (ix2 p q)
      = ∑ k : Fin 128, hidK (mat P21) (mat P19) (row0 P20) (fun k' => v40 (ix2 p k'))
          (fun i => k0_pay10 v54 v68 v70 P16 P17 P18 (ix2 p i)) k * mat P22 k q := by
  unfold k0_pay11
  refine (Ideal.matmul_constant_zero_apply _ _ _ _ _).trans ?_
  refine (PlainDot.sum_eq dot_S4000x128_S128x1_S4000x1_1_0_0_1_n_n rfl rfl rfl rfl rfl rfl _ _ p q).trans ?_
  refine Finset.sum_congr rfl fun k _ => ?_
  refine congrArg (· * P22 (ix2 k q)) ?_
  -- The hidden layer at (p, k) is the rectifier of three summands: the trunk against rows 0..255, the seven logistic
  -- values against the stretched rows 256..262, and the adjusted bias row.
  unfold hidK
  rw [maximumf_apply, addf_apply, addf_apply]
  refine congrArg₂ max (congrArg₂ (· + ·) (congrArg₂ (· + ·) ?_ ?_) ?_) rfl
  · exact (Ideal.matmul_constant_zero_apply _ _ _ _ _).trans
      (PlainDot.sum_eq dot_S4000x256_S256x128_S4000x128_1_0_0_1_n_n rfl rfl rfl rfl rfl rfl _ _ p k)
  · refine (Ideal.matmul_constant_zero_apply _ _ _ _ _).trans
      ((PlainDot.sum_eq dot_S4000x7_S7x128_S4000x128_1_0_0_1_n_n rfl rfl rfl rfl rfl rfl _ _ p k).trans
        (Finset.sum_congr rfl fun i _ => congrArg (k0_pay10 v54 v68 v70 P16 P17 P18 (ix2 p i) * ·) ?_))
    -- The stacked matrix at (i, k): rows 0..3 as loaded, rows 4..5 times span, row 6 as loaded.
    refine (catRows_apply _ _ _ _ i k).trans ?_
    unfold fHiS
    refine congrFun (congr (congr (congrArg cat7 (funext fun a => ?_)) (funext fun a => ?_)) (funext fun a => ?_)) i
    · exact slice2_axis0_apply 0 P19 _ a k ⟨a.val, by have := a.isLt; omega⟩ (Nat.zero_add _).symm
    · rw [mulf_apply]
      exact congrArg₂ (· * ·) (slice2_axis0_apply 4 P19 _ a k ⟨a.val + 4, by have := a.isLt; omega⟩ (Nat.add_comm _ _)) rfl
    · exact slice2_axis0_apply 6 P19 _ a k ⟨a.val + 6, by have := a.isLt; omega⟩ (Nat.add_comm _ _)
  · -- The adjusted bias row at k: the bias plus least-size times (row 4 + row 5).
    refine (broadcastTo_1b_ab_apply _ _ p k).trans ?_
    rw [addf_apply, mulf_apply, addf_apply, shapeCast_self]
    exact congrArg₂ (· + ·) rfl (congrArg₂ (· * ·) rfl
      (congrArg₂ (· + ·) (slice2_axis0_apply 4 P19 _ 0 k 4 rfl) (slice2_axis0_apply 5 P19 _ 0 k 5 rfl)))

/-- The confidence: the last bias and the logistic function. -/
theorem pay1_apply (v109 : FVec Ideal S4000x1 .f32) (P23 : Vec Ideal S1x1 .f32) (p : Fin 4000) (q : Fin 1) :
    k0_pay1 v109 P23 (ix2 p q) = Ideal.logistic (v109 (ix2 p q) + row0 P23 q) := by
  unfold k0_pay1
  show Ideal.logistic (v109 (ix2 p q) + broadcastTo S4000x1 (shapeCast S1x1 P23 shapeCasts_S1x1_S1x1) broadcasts_S1x1_S4000x1 (ix2 p q)) = _
  rw [bias_apply]
  rfl

end Cert.KernelIdeal.Pay

end
-- ==== Proof.KernelRow.lean ====
import proofs.«161107_g884763263511_cont_9to1_m_545_23_alg».proof.Proof.ValueLegP
import proofs.«161107_g884763263511_cont_9to1_m_545_23_alg».proof.Proof.HeadRow
import proofs.«161107_g884763263511_cont_9to1_m_545_23_alg».proof.Proof.PayTrunk
import proofs.«161107_g884763263511_cont_9to1_m_545_23_alg».proof.Proof.PayHeads
import proofs.«161107_g884763263511_cont_9to1_m_545_23_alg».proof.Proof.PayConf

noncomputable section

namespace Cert.KernelIdeal.Row

open Cert.KernelIdeal Cert.KernelIdeal.Gen HeadRow Idealize.ShloMosaic Idealize.ShloMosaic.TcCoe Idealize.SL.Sem Idealize.ShloMosaic.ValueIdx Cert.KernelIdeal.Pay

section Stages

variable (P0 : Vec Ideal S4000x512 .f32) (P1 : Vec Ideal S512x256 .f32) (P2 : Vec Ideal S1x256 .f32) (P3 : Vec Ideal S1x256 .f32) (P4 : Vec Ideal S1x256 .f32) (P5 : Vec Ideal S256x256 .f32) (P6 : Vec Ideal S1x256 .f32) (P7 : Vec Ideal S256x128 .f32) (P8 : Vec Ideal S1x128 .f32) (P9 : Vec Ideal S128x4 .f32) (P10 : Vec Ideal S1x4 .f32) (P11 : Vec Ideal S256x128 .f32) (P12 : Vec Ideal S1x128 .f32) (P13 : Vec Ideal S128x2 .f32) (P14 : Vec Ideal S1x2 .f32) (P15 : Vec Ideal S256x128 .f32) (P16 : Vec Ideal S1x128 .f32) (P17 : Vec Ideal S128x1 .f32) (P18 : Vec Ideal S1x1 .f32)

/-- The trunk at (p, k): the second product there plus the second bias is the first spelling's trunk output of row p,
    since the product is the sum of the normalised first layer against column k of the second matrix. -/
private theorem trunk_apply (p : Fin 4000) (k : Fin 256) :
    k0_pay5 P0 P1 P2 P3 P4 P5 (ix2 p k) + row0 P6 k = zK (commonOfLoads P1 P2 P3 P4 P5 P6 P7 P8 P9 P10 P11 P12 P13 P14 P15 P16 P17 P18) (rowOf P0 p) k := by
  rw [pay5_apply]
  rfl

/-- The same, for the whole row. -/
private theorem trunk_row (p : Fin 4000) :
    (fun k => k0_pay5 P0 P1 P2 P3 P4 P5 (ix2 p k) + row0 P6 k) = zK (commonOfLoads P1 P2 P3 P4 P5 P6 P7 P8 P9 P10 P11 P12 P13 P14 P15 P16 P17 P18) (rowOf P0 p) :=
  funext fun k => trunk_apply P0 P1 P2 P3 P4 P5 P6 P7 P8 P9 P10 P11 P12 P13 P14 P15 P16 P17 P18 p k

/-- The seven logistic values at (p, i) are the first spelling's seven of row p: each head before the logistic
    function is its two affine layers over the trunk's output. -/
private theorem sig_apply (p : Fin 4000) (i : Fin 7) :
    (k0_pay10 (k0_pay7 (k0_pay5 P0 P1 P2 P3 P4 P5) P6 P7 P8 P9 P10) (k0_pay8 (k0_pay5 P0 P1 P2 P3 P4 P5) P6 P11 P12 P13 P14) (k0_pay9 (k0_pay5 P0 P1 P2 P3 P4 P5) P6 P15) P16 P17 P18) (ix2 p i) = sig7 (commonOfLoads P1 P2 P3 P4 P5 P6 P7 P8 P9 P10 P11 P12 P13 P14 P15 P16 P17 P18) (zK (commonOfLoads P1 P2 P3 P4 P5 P6 P7 P8 P9 P10 P11 P12 P13 P14 P15 P16 P17 P18) (rowOf P0 p)) i := by
  rw [pay10_apply]
  have hL : (fun q => k0_pay7 (k0_pay5 P0 P1 P2 P3 P4 P5) P6 P7 P8 P9 P10 (ix2 p q)) = preL (commonOfLoads P1 P2 P3 P4 P5 P6 P7 P8 P9 P10 P11 P12 P13 P14 P15 P16 P17 P18) (zK (commonOfLoads P1 P2 P3 P4 P5 P6 P7 P8 P9 P10 P11 P12 P13 P14 P15 P16 P17 P18) (rowOf P0 p)) := by
    funext q
    rw [pay7_apply, trunk_row P0 P1 P2 P3 P4 P5 P6 P7 P8 P9 P10 P11 P12 P13 P14 P15 P16 P17 P18 p]
    rfl
  have hS : (fun q => k0_pay8 (k0_pay5 P0 P1 P2 P3 P4 P5) P6 P11 P12 P13 P14 (ix2 p q)) = preS (commonOfLoads P1 P2 P3 P4 P5 P6 P7 P8 P9 P10 P11 P12 P13 P14 P15 P16 P17 P18) (zK (commonOfLoads P1 P2 P3 P4 P5 P6 P7 P8 P9 P10 P11 P12 P13 P14 P15 P16 P17 P18) (rowOf P0 p)) := by
    funext q
    rw [pay8_apply, trunk_row P0 P1 P2 P3 P4 P5 P6 P7 P8 P9 P10 P11 P12 P13 P14 P15 P16 P17 P18 p]
    rfl
  have hC : (fun k => k0_pay9 (k0_pay5 P0 P1 P2 P3 P4 P5) P6 P15 (ix2 p k) + row0 P16 k)
      = lin (mat P15) (row0 P16) (zK (commonOfLoads P1 P2 P3 P4 P5 P6 P7 P8 P9 P10 P11 P12 P13 P14 P15 P16 P17 P18) (rowOf P0 p)) := by
    funext k
    rw [pay9_apply]
    show (∑ k' : Fin 256, (k0_pay5 P0 P1 P2 P3 P4 P5 (ix2 p k') + row0 P6 k') * mat P15 k' k) + row0 P16 k
        = (∑ k' : Fin 256, zK (commonOfLoads P1 P2 P3 P4 P5 P6 P7 P8 P9 P10 P11 P12 P13 P14 P15 P16 P17 P18) (rowOf P0 p) k' * mat P15 k' k) + row0 P16 k
    refine congrArg (· + row0 P16 k) (Finset.sum_congr rfl fun k' _ => ?_)
    rw [trunk_apply P0 P1 P2 P3 P4 P5 P6 P7 P8 P9 P10 P11 P12 P13 P14 P15 P16 P17 P18 p k']
  rw [hL, hS, hC]
  rfl

end Stages

/-- What the body leaves in the box window's block at `y`: the box numbers of the row of the features' load at `y 0`. -/
theorem E23_eq (P0 : Vec Ideal S4000x512 .f32) (P1 : Vec Ideal S512x256 .f32) (P2 : Vec Ideal S1x256 .f32) (P3 : Vec Ideal S1x256 .f32) (P4 : Vec Ideal S1x256 .f32) (P5 : Vec Ideal S256x256 .f32) (P6 : Vec Ideal S1x256 .f32) (P7 : Vec Ideal S256x128 .f32) (P8 : Vec Ideal S1x128 .f32) (P9 : Vec Ideal S128x4 .f32) (P10 : Vec Ideal S1x4 .f32) (P11 : Vec Ideal S256x128 .f32) (P12 : Vec Ideal S1x128 .f32) (P13 : Vec Ideal S128x2 .f32) (P14 : Vec Ideal S1x2 .f32) (P15 : Vec Ideal S256x128 .f32) (P16 : Vec Ideal S1x128 .f32) (P17 : Vec Ideal S128x1 .f32) (P18 : Vec Ideal S1x1 .f32) (y : S4000x4.Idx) :
    ValueP.E23 P0 P1 P2 P3 P4 P5 P6 P7 P8 P9 P10 P11 P12 P13 P14 P15 P16 P17 P18 y = boxesK (commonOfLoads P1 P2 P3 P4 P5 P6 P7 P8 P9 P10 P11 P12 P13 P14 P15 P16 P17 P18) (rowOf P0 (y 0)) (y 1) := by
  obtain ⟨p, q, rfl⟩ : ∃ (p : Fin 4000) (q : Fin 4), y = ix2 p q := ⟨y 0, y 1, eq_ix2 y⟩
  have hix : ValueP.ix23_0 (ix2 p q) = ix2 p (⟨q.val, by have := q.isLt; omega⟩ : Fin 7) := by
    funext a
    apply Fin.ext
    match a with
    | ⟨0, _⟩ => rfl
    | ⟨1, _⟩ => rfl
  show (k0_pay10 (k0_pay7 (k0_pay5 P0 P1 P2 P3 P4 P5) P6 P7 P8 P9 P10) (k0_pay8 (k0_pay5 P0 P1 P2 P3 P4 P5) P6 P11 P12 P13 P14) (k0_pay9 (k0_pay5 P0 P1 P2 P3 P4 P5) P6 P15) P16 P17 P18) (ValueP.ix23_0 (ix2 p q)) = _
  rw [hix, sig_apply]
  rfl

/-- The scale window's block at `y`: the logistic values 4 and 5 of that row, stretched by span and moved by the least size. -/
theorem E24_eq (P0 : Vec Ideal S4000x512 .f32) (P1 : Vec Ideal S512x256 .f32) (P2 : Vec Ideal S1x256 .f32) (P3 : Vec Ideal S1x256 .f32) (P4 : Vec Ideal S1x256 .f32) (P5 : Vec Ideal S256x256 .f32) (P6 : Vec Ideal S1x256 .f32) (P7 : Vec Ideal S256x128 .f32) (P8 : Vec Ideal S1x128 .f32) (P9 : Vec Ideal S128x4 .f32) (P10 : Vec Ideal S1x4 .f32) (P11 : Vec Ideal S256x128 .f32) (P12 : Vec Ideal S1x128 .f32) (P13 : Vec Ideal S128x2 .f32) (P14 : Vec Ideal S1x2 .f32) (P15 : Vec Ideal S256x128 .f32) (P16 : Vec Ideal S1x128 .f32) (P17 : Vec Ideal S128x1 .f32) (P18 : Vec Ideal S1x1 .f32) (y : S4000x2.Idx) :
    ValueP.E24 P0 P1 P2 P3 P4 P5 P6 P7 P8 P9 P10 P11 P12 P13 P14 P15 P16 P17 P18 y = scalesK (commonOfLoads P1 P2 P3 P4 P5 P6 P7 P8 P9 P10 P11 P12 P13 P14 P15 P16 P17 P18) (rowOf P0 (y 0)) (y 1) := by
  obtain ⟨p, q, rfl⟩ : ∃ (p : Fin 4000) (q : Fin 2), y = ix2 p q := ⟨y 0, y 1, eq_ix2 y⟩
  have hix : ValueP.ix24_0 (ix2 p q) = ix2 p (⟨q.val + 4, by have := q.isLt; omega⟩ : Fin 7) := by
    funext a
    apply Fin.ext
    match a with
    | ⟨0, _⟩ => rfl
    | ⟨1, _⟩ => rfl
  show (k0_pay10 (k0_pay7 (k0_pay5 P0 P1 P2 P3 P4 P5) P6 P7 P8 P9 P10) (k0_pay8 (k0_pay5 P0 P1 P2 P3 P4 P5) P6 P11 P12 P13 P14) (k0_pay9 (k0_pay5 P0 P1 P2 P3 P4 P5) P6 P15) P16 P17 P18) (ValueP.ix24_0 (ix2 p q)) * cspan + cmin = _
  rw [hix, sig_apply]
  rfl

/-- The context window's block at `y`: the logistic value 6 of that row. -/
theorem E25_eq (P0 : Vec Ideal S4000x512 .f32) (P1 : Vec Ideal S512x256 .f32) (P2 : Vec Ideal S1x256 .f32) (P3 : Vec Ideal S1x256 .f32) (P4 : Vec Ideal S1x256 .f32) (P5 : Vec Ideal S256x256 .f32) (P6 : Vec Ideal S1x256 .f32) (P7 : Vec Ideal S256x128 .f32) (P8 : Vec Ideal S1x128 .f32) (P9 : Vec Ideal S128x4 .f32) (P10 : Vec Ideal S1x4 .f32) (P11 : Vec Ideal S256x128 .f32) (P12 : Vec Ideal S1x128 .f32) (P13 : Vec Ideal S128x2 .f32) (P14 : Vec Ideal S1x2 .f32) (P15 : Vec Ideal S256x128 .f32) (P16 : Vec Ideal S1x128 .f32) (P17 : Vec Ideal S128x1 .f32) (P18 : Vec Ideal S1x1 .f32) (y : S4000x1.Idx) :
    ValueP.E25 P0 P1 P2 P3 P4 P5 P6 P7 P8 P9 P10 P11 P12 P13 P14 P15 P16 P17 P18 y = ctxK (commonOfLoads P1 P2 P3 P4 P5 P6 P7 P8 P9 P10 P11 P12 P13 P14 P15 P16 P17 P18) (rowOf P0 (y 0)) (y 1) := by
  obtain ⟨p, q, rfl⟩ : ∃ (p : Fin 4000) (q : Fin 1), y = ix2 p q := ⟨y 0, y 1, eq_ix2 y⟩
  have hix : ValueP.ix25_0 (ix2 p q) = ix2 p (6 : Fin 7) := by
    funext a
    apply Fin.ext
    match a with
    | ⟨0, _⟩ => rfl
    | ⟨1, _⟩ => rfl
  show (k0_pay10 (k0_pay7 (k0_pay5 P0 P1 P2 P3 P4 P5) P6 P7 P8 P9 P10) (k0_pay8 (k0_pay5 P0 P1 P2 P3 P4 P5) P6 P11 P12 P13 P14) (k0_pay9 (k0_pay5 P0 P1 P2 P3 P4 P5) P6 P15) P16 P17 P18) (ValueP.ix25_0 (ix2 p q)) = _
  rw [hix, sig_apply]
  rfl

/-- The confidence window's block at `y`: the hidden layer over the trunk's output and the seven logistic values of that
    row, against the last column, plus the last bias, through the logistic function. -/
theorem E26_eq (P0 : Vec Ideal S4000x512 .f32) (P1 : Vec Ideal S512x256 .f32) (P2 : Vec Ideal S1x256 .f32) (P3 : Vec Ideal S1x256 .f32) (P4 : Vec Ideal S1x256 .f32) (P5 : Vec Ideal S256x256 .f32) (P6 : Vec Ideal S1x256 .f32) (P7 : Vec Ideal S256x128 .f32) (P8 : Vec Ideal S1x128 .f32) (P9 : Vec Ideal S128x4 .f32) (P10 : Vec Ideal S1x4 .f32) (P11 : Vec Ideal S256x128 .f32) (P12 : Vec Ideal S1x128 .f32) (P13 : Vec Ideal S128x2 .f32) (P14 : Vec Ideal S1x2 .f32) (P15 : Vec Ideal S256x128 .f32) (P16 : Vec Ideal S1x128 .f32) (P17 : Vec Ideal S128x1 .f32) (P18 : Vec Ideal S1x1 .f32) (P19 : Vec Ideal S7x128 .f32) (P20 : Vec Ideal S1x128 .f32) (P21 : Vec Ideal S256x128 .f32) (P22 : Vec Ideal S128x1 .f32) (P23 : Vec Ideal S1x1 .f32) (y : S4000x1.Idx) :
    ValueP.E26 P0 P1 P2 P3 P4 P5 P6 P7 P8 P9 P10 P11 P12 P13 P14 P15 P16 P17 P18 P19 P20 P21 P22 P23 y = confK (kparamsOfLoads P1 P2 P3 P4 P5 P6 P7 P8 P9 P10 P11 P12 P13 P14 P15 P16 P17 P18 P19 P20 P21 P22 P23) (rowOf P0 (y 0)) (y 1) := by
  obtain ⟨p, q, rfl⟩ : ∃ (p : Fin 4000) (q : Fin 1), y = ix2 p q := ⟨y 0, y 1, eq_ix2 y⟩
  have hix0 : ValueP.ix26_0 (ix2 p q) = ix2 p (0 : Fin 1) := by
    funext a
    apply Fin.ext
    match a with
    | ⟨0, _⟩ => rfl
    | ⟨1, _⟩ => rfl
  have hix1 : ValueP.ix26_1 (ix2 p q) = ix2 (0 : Fin 1) (0 : Fin 1) := by
    funext a
    apply Fin.ext
    match a with
    | ⟨0, _⟩ => rfl
    | ⟨1, _⟩ => rfl
  show Ideal.logistic (k0_pay11 (k0_pay6 (k0_pay5 P0 P1 P2 P3 P4 P5) P6) (k0_pay7 (k0_pay5 P0 P1 P2 P3 P4 P5) P6 P7 P8 P9 P10) (k0_pay8 (k0_pay5 P0 P1 P2 P3 P4 P5) P6 P11 P12 P13 P14) (k0_pay9 (k0_pay5 P0 P1 P2 P3 P4 P5) P6 P15) P16 P17 P18 P19 P20 P21 P22 (ValueP.ix26_0 (ix2 p q)) + P23 (ValueP.ix26_1 (ix2 p q))) = _
  rw [hix0, hix1, pay11_apply]
  have hz : (fun k' => k0_pay6 (k0_pay5 P0 P1 P2 P3 P4 P5) P6 (ix2 p k')) = zK (commonOfLoads P1 P2 P3 P4 P5 P6 P7 P8 P9 P10 P11 P12 P13 P14 P15 P16 P17 P18) (rowOf P0 p) := by
    funext k'
    rw [pay6_apply, trunk_apply P0 P1 P2 P3 P4 P5 P6 P7 P8 P9 P10 P11 P12 P13 P14 P15 P16 P17 P18 p k']
  have hs : (fun i => (k0_pay10 (k0_pay7 (k0_pay5 P0 P1 P2 P3 P4 P5) P6 P7 P8 P9 P10) (k0_pay8 (k0_pay5 P0 P1 P2 P3 P4 P5) P6 P11 P12 P13 P14) (k0_pay9 (k0_pay5 P0 P1 P2 P3 P4 P5) P6 P15) P16 P17 P18) (ix2 p i)) = sig7 (commonOfLoads P1 P2 P3 P4 P5 P6 P7 P8 P9 P10 P11 P12 P13 P14 P15 P16 P17 P18) (zK (commonOfLoads P1 P2 P3 P4 P5 P6 P7 P8 P9 P10 P11 P12 P13 P14 P15 P16 P17 P18) (rowOf P0 p)) :=
    funext fun i => sig_apply P0 P1 P2 P3 P4 P5 P6 P7 P8 P9 P10 P11 P12 P13 P14 P15 P16 P17 P18 p i
  rw [hz, hs]
  rfl

end Cert.KernelIdeal.Row

end
-- ==== Proof.KernelArray.lean ====
import proofs.«161107_g884763263511_cont_9to1_m_545_23_alg».proof.Proof.ValueLegP
import proofs.«161107_g884763263511_cont_9to1_m_545_23_alg».proof.Proof.HeadRow
import proofs.«161107_g884763263511_cont_9to1_m_545_23_alg».proof.Proof.KernelBlocks
import proofs.«161107_g884763263511_cont_9to1_m_545_23_alg».proof.Proof.KernelRow

noncomputable section

namespace Cert.KernelIdeal.Whole

open Cert.KernelIdeal Cert.KernelIdeal.Gen HeadRow Idealize.ShloMosaic Idealize.ShloMosaic.TcCoe Idealize.SL.Sem Idealize.ShloMosaic.ValueIdx
open Idealize.ShloMosaic.Pipeline (Dat)

/-!
  From blocks to whole arrays.  The grid has five points; point t works on rows 4000 t .. 4000 t + 3999 of the
  features and writes rows 4000 t .. 4000 t + 3999 of each of the four results.  For each result: what point t
  writes back is block t of the whole array whose entry (r, q) is the first spelling's row function of row r of the
  features; the five blocks cover the 20000 rows; so the array after the run is that whole array.
-/

section Windows

variable (m : (ℓ : Loc nD τ sig) → Buf (Elt Ideal) ℓ)

/-! ## The boxes (window 23, 20000 x 4) -/

/-- The block of grid point `t` is block row `t`, block column 0 (the five points, one by one). -/
theorem boxes_index : ∀ t : Fin cfg0.N, win0_23.index t (0 : Fin 2) = t.val ∧ win0_23.index t (1 : Fin 2) = 0 :=
  (by decide +kernel : ∀ t : Fin grid0.N, win0_23.index t (0 : Fin 2) = t.val ∧ win0_23.index t (1 : Fin 2) = 0)

/-- What the body leaves at place `y` of point `t`'s block is entry (4000 t + y 0, y 1) of the whole result: the body
    computes the four box numbers of row `y 0` of the features' block, which is row 4000 t + y 0 of the features, with the
    weights it loads, which are the weight arguments. -/
theorem boxes_point (c : Dev nD) (t : Fin cfg0.N) (y : S4000x4.Idx) :
    ValueP.E23 (Blocks.ld0 m c t) (Blocks.ld1 m c t) (Blocks.ld2 m c t) (Blocks.ld3 m c t) (Blocks.ld4 m c t) (Blocks.ld5 m c t) (Blocks.ld6 m c t) (Blocks.ld7 m c t) (Blocks.ld8 m c t) (Blocks.ld9 m c t) (Blocks.ld10 m c t) (Blocks.ld11 m c t) (Blocks.ld12 m c t) (Blocks.ld13 m c t) (Blocks.ld14 m c t) (Blocks.ld15 m c t) (Blocks.ld16 m c t) (Blocks.ld17 m c t) (Blocks.ld18 m c t) y
      = GK_boxes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (ix2 (Blocks.grow t (y 0)) (y 1)) := by
  rw [Row.E23_eq, Blocks.common_eq m c t, Blocks.feat_row m c t (y 0)]
  rfl

/-- What point `t` writes back is block `t` of the whole result: place `y` of that block sits at row
    (block row) x 4000 + y 0 = 4000 t + y 0 and column (block column) x 4 + y 1 = y 1 of the array. -/
theorem boxes_flushed (c : Dev nD) (t : Fin cfg0.N) :
    (dats m 0 c).flushed 23 t = ((cfg0.win 23).blk t).view.read (Elt Ideal) (GK_boxes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))) := by
  rw [ValueP.flushed23]
  unfold Gen.out0_23
  funext y
  refine (ValueP.canon23_eq _ _ _ _ _ _ _ _ _ _ _ _ _ _ _ _ _ _ _ y).trans ?_
  refine (boxes_point m c t y).trans ?_
  obtain ⟨e0, e1⟩ := boxes_index t
  show GK_boxes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) _ = GK_boxes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (((cfg0.win 23).blk t).view.emb y)
  congr 1
  funext a; apply Fin.ext
  match a with
  | ⟨0, _⟩ => show 4000 * t.val + (y 0).val = win0_23.index t (0 : Fin 2) * 4000 + 1 * (y 0).val; omega
  | ⟨1, _⟩ => show (y 1).val = win0_23.index t (1 : Fin 2) * 4 + 1 * (y 1).val; omega

/-- An entry of the array is in point `t`'s block iff each coordinate is in the block's range on its axis. -/
theorem boxes_mem_blk (t : Fin cfg0.N) (i : S20000x4.Idx) :
    i ∈ ((cfg0.win 23).blk t).view.set ↔ ∀ a : Fin 2, win0_23.index t a * S4000x4.size a ≤ (i a).val ∧ (i a).val < win0_23.index t a * S4000x4.size a + S4000x4.size a := by
  show i ∈ ((View.whole main_v0_0).slice (win0_23.rect t)).set ↔ _
  rw [View.set_slice_whole, Rect.mem_set_unit]
  exact Iff.rfl

/-- Every entry is in some point's block: row r is in the block of point r / 4000, and the block spans all columns. -/
theorem boxes_cover (i : S20000x4.Idx) :
    ∃ t : Fin cfg0.N, (cfg0.win 23).flush t = true ∧ i ∈ ((cfg0.win 23).blk t).view.set := by
  have hi0 : (i 0).val < 20000 := (i 0).isLt
  have hi1 : (i 1).val < 4 := (i 1).isLt
  obtain ⟨t, ht⟩ : ∃ t : Fin cfg0.N, t.val = (i 0).val / 4000 :=
    ⟨⟨(i 0).val / 4000, by show (i 0).val / 4000 < 5; omega⟩, rfl⟩
  obtain ⟨e0, e1⟩ := boxes_index t
  refine ⟨t, flush0_23 t, ?_⟩
  rw [boxes_mem_blk]
  intro a
  match a with
  | ⟨0, _⟩ => show win0_23.index t (0 : Fin 2) * 4000 ≤ (i 0).val ∧ (i 0).val < win0_23.index t (0 : Fin 2) * 4000 + 4000; omega
  | ⟨1, _⟩ => show win0_23.index t (1 : Fin 2) * 4 ≤ (i 1).val ∧ (i 1).val < win0_23.index t (1 : Fin 2) * 4 + 4; omega

/-- The array after the run is the whole result: every point writes its block of it, and the blocks cover the array. -/
theorem boxes_final (c : Dev nD) : (dats m 0 c).arrAt 23 cfg0.N = GK_boxes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (dats m 0 c).arrAt_eq_of_cover 23 (GK_boxes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))) (fun t _ => boxes_flushed m c t) boxes_cover

/-! ## The scales (window 24, 20000 x 2) -/

/-- The block of grid point `t` is block row `t`, block column 0 (the five points, one by one). -/
theorem scales_index : ∀ t : Fin cfg0.N, win0_24.index t (0 : Fin 2) = t.val ∧ win0_24.index t (1 : Fin 2) = 0 :=
  (by decide +kernel : ∀ t : Fin grid0.N, win0_24.index t (0 : Fin 2) = t.val ∧ win0_24.index t (1 : Fin 2) = 0)

/-- What the body leaves at place `y` of point `t`'s block is entry (4000 t + y 0, y 1) of the whole result: the body
    computes the two scale numbers of row `y 0` of the features' block, which is row 4000 t + y 0 of the features, with the
    weights it loads, which are the weight arguments. -/
theorem scales_point (c : Dev nD) (t : Fin cfg0.N) (y : S4000x2.Idx) :
    ValueP.E24 (Blocks.ld0 m c t) (Blocks.ld1 m c t) (Blocks.ld2 m c t) (Blocks.ld3 m c t) (Blocks.ld4 m c t) (Blocks.ld5 m c t) (Blocks.ld6 m c t) (Blocks.ld7 m c t) (Blocks.ld8 m c t) (Blocks.ld9 m c t) (Blocks.ld10 m c t) (Blocks.ld11 m c t) (Blocks.ld12 m c t) (Blocks.ld13 m c t) (Blocks.ld14 m c t) (Blocks.ld15 m c t) (Blocks.ld16 m c t) (Blocks.ld17 m c t) (Blocks.ld18 m c t) y
      = GK_scales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (ix2 (Blocks.grow t (y 0)) (y 1)) := by
  rw [Row.E24_eq, Blocks.common_eq m c t, Blocks.feat_row m c t (y 0)]
  rfl

/-- What point `t` writes back is block `t` of the whole result: place `y` of that block sits at row
    (block row) x 4000 + y 0 = 4000 t + y 0 and column (block column) x 2 + y 1 = y 1 of the array. -/
theorem scales_flushed (c : Dev nD) (t : Fin cfg0.N) :
    (dats m 0 c).flushed 24 t = ((cfg0.win 24).blk t).view.read (Elt Ideal) (GK_scales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))) := by
  rw [ValueP.flushed24]
  unfold Gen.out0_24
  funext y
  refine (ValueP.canon24_eq _ _ _ _ _ _ _ _ _ _ _ _ _ _ _ _ _ _ _ y).trans ?_
  refine (scales_point m c t y).trans ?_
  obtain ⟨e0, e1⟩ := scales_index t
  show GK_scales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) _ = GK_scales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (((cfg0.win 24).blk t).view.emb y)
  congr 1
  funext a; apply Fin.ext
  match a with
  | ⟨0, _⟩ => show 4000 * t.val + (y 0).val = win0_24.index t (0 : Fin 2) * 4000 + 1 * (y 0).val; omega
  | ⟨1, _⟩ => show (y 1).val = win0_24.index t (1 : Fin 2) * 2 + 1 * (y 1).val; omega

/-- An entry of the array is in point `t`'s block iff each coordinate is in the block's range on its axis. -/
theorem scales_mem_blk (t : Fin cfg0.N) (i : S20000x2.Idx) :
    i ∈ ((cfg0.win 24).blk t).view.set ↔ ∀ a : Fin 2, win0_24.index t a * S4000x2.size a ≤ (i a).val ∧ (i a).val < win0_24.index t a * S4000x2.size a + S4000x2.size a := by
  show i ∈ ((View.whole main_v0_1).slice (win0_24.rect t)).set ↔ _
  rw [View.set_slice_whole, Rect.mem_set_unit]
  exact Iff.rfl

/-- Every entry is in some point's block: row r is in the block of point r / 4000, and the block spans all columns. -/
theorem scales_cover (i : S20000x2.Idx) :
    ∃ t : Fin cfg0.N, (cfg0.win 24).flush t = true ∧ i ∈ ((cfg0.win 24).blk t).view.set := by
  have hi0 : (i 0).val < 20000 := (i 0).isLt
  have hi1 : (i 1).val < 2 := (i 1).isLt
  obtain ⟨t, ht⟩ : ∃ t : Fin cfg0.N, t.val = (i 0).val / 4000 :=
    ⟨⟨(i 0).val / 4000, by show (i 0).val / 4000 < 5; omega⟩, rfl⟩
  obtain ⟨e0, e1⟩ := scales_index t
  refine ⟨t, flush0_24 t, ?_⟩
  rw [scales_mem_blk]
  intro a
  match a with
  | ⟨0, _⟩ => show win0_24.index t (0 : Fin 2) * 4000 ≤ (i 0).val ∧ (i 0).val < win0_24.index t (0 : Fin 2) * 4000 + 4000; omega
  | ⟨1, _⟩ => show win0_24.index t (1 : Fin 2) * 2 ≤ (i 1).val ∧ (i 1).val < win0_24.index t (1 : Fin 2) * 2 + 2; omega

/-- The array after the run is the whole result: every point writes its block of it, and the blocks cover the array. -/
theorem scales_final (c : Dev nD) : (dats m 0 c).arrAt 24 cfg0.N = GK_scales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (dats m 0 c).arrAt_eq_of_cover 24 (GK_scales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))) (fun t _ => scales_flushed m c t) scales_cover

/-! ## The context score (window 25, 20000 x 1) -/

/-- The block of grid point `t` is block row `t`, block column 0 (the five points, one by one). -/
theorem ctx_index : ∀ t : Fin cfg0.N, win0_25.index t (0 : Fin 2) = t.val ∧ win0_25.index t (1 : Fin 2) = 0 :=
  (by decide +kernel : ∀ t : Fin grid0.N, win0_25.index t (0 : Fin 2) = t.val ∧ win0_25.index t (1 : Fin 2) = 0)

/-- What the body leaves at place `y` of point `t`'s block is entry (4000 t + y 0, y 1) of the whole result: the body
    computes the context score of row `y 0` of the features' block, which is row 4000 t + y 0 of the features, with the
    weights it loads, which are the weight arguments. -/
theorem ctx_point (c : Dev nD) (t : Fin cfg0.N) (y : S4000x1.Idx) :
    ValueP.E25 (Blocks.ld0 m c t) (Blocks.ld1 m c t) (Blocks.ld2 m c t) (Blocks.ld3 m c t) (Blocks.ld4 m c t) (Blocks.ld5 m c t) (Blocks.ld6 m c t) (Blocks.ld7 m c t) (Blocks.ld8 m c t) (Blocks.ld9 m c t) (Blocks.ld10 m c t) (Blocks.ld11 m c t) (Blocks.ld12 m c t) (Blocks.ld13 m c t) (Blocks.ld14 m c t) (Blocks.ld15 m c t) (Blocks.ld16 m c t) (Blocks.ld17 m c t) (Blocks.ld18 m c t) y
      = GK_ctx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (ix2 (Blocks.grow t (y 0)) (y 1)) := by
  rw [Row.E25_eq, Blocks.common_eq m c t, Blocks.feat_row m c t (y 0)]
  rfl

/-- What point `t` writes back is block `t` of the whole result: place `y` of that block sits at row
    (block row) x 4000 + y 0 = 4000 t + y 0 and column (block column) x 1 + y 1 = y 1 of the array. -/
theorem ctx_flushed (c : Dev nD) (t : Fin cfg0.N) :
    (dats m 0 c).flushed 25 t = ((cfg0.win 25).blk t).view.read (Elt Ideal) (GK_ctx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))) := by
  rw [ValueP.flushed25]
  unfold Gen.out0_25
  funext y
  refine (ValueP.canon25_eq _ _ _ _ _ _ _ _ _ _ _ _ _ _ _ _ _ _ _ y).trans ?_
  refine (ctx_point m c t y).trans ?_
  obtain ⟨e0, e1⟩ := ctx_index t
  show GK_ctx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) _ = GK_ctx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (((cfg0.win 25).blk t).view.emb y)
  congr 1
  funext a; apply Fin.ext
  match a with
  | ⟨0, _⟩ => show 4000 * t.val + (y 0).val = win0_25.index t (0 : Fin 2) * 4000 + 1 * (y 0).val; omega
  | ⟨1, _⟩ => show (y 1).val = win0_25.index t (1 : Fin 2) * 1 + 1 * (y 1).val; omega

/-- An entry of the array is in point `t`'s block iff each coordinate is in the block's range on its axis. -/
theorem ctx_mem_blk (t : Fin cfg0.N) (i : S20000x1.Idx) :
    i ∈ ((cfg0.win 25).blk t).view.set ↔ ∀ a : Fin 2, win0_25.index t a * S4000x1.size a ≤ (i a).val ∧ (i a).val < win0_25.index t a * S4000x1.size a + S4000x1.size a := by
  show i ∈ ((View.whole main_v0_2).slice (win0_25.rect t)).set ↔ _
  rw [View.set_slice_whole, Rect.mem_set_unit]
  exact Iff.rfl

/-- Every entry is in some point's block: row r is in the block of point r / 4000, and the block spans all columns. -/
theorem ctx_cover (i : S20000x1.Idx) :
    ∃ t : Fin cfg0.N, (cfg0.win 25).flush t = true ∧ i ∈ ((cfg0.win 25).blk t).view.set := by
  have hi0 : (i 0).val < 20000 := (i 0).isLt
  have hi1 : (i 1).val < 1 := (i 1).isLt
  obtain ⟨t, ht⟩ : ∃ t : Fin cfg0.N, t.val = (i 0).val / 4000 :=
    ⟨⟨(i 0).val / 4000, by show (i 0).val / 4000 < 5; omega⟩, rfl⟩
  obtain ⟨e0, e1⟩ := ctx_index t
  refine ⟨t, flush0_25 t, ?_⟩
  rw [ctx_mem_blk]
  intro a
  match a with
  | ⟨0, _⟩ => show win0_25.index t (0 : Fin 2) * 4000 ≤ (i 0).val ∧ (i 0).val < win0_25.index t (0 : Fin 2) * 4000 + 4000; omega
  | ⟨1, _⟩ => show win0_25.index t (1 : Fin 2) * 1 ≤ (i 1).val ∧ (i 1).val < win0_25.index t (1 : Fin 2) * 1 + 1; omega

/-- The array after the run is the whole result: every point writes its block of it, and the blocks cover the array. -/
theorem ctx_final (c : Dev nD) : (dats m 0 c).arrAt 25 cfg0.N = GK_ctx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (dats m 0 c).arrAt_eq_of_cover 25 (GK_ctx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))) (fun t _ => ctx_flushed m c t) ctx_cover

/-! ## The confidence (window 26, 20000 x 1) -/

/-- The block of grid point `t` is block row `t`, block column 0 (the five points, one by one). -/
theorem conf_index : ∀ t : Fin cfg0.N, win0_26.index t (0 : Fin 2) = t.val ∧ win0_26.index t (1 : Fin 2) = 0 :=
  (by decide +kernel : ∀ t : Fin grid0.N, win0_26.index t (0 : Fin 2) = t.val ∧ win0_26.index t (1 : Fin 2) = 0)

/-- What the body leaves at place `y` of point `t`'s block is entry (4000 t + y 0, y 1) of the whole result: the body
    computes the confidence of row `y 0` of the features' block, which is row 4000 t + y 0 of the features, with the
    weights it loads, which are the weight arguments. -/
theorem conf_point (c : Dev nD) (t : Fin cfg0.N) (y : S4000x1.Idx) :
    ValueP.E26 (Blocks.ld0 m c t) (Blocks.ld1 m c t) (Blocks.ld2 m c t) (Blocks.ld3 m c t) (Blocks.ld4 m c t) (Blocks.ld5 m c t) (Blocks.ld6 m c t) (Blocks.ld7 m c t) (Blocks.ld8 m c t) (Blocks.ld9 m c t) (Blocks.ld10 m c t) (Blocks.ld11 m c t) (Blocks.ld12 m c t) (Blocks.ld13 m c t) (Blocks.ld14 m c t) (Blocks.ld15 m c t) (Blocks.ld16 m c t) (Blocks.ld17 m c t) (Blocks.ld18 m c t) (Blocks.ld19 m c t) (Blocks.ld20 m c t) (Blocks.ld21 m c t) (Blocks.ld22 m c t) (Blocks.ld23 m c t) y
      = GK_conf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (ix2 (Blocks.grow t (y 0)) (y 1)) := by
  rw [Row.E26_eq, Blocks.kparams_eq m c t, Blocks.feat_row m c t (y 0)]
  rfl

/-- What point `t` writes back is block `t` of the whole result: place `y` of that block sits at row
    (block row) x 4000 + y 0 = 4000 t + y 0 and column (block column) x 1 + y 1 = y 1 of the array. -/
theorem conf_flushed (c : Dev nD) (t : Fin cfg0.N) :
    (dats m 0 c).flushed 26 t = ((cfg0.win 26).blk t).view.read (Elt Ideal) (GK_conf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))) := by
  rw [ValueP.flushed26]
  unfold Gen.out0_26
  funext y
  refine (ValueP.canon26_eq _ _ _ _ _ _ _ _ _ _ _ _ _ _ _ _ _ _ _ _ _ _ _ _ y).trans ?_
  refine (conf_point m c t y).trans ?_
  obtain ⟨e0, e1⟩ := conf_index t
  show GK_conf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) _ = GK_conf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (((cfg0.win 26).blk t).view.emb y)
  congr 1
  funext a; apply Fin.ext
  match a with
  | ⟨0, _⟩ => show 4000 * t.val + (y 0).val = win0_26.index t (0 : Fin 2) * 4000 + 1 * (y 0).val; omega
  | ⟨1, _⟩ => show (y 1).val = win0_26.index t (1 : Fin 2) * 1 + 1 * (y 1).val; omega

/-- An entry of the array is in point `t`'s block iff each coordinate is in the block's range on its axis. -/
theorem conf_mem_blk (t : Fin cfg0.N) (i : S20000x1.Idx) :
    i ∈ ((cfg0.win 26).blk t).view.set ↔ ∀ a : Fin 2, win0_26.index t a * S4000x1.size a ≤ (i a).val ∧ (i a).val < win0_26.index t a * S4000x1.size a + S4000x1.size a := by
  show i ∈ ((View.whole main_v0_3).slice (win0_26.rect t)).set ↔ _
  rw [View.set_slice_whole, Rect.mem_set_unit]
  exact Iff.rfl

/-- Every entry is in some point's block: row r is in the block of point r / 4000, and the block spans all columns. -/
theorem conf_cover (i : S20000x1.Idx) :
    ∃ t : Fin cfg0.N, (cfg0.win 26).flush t = true ∧ i ∈ ((cfg0.win 26).blk t).view.set := by
  have hi0 : (i 0).val < 20000 := (i 0).isLt
  have hi1 : (i 1).val < 1 := (i 1).isLt
  obtain ⟨t, ht⟩ : ∃ t : Fin cfg0.N, t.val = (i 0).val / 4000 :=
    ⟨⟨(i 0).val / 4000, by show (i 0).val / 4000 < 5; omega⟩, rfl⟩
  obtain ⟨e0, e1⟩ := conf_index t
  refine ⟨t, flush0_26 t, ?_⟩
  rw [conf_mem_blk]
  intro a
  match a with
  | ⟨0, _⟩ => show win0_26.index t (0 : Fin 2) * 4000 ≤ (i 0).val ∧ (i 0).val < win0_26.index t (0 : Fin 2) * 4000 + 4000; omega
  | ⟨1, _⟩ => show win0_26.index t (1 : Fin 2) * 1 ≤ (i 1).val ∧ (i 1).val < win0_26.index t (1 : Fin 2) * 1 + 1; omega

/-- The array after the run is the whole result: every point writes its block of it, and the blocks cover the array. -/
theorem conf_final (c : Dev nD) : (dats m 0 c).arrAt 26 cfg0.N = GK_conf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (dats m 0 c).arrAt_eq_of_cover 26 (GK_conf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))) (fun t _ => conf_flushed m c t) conf_cover

end Windows

/-! ## The run -/

/-- Every weakly fair execution ends with the four results equal to the whole arrays of the first spelling and the
    arguments as launched: the run leaves each result array as the write-backs of the five points made it. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = HeadRow.GK_boxes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_v0_1) = HeadRow.GK_scales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_v0_2) = HeadRow.GK_ctx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_v0_3) = HeadRow.GK_conf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun r h c => ⟨(h c).1.trans (boxes_final m c), (h c).2.1.trans (scales_final m c),
      (h c).2.2.1.trans (ctx_final m c), (h c).2.2.2.1.trans (conf_final m c), (h c).2.2.2.2⟩)
    (ValueP.run_blocks m ρ)

end Cert.KernelIdeal.Whole

end
-- ==== Proof.RefOps.lean ====
/-
  The reference program's @main as a straight line of host operations, the outlined functions' bodies
  written out at their call sites over each call's buffer record, cut into four consecutive stretches:
  the trunk up to the first rectifier (the first affine layer, the row mean, the row variance with its
  guarded division, the normalization and its scale and shift, the rectifier), the second affine layer with
  the box head and the scale head, the context head, and the confidence head from the two concatenations on.
-/
import proofs.«161107_g884763263511_cont_9to1_m_545_23_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first stretch, 51 operations: from the first matrix product (%0) through the rectifier that writes %22. The eleven
    operations before the variance call; the variance function's twenty (the row mean again, the centred squares, their
    row sum, the divisor 256 - 0 and the comparison that guards it) and its selection function's three; the fourteen
    of the normalization, scale and shift; the rectifier's three. -/
abbrev opsA : List (HloOp τ sig (Elt F)) :=
  [ binary main_arg0 main_arg1 main_v0 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F)),
    unary main_arg2 main_v1 (broadcastInDim S1x256 ![1] bcast_S256_S1x256_1 : (⟨S256, .f32⟩ : BufTy).Contents (Elt F) → (⟨S1x256, .f32⟩ : BufTy).Contents (Elt F)),
    unary main_v1 main_v2 (broadcastInDim S20000x256 ![0, 1] bcast_S1x256_S20000x256_0_1 : (⟨S1x256, .f32⟩ : BufTy).Contents (Elt F) → (⟨S20000x256, .f32⟩ : BufTy).Contents (Elt F)),
    binary main_v0 main_v2 main_v3 (addf : (⟨S20000x256, .f32⟩ : BufTy).Contents (Elt F) → (⟨S20000x256, .f32⟩ : BufTy).Contents (Elt F) → (⟨S20000x256, .f32⟩ : BufTy).Contents (Elt F)),
    nullary main_cst (constant S_ .f32 0x00000000#32),
    binary main_v3 main_cst main_v4 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    unary main_v4 main_v5 (broadcastInDim S20000x1 ![0] bcast_S20000_S20000x1_0 : (⟨S20000, .f32⟩ : BufTy).Contents (Elt F) → (⟨S20000x1, .f32⟩ : BufTy).Contents (Elt F)),
    nullary main_cst_0 (constant S_ .f32 0x43800000#32),
    unary main_cst_0 main_v6 (broadcastInDim S20000x1 ![] bcast_S_S20000x1 : (⟨S_, .f32⟩ : BufTy).Contents (Elt F) → (⟨S20000x1, .f32⟩ : BufTy).Contents (Elt F)),
    binary main_v5 main_v6 main_v7 (Host.divf : (⟨S20000x1, .f32⟩ : BufTy).Contents (Elt F) → (⟨S20000x1, .f32⟩ : BufTy).Contents (Elt F) → (⟨S20000x1, .f32⟩ : BufTy).Contents (Elt F)),
    nullary main_c (constantI S_ 32 0#32),
    TRef.nullary main_call0.cst (constant S_ .f32 0x00000000#32),
    TRef.binary (.of main_v3 : TRef sig ⟨S20000x256, .f32⟩) main_call0.cst main_call0.v0 (fun x v => Host.reduceAdd x v reducesTo_S20000x256_S20000_d1 h_S_),
    TRef.unary main_call0.v0 main_call0.v1 (broadcastInDim S20000x1 ![0] bcast_S20000_S20000x1_0),
    TRef.nullary main_call0.cst_0 (constant S_ .f32 0x43800000#32),
    TRef.unary main_call0.cst_0 main_call0.v2 (broadcastInDim S20000x1 ![] bcast_S_S20000x1),
    TRef.binary main_call0.v1 main_call0.v2 main_call0.v3 Host.divf,
    TRef.unary main_call0.v3 main_call0.v4 (broadcastInDim S20000x256 ![0, 1] bcast_S20000x1_S20000x256_0_1),
    TRef.binary (.of main_v3 : TRef sig ⟨S20000x256, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x43800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S20000x256_S20000_d1 h_S_),
    TRef.unary main_call0.v9 main_call0.v10 (broadcastInDim S20000x1 ![0] bcast_S20000_S20000x1_0),
    TRef.unary main_call0.v8 main_call0.v11 (broadcastInDim S20000x1 ![] bcast_S_S20000x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S20000x1 ![] bcast_S_S20000x1),
    TRef.ternary main_call0.v13 main_call0.v12 main_call0.call0.v1 main_call0.call0.v2 (fun p a b => select (broadcastInDim S20000x1 ![] bcast_S_S20000x1 p) a b),
    unary main_v7 main_v9 (broadcastInDim S20000x256 ![0, 1] bcast_S20000x1_S20000x256_0_1 : (⟨S20000x1, .f32⟩ : BufTy).Contents (Elt F) → (⟨S20000x256, .f32⟩ : BufTy).Contents (Elt F)),
    binary main_v3 main_v9 main_v10 (subf : (⟨S20000x256, .f32⟩ : BufTy).Contents (Elt F) → (⟨S20000x256, .f32⟩ : BufTy).Contents (Elt F) → (⟨S20000x256, .f32⟩ : BufTy).Contents (Elt F)),
    nullary main_cst_1 (constant S_ .f32 0x3727C5AC#32),
    unary main_cst_1 main_v11 (broadcastInDim S20000x1 ![] bcast_S_S20000x1 : (⟨S_, .f32⟩ : BufTy).Contents (Elt F) → (⟨S20000x1, .f32⟩ : BufTy).Contents (Elt F)),
    binary main_v8 main_v11 main_v12 (addf : (⟨S20000x1, .f32⟩ : BufTy).Contents (Elt F) → (⟨S20000x1, .f32⟩ : BufTy).Contents (Elt F) → (⟨S20000x1, .f32⟩ : BufTy).Contents (Elt F)),
    unary main_v12 main_v13 (Host.sqrt : (⟨S20000x1, .f32⟩ : BufTy).Contents (Elt F) → (⟨S20000x1, .f32⟩ : BufTy).Contents (Elt F)),
    unary main_v13 main_v14 (broadcastInDim S20000x256 ![0, 1] bcast_S20000x1_S20000x256_0_1 : (⟨S20000x1, .f32⟩ : BufTy).Contents (Elt F) → (⟨S20000x256, .f32⟩ : BufTy).Contents (Elt F)),
    binary main_v10 main_v14 main_v15 (Host.divf : (⟨S20000x256, .f32⟩ : BufTy).Contents (Elt F) → (⟨S20000x256, .f32⟩ : BufTy).Contents (Elt F) → (⟨S20000x256, .f32⟩ : BufTy).Contents (Elt F)),
    unary main_arg3 main_v16 (broadcastInDim S1x256 ![1] bcast_S256_S1x256_1 : (⟨S256, .f32⟩ : BufTy).Contents (Elt F) → (⟨S1x256, .f32⟩ : BufTy).Contents (Elt F)),
    unary main_v16 main_v17 (broadcastInDim S20000x256 ![0, 1] bcast_S1x256_S20000x256_0_1 : (⟨S1x256, .f32⟩ : BufTy).Contents (Elt F) → (⟨S20000x256, .f32⟩ : BufTy).Contents (Elt F)),
    binary main_v15 main_v17 main_v18 (mulf : (⟨S20000x256, .f32⟩ : BufTy).Contents (Elt F) → (⟨S20000x256, .f32⟩ : BufTy).Contents (Elt F) → (⟨S20000x256, .f32⟩ : BufTy).Contents (Elt F)),
    unary main_arg4 main_v19 (broadcastInDim S1x256 ![1] bcast_S256_S1x256_1 : (⟨S256, .f32⟩ : BufTy).Contents (Elt F) → (⟨S1x256, .f32⟩ : BufTy).Contents (Elt F)),
    unary main_v19 main_v20 (broadcastInDim S20000x256 ![0, 1] bcast_S1x256_S20000x256_0_1 : (⟨S1x256, .f32⟩ : BufTy).Contents (Elt F) → (⟨S20000x256, .f32⟩ : BufTy).Contents (Elt F)),
    binary main_v18 main_v20 main_v21 (addf : (⟨S20000x256, .f32⟩ : BufTy).Contents (Elt F) → (⟨S20000x256, .f32⟩ : BufTy).Contents (Elt F) → (⟨S20000x256, .f32⟩ : BufTy).Contents (Elt F)),
    TRef.nullary main_call1.cst (constant S_ .f32 0x00000000#32),
    TRef.unary main_call1.cst main_call1.v0 (broadcastInDim S20000x256 ![] bcast_S_S20000x256),
    TRef.binary (.of main_v21 : TRef sig ⟨S20000x256, .f32⟩) main_call1.v0 main_call1.v1 maximumf ]

/-- The second stretch, 48 operations: from the second matrix product (%23) through %60 — the second affine layer, the box
    head (affine, rectifier, affine, logistic written as 1 / (1 + exp (-x))) and the scale head (the same, then the
    affine map 0.08 · s + 0.02). -/
abbrev opsB : List (HloOp τ sig (Elt F)) :=
  [ binary main_v22 main_arg5 main_v23 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    unary main_arg6 main_v24 (broadcastInDim S1x256 ![1] bcast_S256_S1x256_1 : (⟨S256, .f32⟩ : BufTy).Contents (Elt F) → (⟨S1x256, .f32⟩ : BufTy).Contents (Elt F)),
    unary main_v24 main_v25 (broadcastInDim S20000x256 ![0, 1] bcast_S1x256_S20000x256_0_1 : (⟨S1x256, .f32⟩ : BufTy).Contents (Elt F) → (⟨S20000x256, .f32⟩ : BufTy).Contents (Elt F)),
    binary main_v23 main_v25 main_v26 (addf : (⟨S20000x256, .f32⟩ : BufTy).Contents (Elt F) → (⟨S20000x256, .f32⟩ : BufTy).Contents (Elt F) → (⟨S20000x256, .f32⟩ : BufTy).Contents (Elt F)),
    binary main_v26 main_arg7 main_v27 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    unary main_arg8 main_v28 (broadcastInDim S1x128 ![1] bcast_S128_S1x128_1 : (⟨S128, .f32⟩ : BufTy).Contents (Elt F) → (⟨S1x128, .f32⟩ : BufTy).Contents (Elt F)),
    unary main_v28 main_v29 (broadcastInDim S20000x128 ![0, 1] bcast_S1x128_S20000x128_0_1 : (⟨S1x128, .f32⟩ : BufTy).Contents (Elt F) → (⟨S20000x128, .f32⟩ : BufTy).Contents (Elt F)),
    binary main_v27 main_v29 main_v30 (addf : (⟨S20000x128, .f32⟩ : BufTy).Contents (Elt F) → (⟨S20000x128, .f32⟩ : BufTy).Contents (Elt F) → (⟨S20000x128, .f32⟩ : BufTy).Contents (Elt F)),
    TRef.nullary main_call2.cst (constant S_ .f32 0x00000000#32),
    TRef.unary main_call2.cst main_call2.v0 (broadcastInDim S20000x128 ![] bcast_S_S20000x128),
    TRef.binary (.of main_v30 : TRef sig ⟨S20000x128, .f32⟩) main_call2.v0 main_call2.v1 maximumf,
    binary main_v31 main_arg9 main_v32 ((fun l r => Host.dotGeneral dot_S20000x128_S128x4_S20000x4_1_0_0_1_n_n none l r) : (⟨S20000x128, .f32⟩ : BufTy).Contents (Elt F) → (⟨S128x4, .f32⟩ : BufTy).Contents (Elt F) → (⟨S20000x4, .f32⟩ : BufTy).Contents (Elt F)),
    unary main_arg10 main_v33 (broadcastInDim S1x4 ![1] bcast_S4_S1x4_1 : (⟨S4, .f32⟩ : BufTy).Contents (Elt F) → (⟨S1x4, .f32⟩ : BufTy).Contents (Elt F)),
    unary main_v33 main_v34 (broadcastInDim S20000x4 ![0, 1] bcast_S1x4_S20000x4_0_1 : (⟨S1x4, .f32⟩ : BufTy).Contents (Elt F) → (⟨S20000x4, .f32⟩ : BufTy).Contents (Elt F)),
    binary main_v32 main_v34 main_v35 (addf : (⟨S20000x4, .f32⟩ : BufTy).Contents (Elt F) → (⟨S20000x4, .f32⟩ : BufTy).Contents (Elt F) → (⟨S20000x4, .f32⟩ : BufTy).Contents (Elt F)),
    unary main_v35 main_v36 (Host.negf : (⟨S20000x4, .f32⟩ : BufTy).Contents (Elt F) → (⟨S20000x4, .f32⟩ : BufTy).Contents (Elt F)),
    unary main_v36 main_v37 (Host.exp : (⟨S20000x4, .f32⟩ : BufTy).Contents (Elt F) → (⟨S20000x4, .f32⟩ : BufTy).Contents (Elt F)),
    nullary main_cst_2 (constant S_ .f32 0x3F800000#32),
    unary main_cst_2 main_v38 (broadcastInDim S20000x4 ![] bcast_S_S20000x4 : (⟨S_, .f32⟩ : BufTy).Contents (Elt F) → (⟨S20000x4, .f32⟩ : BufTy).Contents (Elt F)),
    binary main_v38 main_v37 main_v39 (addf : (⟨S20000x4, .f32⟩ : BufTy).Contents (Elt F) → (⟨S20000x4, .f32⟩ : BufTy).Contents (Elt F) → (⟨S20000x4, .f32⟩ : BufTy).Contents (Elt F)),
    nullary main_cst_3 (constant S_ .f32 0x3F800000#32),
    unary main_cst_3 main_v40 (broadcastInDim S20000x4 ![] bcast_S_S20000x4 : (⟨S_, .f32⟩ : BufTy).Contents (Elt F) → (⟨S20000x4, .f32⟩ : BufTy).Contents (Elt F)),
    binary main_v40 main_v39 main_v41 (Host.divf : (⟨S20000x4, .f32⟩ : BufTy).Contents (Elt F) → (⟨S20000x4, .f32⟩ : BufTy).Contents (Elt F) → (⟨S20000x4, .f32⟩ : BufTy).Contents (Elt F)),
    binary main_v26 main_arg11 main_v42 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    unary main_arg12 main_v43 (broadcastInDim S1x128 ![1] bcast_S128_S1x128_1 : (⟨S128, .f32⟩ : BufTy).Contents (Elt F) → (⟨S1x128, .f32⟩ : BufTy).Contents (Elt F)),
    unary main_v43 main_v44 (broadcastInDim S20000x128 ![0, 1] bcast_S1x128_S20000x128_0_1 : (⟨S1x128, .f32⟩ : BufTy).Contents (Elt F) → (⟨S20000x128, .f32⟩ : BufTy).Contents (Elt F)),
    binary main_v42 main_v44 main_v45 (addf : (⟨S20000x128, .f32⟩ : BufTy).Contents (Elt F) → (⟨S20000x128, .f32⟩ : BufTy).Contents (Elt F) → (⟨S20000x128, .f32⟩ : BufTy).Contents (Elt F)),
    TRef.nullary main_call3.cst (constant S_ .f32 0x00000000#32),
    TRef.unary main_call3.cst main_call3.v0 (broadcastInDim S20000x128 ![] bcast_S_S20000x128),
    TRef.binary (.of main_v45 : TRef sig ⟨S20000x128, .f32⟩) main_call3.v0 main_call3.v1 maximumf,
    binary main_v46 main_arg13 main_v47 ((fun l r => Host.dotGeneral dot_S20000x128_S128x2_S20000x2_1_0_0_1_n_n none l r) : (⟨S20000x128, .f32⟩ : BufTy).Contents (Elt F) → (⟨S128x2, .f32⟩ : BufTy).Contents (Elt F) → (⟨S20000x2, .f32⟩ : BufTy).Contents (Elt F)),
    unary main_arg14 main_v48 (broadcastInDim S1x2 ![1] bcast_S2_S1x2_1 : (⟨S2, .f32⟩ : BufTy).Contents (Elt F) → (⟨S1x2, .f32⟩ : BufTy).Contents (Elt F)),
    unary main_v48 main_v49 (broadcastInDim S20000x2 ![0, 1] bcast_S1x2_S20000x2_0_1 : (⟨S1x2, .f32⟩ : BufTy).Contents (Elt F) → (⟨S20000x2, .f32⟩ : BufTy).Contents (Elt F)),
    binary main_v47 main_v49 main_v50 (addf : (⟨S20000x2, .f32⟩ : BufTy).Contents (Elt F) → (⟨S20000x2, .f32⟩ : BufTy).Contents (Elt F) → (⟨S20000x2, .f32⟩ : BufTy).Contents (Elt F)),
    unary main_v50 main_v51 (Host.negf : (⟨S20000x2, .f32⟩ : BufTy).Contents (Elt F) → (⟨S20000x2, .f32⟩ : BufTy).Contents (Elt F)),
    unary main_v51 main_v52 (Host.exp : (⟨S20000x2, .f32⟩ : BufTy).Contents (Elt F) → (⟨S20000x2, .f32⟩ : BufTy).Contents (Elt F)),
    nullary main_cst_4 (constant S_ .f32 0x3F800000#32),
    unary main_cst_4 main_v53 (broadcastInDim S20000x2 ![] bcast_S_S20000x2 : (⟨S_, .f32⟩ : BufTy).Contents (Elt F) → (⟨S20000x2, .f32⟩ : BufTy).Contents (Elt F)),
    binary main_v53 main_v52 main_v54 (addf : (⟨S20000x2, .f32⟩ : BufTy).Contents (Elt F) → (⟨S20000x2, .f32⟩ : BufTy).Contents (Elt F) → (⟨S20000x2, .f32⟩ : BufTy).Contents (Elt F)),
    nullary main_cst_5 (constant S_ .f32 0x3F800000#32),
    unary main_cst_5 main_v55 (broadcastInDim S20000x2 ![] bcast_S_S20000x2 : (⟨S_, .f32⟩ : BufTy).Contents (Elt F) → (⟨S20000x2, .f32⟩ : BufTy).Contents (Elt F)),
    binary main_v55 main_v54 main_v56 (Host.divf : (⟨S20000x2, .f32⟩ : BufTy).Contents (Elt F) → (⟨S20000x2, .f32⟩ : BufTy).Contents (Elt F) → (⟨S20000x2, .f32⟩ : BufTy).Contents (Elt F)),
    nullary main_cst_6 (constant S_ .f32 0x3DA3D70A#32),
    unary main_cst_6 main_v57 (broadcastInDim S20000x2 ![] bcast_S_S20000x2 : (⟨S_, .f32⟩ : BufTy).Contents (Elt F) → (⟨S20000x2, .f32⟩ : BufTy).Contents (Elt F)),
    binary main_v56 main_v57 main_v58 (mulf : (⟨S20000x2, .f32⟩ : BufTy).Contents (Elt F) → (⟨S20000x2, .f32⟩ : BufTy).Contents (Elt F) → (⟨S20000x2, .f32⟩ : BufTy).Contents (Elt F)),
    nullary main_cst_7 (constant S_ .f32 0x3CA3D70A#32),
    unary main_cst_7 main_v59 (broadcastInDim S20000x2 ![] bcast_S_S20000x2 : (⟨S_, .f32⟩ : BufTy).Contents (Elt F) → (⟨S20000x2, .f32⟩ : BufTy).Contents (Elt F)),
    binary main_v58 main_v59 main_v60 (addf : (⟨S20000x2, .f32⟩ : BufTy).Contents (Elt F) → (⟨S20000x2, .f32⟩ : BufTy).Contents (Elt F) → (⟨S20000x2, .f32⟩ : BufTy).Contents (Elt F)) ]

/-- The third stretch, 19 operations: from %61 through %75 — the context head (affine, rectifier, affine, logistic). -/
abbrev opsC : List (HloOp τ sig (Elt F)) :=
  [ binary main_v26 main_arg15 main_v61 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    unary main_arg16 main_v62 (broadcastInDim S1x128 ![1] bcast_S128_S1x128_1 : (⟨S128, .f32⟩ : BufTy).Contents (Elt F) → (⟨S1x128, .f32⟩ : BufTy).Contents (Elt F)),
    unary main_v62 main_v63 (broadcastInDim S20000x128 ![0, 1] bcast_S1x128_S20000x128_0_1 : (⟨S1x128, .f32⟩ : BufTy).Contents (Elt F) → (⟨S20000x128, .f32⟩ : BufTy).Contents (Elt F)),
    binary main_v61 main_v63 main_v64 (addf : (⟨S20000x128, .f32⟩ : BufTy).Contents (Elt F) → (⟨S20000x128, .f32⟩ : BufTy).Contents (Elt F) → (⟨S20000x128, .f32⟩ : BufTy).Contents (Elt F)),
    TRef.nullary main_call4.cst (constant S_ .f32 0x00000000#32),
    TRef.unary main_call4.cst main_call4.v0 (broadcastInDim S20000x128 ![] bcast_S_S20000x128),
    TRef.binary (.of main_v64 : TRef sig ⟨S20000x128, .f32⟩) main_call4.v0 main_call4.v1 maximumf,
    binary main_v65 main_arg17 main_v66 ((fun l r => Host.dotGeneral dot_S20000x128_S128x1_S20000x1_1_0_0_1_n_n none l r) : (⟨S20000x128, .f32⟩ : BufTy).Contents (Elt F) → (⟨S128x1, .f32⟩ : BufTy).Contents (Elt F) → (⟨S20000x1, .f32⟩ : BufTy).Contents (Elt F)),
    unary main_arg18 main_v67 (broadcastInDim S1x1 ![1] bcast_S1_S1x1_1 : (⟨S1, .f32⟩ : BufTy).Contents (Elt F) → (⟨S1x1, .f32⟩ : BufTy).Contents (Elt F)),
    unary main_v67 main_v68 (broadcastInDim S20000x1 ![0, 1] bcast_S1x1_S20000x1_0_1 : (⟨S1x1, .f32⟩ : BufTy).Contents (Elt F) → (⟨S20000x1, .f32⟩ : BufTy).Contents (Elt F)),
    binary main_v66 main_v68 main_v69 (addf : (⟨S20000x1, .f32⟩ : BufTy).Contents (Elt F) → (⟨S20000x1, .f32⟩ : BufTy).Contents (Elt F) → (⟨S20000x1, .f32⟩ : BufTy).Contents (Elt F)),
    unary main_v69 main_v70 (Host.negf : (⟨S20000x1, .f32⟩ : BufTy).Contents (Elt F) → (⟨S20000x1, .f32⟩ : BufTy).Contents (Elt F)),
    unary main_v70 main_v71 (Host.exp : (⟨S20000x1, .f32⟩ : BufTy).Contents (Elt F) → (⟨S20000x1, .f32⟩ : BufTy).Contents (Elt F)),
    nullary main_cst_8 (constant S_ .f32 0x3F800000#32),
    unary main_cst_8 main_v72 (broadcastInDim S20000x1 ![] bcast_S_S20000x1 : (⟨S_, .f32⟩ : BufTy).Contents (Elt F) → (⟨S20000x1, .f32⟩ : BufTy).Contents (Elt F)),
    binary main_v72 main_v71 main_v73 (addf : (⟨S20000x1, .f32⟩ : BufTy).Contents (Elt F) → (⟨S20000x1, .f32⟩ : BufTy).Contents (Elt F) → (⟨S20000x1, .f32⟩ : BufTy).Contents (Elt F)),
    nullary main_cst_9 (constant S_ .f32 0x3F800000#32),
    unary main_cst_9 main_v74 (broadcastInDim S20000x1 ![] bcast_S_S20000x1 : (⟨S_, .f32⟩ : BufTy).Contents (Elt F) → (⟨S20000x1, .f32⟩ : BufTy).Contents (Elt F)),
    binary main_v74 main_v73 main_v75 (Host.divf : (⟨S20000x1, .f32⟩ : BufTy).Contents (Elt F) → (⟨S20000x1, .f32⟩ : BufTy).Contents (Elt F) → (⟨S20000x1, .f32⟩ : BufTy).Contents (Elt F)) ]

/-- The fourth stretch, 21 operations: from the concatenation of the three heads (%76) through %92 — the seven head outputs
    joined, then joined to the 256 trunk numbers, and the confidence head over the 263 (affine, rectifier, affine, logistic). -/
abbrev opsD : List (HloOp τ sig (Elt F)) :=
  [ nary ![main_v41, main_v60, main_v75] main_v76 (fun u => concatenate S20000x7 1 [⟨S20000x4, u 0⟩, ⟨S20000x2, u 1⟩, ⟨S20000x1, u 2⟩] concatenates_S20000x4_S20000x2_S20000x1_S20000x7_d1),
    binary main_v26 main_v76 main_v77 ((fun a b => concatenate S20000x263 1 [⟨S20000x256, a⟩, ⟨S20000x7, b⟩] concatenates_S20000x256_S20000x7_S20000x263_d1) : (⟨S20000x256, .f32⟩ : BufTy).Contents (Elt F) → (⟨S20000x7, .f32⟩ : BufTy).Contents (Elt F) → (⟨S20000x263, .f32⟩ : BufTy).Contents (Elt F)),
    binary main_v77 main_arg19 main_v78 ((fun l r => Host.dotGeneral dot_S20000x263_S263x128_S20000x128_1_0_0_1_n_n none l r) : (⟨S20000x263, .f32⟩ : BufTy).Contents (Elt F) → (⟨S263x128, .f32⟩ : BufTy).Contents (Elt F) → (⟨S20000x128, .f32⟩ : BufTy).Contents (Elt F)),
    unary main_arg20 main_v79 (broadcastInDim S1x128 ![1] bcast_S128_S1x128_1 : (⟨S128, .f32⟩ : BufTy).Contents (Elt F) → (⟨S1x128, .f32⟩ : BufTy).Contents (Elt F)),
    unary main_v79 main_v80 (broadcastInDim S20000x128 ![0, 1] bcast_S1x128_S20000x128_0_1 : (⟨S1x128, .f32⟩ : BufTy).Contents (Elt F) → (⟨S20000x128, .f32⟩ : BufTy).Contents (Elt F)),
    binary main_v78 main_v80 main_v81 (addf : (⟨S20000x128, .f32⟩ : BufTy).Contents (Elt F) → (⟨S20000x128, .f32⟩ : BufTy).Contents (Elt F) → (⟨S20000x128, .f32⟩ : BufTy).Contents (Elt F)),
    TRef.nullary main_call5.cst (constant S_ .f32 0x00000000#32),
    TRef.unary main_call5.cst main_call5.v0 (broadcastInDim S20000x128 ![] bcast_S_S20000x128),
    TRef.binary (.of main_v81 : TRef sig ⟨S20000x128, .f32⟩) main_call5.v0 main_call5.v1 maximumf,
    binary main_v82 main_arg21 main_v83 ((fun l r => Host.dotGeneral dot_S20000x128_S128x1_S20000x1_1_0_0_1_n_n none l r) : (⟨S20000x128, .f32⟩ : BufTy).Contents (Elt F) → (⟨S128x1, .f32⟩ : BufTy).Contents (Elt F) → (⟨S20000x1, .f32⟩ : BufTy).Contents (Elt F)),
    unary main_arg22 main_v84 (broadcastInDim S1x1 ![1] bcast_S1_S1x1_1 : (⟨S1, .f32⟩ : BufTy).Contents (Elt F) → (⟨S1x1, .f32⟩ : BufTy).Contents (Elt F)),
    unary main_v84 main_v85 (broadcastInDim S20000x1 ![0, 1] bcast_S1x1_S20000x1_0_1 : (⟨S1x1, .f32⟩ : BufTy).Contents (Elt F) → (⟨S20000x1, .f32⟩ : BufTy).Contents (Elt F)),
    binary main_v83 main_v85 main_v86 (addf : (⟨S20000x1, .f32⟩ : BufTy).Contents (Elt F) → (⟨S20000x1, .f32⟩ : BufTy).Contents (Elt F) → (⟨S20000x1, .f32⟩ : BufTy).Contents (Elt F)),
    unary main_v86 main_v87 (Host.negf : (⟨S20000x1, .f32⟩ : BufTy).Contents (Elt F) → (⟨S20000x1, .f32⟩ : BufTy).Contents (Elt F)),
    unary main_v87 main_v88 (Host.exp : (⟨S20000x1, .f32⟩ : BufTy).Contents (Elt F) → (⟨S20000x1, .f32⟩ : BufTy).Contents (Elt F)),
    nullary main_cst_10 (constant S_ .f32 0x3F800000#32),
    unary main_cst_10 main_v89 (broadcastInDim S20000x1 ![] bcast_S_S20000x1 : (⟨S_, .f32⟩ : BufTy).Contents (Elt F) → (⟨S20000x1, .f32⟩ : BufTy).Contents (Elt F)),
    binary main_v89 main_v88 main_v90 (addf : (⟨S20000x1, .f32⟩ : BufTy).Contents (Elt F) → (⟨S20000x1, .f32⟩ : BufTy).Contents (Elt F) → (⟨S20000x1, .f32⟩ : BufTy).Contents (Elt F)),
    nullary main_cst_11 (constant S_ .f32 0x3F800000#32),
    unary main_cst_11 main_v91 (broadcastInDim S20000x1 ![] bcast_S_S20000x1 : (⟨S_, .f32⟩ : BufTy).Contents (Elt F) → (⟨S20000x1, .f32⟩ : BufTy).Contents (Elt F)),
    binary main_v91 main_v90 main_v92 (Host.divf : (⟨S20000x1, .f32⟩ : BufTy).Contents (Elt F) → (⟨S20000x1, .f32⟩ : BufTy).Contents (Elt F) → (⟨S20000x1, .f32⟩ : BufTy).Contents (Elt F)) ]

/-- @main's 139 operations, in order: the four stretches one after the other. -/
abbrev ops : List (HloOp τ sig (Elt F)) := opsA ++ (opsB ++ (opsC ++ opsD))

end Cert.ReferenceIdeal.Hand

end
-- ==== Proof.RefRun.lean ====
/-
  The run of the reference program: @main is the straight line `ops` of RefOps.lean (the outlined functions
  unfolded at their calls, the sequencing re-associated), so every weakly fair execution terminates with each
  TensorCore buffer at the fold of the operations' results over the launch contents; and that fold is the four
  stretches' folds one after the other.
-/
import proofs.«161107_g884763263511_cont_9to1_m_545_23_alg».proof.Proof.RefOps
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- @main is that straight line. On the right the line of a concatenation is the lines in sequence; on the left the
    two windows and the six calls unfold to their statements; both sides are then one chain of single operations
    once the sequencing is re-associated to the right and the functions' closing returns are dropped. -/
theorem main_eq (c : Dev nD) : main (F := F) c = seq ops := by
  show main (F := F) c = seq (opsA ++ (opsB ++ (opsC ++ opsD)))
  rw [seq_append, seq_append, seq_append]
  simp only [main, main_part0, main_part1, fn_var.body, fn_where.body, fn_relu.body, fn_relu_0.body, seq, bind_assoc, pure_bind]

/-- The fold over the whole line is the four stretches' folds composed. -/
theorem after_ops (V : Valuation τ sig (Elt F)) :
    after ops V = after opsD (after opsC (after opsB (after opsA V))) := by
  show after (opsA ++ (opsB ++ (opsC ++ opsD))) V = _
  rw [StableHlo.after_append, StableHlo.after_append, StableHlo.after_append]

/-- The signature scopes no TensorCore buffer and no semaphore: every buffer is a tensor value's, in HBM. -/
theorem scopedRefs_eq : (Finset.univ.filter fun b : Ref sig .tc => b.isScoped) = ∅ := by decide
theorem scopedSems_eq : (Finset.univ.filter fun sm : SemLoc sig => sm.isScoped .tc) = ∅ := by decide

/-- Every buffer an operation of the first stretch touches is a TensorCore reference. -/
theorem opsA_sub : (opsA : List (HloOp τ sig (Elt F))).Forall fun op => op.bufs ⊆ tcRefs τ sig :=
  ⟨binary_bufs_sub .., unary_bufs_sub .., unary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub ..⟩

/-- The set of buffers an operation writes with contents it does not determine is empty for every operation of the
    first stretch: each result is a function of the operands' contents. -/
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

/-- Every buffer an operation of the second stretch touches is a TensorCore reference. -/
theorem opsB_sub : (opsB : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..⟩

/-- The set of buffers an operation writes with contents it does not determine is empty for every operation of the
    second stretch: each result is a function of the operands' contents. -/
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩

/-- Every buffer an operation of the third stretch touches is a TensorCore reference. -/
theorem opsC_sub : (opsC : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub ..⟩

/-- The set of buffers an operation writes with contents it does not determine is empty for every operation of the
    third stretch: each result is a function of the operands' contents. -/
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Every buffer an operation of the fourth stretch touches is a TensorCore reference. -/
theorem opsD_sub : (opsD : List (HloOp τ sig (Elt F))).Forall fun op => op.bufs ⊆ tcRefs τ sig :=
  ⟨nary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub ..⟩

/-- The set of buffers an operation writes with contents it does not determine is empty for every operation of the
    fourth stretch: each result is a function of the operands' contents. -/
theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl⟩

/-- The same of the whole line: a concatenation's operations are its parts'. -/
theorem ops_sub : (ops : List (HloOp τ sig (Elt F))).Forall fun op => op.bufs ⊆ tcRefs τ sig :=
  List.forall_append.2 ⟨opsA_sub, List.forall_append.2 ⟨opsB_sub, List.forall_append.2 ⟨opsC_sub, opsD_sub⟩⟩⟩

/-- The same of the whole line. -/
theorem ops_fresh : (ops : List (HloOp τ sig (Elt F))).Forall fun op => op.fresh = ∅ :=
  List.forall_append.2 ⟨opsA_fresh, List.forall_append.2 ⟨opsB_fresh, List.forall_append.2 ⟨opsC_fresh, opsD_fresh⟩⟩⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

end Cert.ReferenceIdeal.Hand

end
-- ==== Proof.RefTerms.lean ====
/-
  The second program's computation as whole-array terms, one per stage, in the operations its text prints, for any
  float family.  A row of the [20000, 256] first layer is normalised with its own mean and variance; the variance is the
  program's own `select` between the mean of squared distances and a not-a-number constant on the sign of 256 - 0.
-/
import proofs.«161107_g884763263511_cont_9to1_m_545_23_alg».proof.Proof.Gen.ReferenceIdeal

noncomputable section

namespace Cert.ReferenceIdeal.Terms

open Cert.ReferenceIdeal Cert.ReferenceIdeal.Gen Idealize.ShloMosaic Idealize.SL.Sem

variable {F : FTy → Type} [FloatOps F]

/-! ## Bias rows and scalars laid over the rows -/

def bias256 (a : FVec F S256 .f32) : FVec F S20000x256 .f32 :=
  broadcastInDim S20000x256 ![0, 1] bcast_S1x256_S20000x256_0_1 (broadcastInDim S1x256 ![1] bcast_S256_S1x256_1 a)
def bias128 (a : FVec F S128 .f32) : FVec F S20000x128 .f32 :=
  broadcastInDim S20000x128 ![0, 1] bcast_S1x128_S20000x128_0_1 (broadcastInDim S1x128 ![1] bcast_S128_S1x128_1 a)
def bias4 (a : FVec F S4 .f32) : FVec F S20000x4 .f32 :=
  broadcastInDim S20000x4 ![0, 1] bcast_S1x4_S20000x4_0_1 (broadcastInDim S1x4 ![1] bcast_S4_S1x4_1 a)
def bias2 (a : FVec F S2 .f32) : FVec F S20000x2 .f32 :=
  broadcastInDim S20000x2 ![0, 1] bcast_S1x2_S20000x2_0_1 (broadcastInDim S1x2 ![1] bcast_S2_S1x2_1 a)
def bias1 (a : FVec F S1 .f32) : FVec F S20000x1 .f32 :=
  broadcastInDim S20000x1 ![0, 1] bcast_S1x1_S20000x1_0_1 (broadcastInDim S1x1 ![1] bcast_S1_S1x1_1 a)

/-- A column [20000, 1] laid over the 256 lanes. -/
def col256 (v : FVec F S20000x1 .f32) : FVec F S20000x256 .f32 :=
  broadcastInDim S20000x256 ![0, 1] bcast_S20000x1_S20000x256_0_1 v

/-! ## The trunk -/

/-- The first layer. -/
def tX1 (a0 : FVec F S20000x512 .f32) (a1 : FVec F S512x256 .f32) (a2 : FVec F S256 .f32) : FVec F S20000x256 .f32 :=
  addf (Host.dotGeneral dot_S20000x512_S512x256_S20000x256_1_0_0_1_n_n none a0 a1) (bias256 a2)

/-- The lane sum of each row, as a column. -/
def rowSum (x : FVec F S20000x256 .f32) : FVec F S20000x1 .f32 :=
  broadcastInDim S20000x1 ![0] bcast_S20000_S20000x1_0
    (Host.reduceAdd x (constant S_ .f32 0x00000000#32) reducesTo_S20000x256_S20000_d1 h_S_)

/-- Each row's mean. -/
def tMean (x : FVec F S20000x256 .f32) : FVec F S20000x1 .f32 :=
  Host.divf (rowSum x) (broadcastInDim S20000x1 ![] bcast_S_S20000x1 (constant S_ .f32 0x43800000#32))

/-- The variance's divisor: 256 less the converted integer zero. -/
def tDen : FVec F S_ .f32 := subf (constant S_ .f32 0x43800000#32) (sitofp (F := F) .f32 (constantI S_ 32 0#32))

/-- Each row's distances from its mean. -/
def tCentred (x : FVec F S20000x256 .f32) : FVec F S20000x256 .f32 := subf x (col256 (tMean x))

/-- Each row's variance, as the program selects it. -/
def tVar (x : FVec F S20000x256 .f32) : FVec F S20000x1 .f32 :=
  select (broadcastInDim S20000x1 ![] bcast_S_S20000x1 (cmpf .ogt (tDen (F := F)) (constant S_ .f32 0x00000000#32)))
    (Host.divf (rowSum (mulf (tCentred x) (tCentred x))) (broadcastInDim S20000x1 ![] bcast_S_S20000x1 (tDen (F := F))))
    (broadcastInDim S20000x1 ![] bcast_S_S20000x1 (id (constant S_ .f32 0x7FC00000#32)))

/-- Normalised, scaled, shifted, rectified. -/
def tNorm (x : FVec F S20000x256 .f32) (a3 a4 : FVec F S256 .f32) : FVec F S20000x256 .f32 :=
  maximumf
    (addf (mulf (Host.divf (tCentred x)
            (col256 (Host.sqrt (addf (tVar x) (broadcastInDim S20000x1 ![] bcast_S_S20000x1 (constant S_ .f32 0x3727C5AC#32))))))
          (bias256 a3)) (bias256 a4))
    (broadcastInDim S20000x256 ![] bcast_S_S20000x256 (constant S_ .f32 0x00000000#32))

/-- The rectified normalised first layer: what the second matrix product reads. -/
def tH (a0 : FVec F S20000x512 .f32) (a1 : FVec F S512x256 .f32) (a2 a3 a4 : FVec F S256 .f32) : FVec F S20000x256 .f32 :=
  tNorm (tX1 a0 a1 a2) a3 a4

/-- The trunk's output. -/
def tZ (h : FVec F S20000x256 .f32) (a5 : FVec F S256x256 .f32) (a6 : FVec F S256 .f32) : FVec F S20000x256 .f32 :=
  addf (Host.dotGeneral dot_S20000x256_S256x256_S20000x256_1_0_0_1_n_n none h a5) (bias256 a6)

/-! ## The heads -/

/-- A head's rectified hidden layer. -/
def tHid (z : FVec F S20000x256 .f32) (w : FVec F S256x128 .f32) (b : FVec F S128 .f32) : FVec F S20000x128 .f32 :=
  maximumf (addf (Host.dotGeneral dot_S20000x256_S256x128_S20000x128_1_0_0_1_n_n none z w) (bias128 b))
    (broadcastInDim S20000x128 ![] bcast_S_S20000x128 (constant S_ .f32 0x00000000#32))

def tPre4 (h : FVec F S20000x128 .f32) (w : FVec F S128x4 .f32) (b : FVec F S4 .f32) : FVec F S20000x4 .f32 :=
  addf (Host.dotGeneral dot_S20000x128_S128x4_S20000x4_1_0_0_1_n_n none h w) (bias4 b)
def tPre2 (h : FVec F S20000x128 .f32) (w : FVec F S128x2 .f32) (b : FVec F S2 .f32) : FVec F S20000x2 .f32 :=
  addf (Host.dotGeneral dot_S20000x128_S128x2_S20000x2_1_0_0_1_n_n none h w) (bias2 b)
def tPre1 (h : FVec F S20000x128 .f32) (w : FVec F S128x1 .f32) (b : FVec F S1 .f32) : FVec F S20000x1 .f32 :=
  addf (Host.dotGeneral dot_S20000x128_S128x1_S20000x1_1_0_0_1_n_n none h w) (bias1 b)

/-- The logistic function as the program spells it: one over one plus the exponential of the negative. -/
def tSig4 (p : FVec F S20000x4 .f32) : FVec F S20000x4 .f32 :=
  Host.divf (broadcastInDim S20000x4 ![] bcast_S_S20000x4 (constant S_ .f32 0x3F800000#32))
    (addf (broadcastInDim S20000x4 ![] bcast_S_S20000x4 (constant S_ .f32 0x3F800000#32)) (Host.exp (Host.negf p)))
def tSig2 (p : FVec F S20000x2 .f32) : FVec F S20000x2 .f32 :=
  Host.divf (broadcastInDim S20000x2 ![] bcast_S_S20000x2 (constant S_ .f32 0x3F800000#32))
    (addf (broadcastInDim S20000x2 ![] bcast_S_S20000x2 (constant S_ .f32 0x3F800000#32)) (Host.exp (Host.negf p)))
def tSig1 (p : FVec F S20000x1 .f32) : FVec F S20000x1 .f32 :=
  Host.divf (broadcastInDim S20000x1 ![] bcast_S_S20000x1 (constant S_ .f32 0x3F800000#32))
    (addf (broadcastInDim S20000x1 ![] bcast_S_S20000x1 (constant S_ .f32 0x3F800000#32)) (Host.exp (Host.negf p)))

/-- The scales stretched by the span and moved by the least size. -/
def tStretch (s : FVec F S20000x2 .f32) : FVec F S20000x2 .f32 :=
  addf (mulf s (broadcastInDim S20000x2 ![] bcast_S_S20000x2 (constant S_ .f32 0x3DA3D70A#32)))
    (broadcastInDim S20000x2 ![] bcast_S_S20000x2 (constant S_ .f32 0x3CA3D70A#32))

def tBoxes (z : FVec F S20000x256 .f32) (a7 : FVec F S256x128 .f32) (a8 : FVec F S128 .f32) (a9 : FVec F S128x4 .f32)
    (a10 : FVec F S4 .f32) : FVec F S20000x4 .f32 := tSig4 (tPre4 (tHid z a7 a8) a9 a10)
def tScales (z : FVec F S20000x256 .f32) (a11 : FVec F S256x128 .f32) (a12 : FVec F S128 .f32) (a13 : FVec F S128x2 .f32)
    (a14 : FVec F S2 .f32) : FVec F S20000x2 .f32 := tStretch (tSig2 (tPre2 (tHid z a11 a12) a13 a14))
def tCtx (z : FVec F S20000x256 .f32) (a15 : FVec F S256x128 .f32) (a16 : FVec F S128 .f32) (a17 : FVec F S128x1 .f32)
    (a18 : FVec F S1 .f32) : FVec F S20000x1 .f32 := tSig1 (tPre1 (tHid z a15 a16) a17 a18)

/-- The 263 inputs of the confidence head side by side. -/
def tCat (z : FVec F S20000x256 .f32) (bx : FVec F S20000x4 .f32) (sc : FVec F S20000x2 .f32) (cx : FVec F S20000x1 .f32) :
    FVec F S20000x263 .f32 :=
  concatenate S20000x263 1 [⟨S20000x256, z⟩, ⟨S20000x7, concatenate S20000x7 1 [⟨S20000x4, bx⟩, ⟨S20000x2, sc⟩, ⟨S20000x1, cx⟩]
    concatenates_S20000x4_S20000x2_S20000x1_S20000x7_d1⟩] concatenates_S20000x256_S20000x7_S20000x263_d1

/-- The confidence. -/
def tConf (z : FVec F S20000x256 .f32) (bx : FVec F S20000x4 .f32) (sc : FVec F S20000x2 .f32) (cx : FVec F S20000x1 .f32)
    (a19 : FVec F S263x128 .f32) (a20 : FVec F S128 .f32) (a21 : FVec F S128x1 .f32) (a22 : FVec F S1 .f32) : FVec F S20000x1 .f32 :=
  tSig1 (tPre1
    (maximumf (addf (Host.dotGeneral dot_S20000x263_S263x128_S20000x128_1_0_0_1_n_n none (tCat z bx sc cx) a19) (bias128 a20))
      (broadcastInDim S20000x128 ![] bcast_S_S20000x128 (constant S_ .f32 0x00000000#32)))
    a21 a22)

/-! ## The four results as terms of the 23 arguments -/

section Results
variable (a0 : FVec F S20000x512 .f32) (a1 : FVec F S512x256 .f32) (a2 a3 a4 : FVec F S256 .f32) (a5 : FVec F S256x256 .f32)
  (a6 : FVec F S256 .f32) (a7 : FVec F S256x128 .f32) (a8 : FVec F S128 .f32) (a9 : FVec F S128x4 .f32) (a10 : FVec F S4 .f32)
  (a11 : FVec F S256x128 .f32) (a12 : FVec F S128 .f32) (a13 : FVec F S128x2 .f32) (a14 : FVec F S2 .f32)
  (a15 : FVec F S256x128 .f32) (a16 : FVec F S128 .f32) (a17 : FVec F S128x1 .f32) (a18 : FVec F S1 .f32)
  (a19 : FVec F S263x128 .f32) (a20 : FVec F S128 .f32) (a21 : FVec F S128x1 .f32) (a22 : FVec F S1 .f32)

def Tz : FVec F S20000x256 .f32 := tZ (tH a0 a1 a2 a3 a4) a5 a6
def T41 : FVec F S20000x4 .f32 := tBoxes (Tz a0 a1 a2 a3 a4 a5 a6) a7 a8 a9 a10
def T60 : FVec F S20000x2 .f32 := tScales (Tz a0 a1 a2 a3 a4 a5 a6) a11 a12 a13 a14
def T75 : FVec F S20000x1 .f32 := tCtx (Tz a0 a1 a2 a3 a4 a5 a6) a15 a16 a17 a18
def T92 : FVec F S20000x1 .f32 :=
  tConf (Tz a0 a1 a2 a3 a4 a5 a6) (T41 a0 a1 a2 a3 a4 a5 a6 a7 a8 a9 a10) (T60 a0 a1 a2 a3 a4 a5 a6 a11 a12 a13 a14)
    (T75 a0 a1 a2 a3 a4 a5 a6 a15 a16 a17 a18) a19 a20 a21 a22

end Results

end Cert.ReferenceIdeal.Terms

end
-- ==== Proof.RefStages.lean ====
/-
  What the second program's operation list leaves in its four result buffers and in its 23 argument buffers, for any
  float family and any starting contents.  The list is four stretches in a row.  Each stretch is read at the buffers
  the later ones use (its operations' functions composed, which is the stage's whole-array term by unfolding), and is
  shown to leave every buffer outside the list of the ones it writes.  The whole list is then the four stretches
  composed: a result is its stage's term over the stages before it, an argument is never written.
-/
import proofs.«161107_g884763263511_cont_9to1_m_545_23_alg».proof.Proof.RefOps
import proofs.«161107_g884763263511_cont_9to1_m_545_23_alg».proof.Proof.RefTerms

noncomputable section

namespace Cert.ReferenceIdeal.Hand

open Cert.ReferenceIdeal Cert.ReferenceIdeal.Gen Cert.ReferenceIdeal.Terms Idealize.ShloMosaic Idealize.ShloMosaic.TcCoe Idealize.SL.Sem Idealize.ShloMosaic.StableHlo

variable {F : FTy → Type} [FloatOps F]

/-! ## What each stretch writes, and that it leaves the rest -/

/-- A one-buffer set of a listed reference lies in the list's set of device buffers. -/
private theorem single_sub_of_mem {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

/-- The buffers the first stretch writes, in order. -/
private abbrev writesA : List (Ref sig .tc) :=
  [main_v0, main_v1, main_v2, main_v3, main_cst, main_v4, main_v5, main_cst_0, main_v6, main_v7, main_c, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.v12.ref, main_call0.cst_3.ref, main_call0.v13.ref, main_call0.cst_4.ref, main_call0.call0.v0.ref, main_call0.call0.v1.ref, main_call0.call0.v2.ref, main_v9, main_v10, main_cst_1, main_v11, main_v12, main_v13, main_v14, main_v15, main_v16, main_v17, main_v18, main_v19, main_v20, main_v21, main_call1.cst.ref, main_call1.v0.ref, main_call1.v1.ref]

/-- Every operation of the stretch writes one buffer, and that buffer is in the list. -/
private theorem writesA_sub : (opsA : List (HloOp τ sig (Elt F))).Forall fun op => op.writes ⊆ (writesA.map (Proc.devRef (τ := τ) .tc)).toFinset := by
  repeat (first | refine ⟨single_sub_of_mem (by decide), ?_⟩ | exact single_sub_of_mem (by decide))

/-- So a buffer outside the list holds after the stretch what it held before. -/
private theorem keepA (W : Valuation τ sig (Elt F)) {r : Ref sig .tc} (hr : r ∉ writesA) :
    after opsA W (Proc.devRef .tc r) = W (Proc.devRef .tc r) :=
  after_of_writes_sub opsA W writesA_sub hr

/-- The buffers the second stretch writes, in order. -/
private abbrev writesB : List (Ref sig .tc) :=
  [main_v23, main_v24, main_v25, main_v26, main_v27, main_v28, main_v29, main_v30, main_call2.cst.ref, main_call2.v0.ref, main_call2.v1.ref, main_v32, main_v33, main_v34, main_v35, main_v36, main_v37, main_cst_2, main_v38, main_v39, main_cst_3, main_v40, main_v41, main_v42, main_v43, main_v44, main_v45, main_call3.cst.ref, main_call3.v0.ref, main_call3.v1.ref, main_v47, main_v48, main_v49, main_v50, main_v51, main_v52, main_cst_4, main_v53, main_v54, main_cst_5, main_v55, main_v56, main_cst_6, main_v57, main_v58, main_cst_7, main_v59, main_v60]

/-- Every operation of the stretch writes one buffer, and that buffer is in the list. -/
private theorem writesB_sub : (opsB : List (HloOp τ sig (Elt F))).Forall fun op => op.writes ⊆ (writesB.map (Proc.devRef (τ := τ) .tc)).toFinset := by
  repeat (first | refine ⟨single_sub_of_mem (by decide), ?_⟩ | exact single_sub_of_mem (by decide))

/-- So a buffer outside the list holds after the stretch what it held before. -/
private theorem keepB (W : Valuation τ sig (Elt F)) {r : Ref sig .tc} (hr : r ∉ writesB) :
    after opsB W (Proc.devRef .tc r) = W (Proc.devRef .tc r) :=
  after_of_writes_sub opsB W writesB_sub hr

/-- The buffers the third stretch writes, in order. -/
private abbrev writesC : List (Ref sig .tc) :=
  [main_v61, main_v62, main_v63, main_v64, main_call4.cst.ref, main_call4.v0.ref, main_call4.v1.ref, main_v66, main_v67, main_v68, main_v69, main_v70, main_v71, main_cst_8, main_v72, main_v73, main_cst_9, main_v74, main_v75]

/-- Every operation of the stretch writes one buffer, and that buffer is in the list. -/
private theorem writesC_sub : (opsC : List (HloOp τ sig (Elt F))).Forall fun op => op.writes ⊆ (writesC.map (Proc.devRef (τ := τ) .tc)).toFinset := by
  repeat (first | refine ⟨single_sub_of_mem (by decide), ?_⟩ | exact single_sub_of_mem (by decide))

/-- So a buffer outside the list holds after the stretch what it held before. -/
private theorem keepC (W : Valuation τ sig (Elt F)) {r : Ref sig .tc} (hr : r ∉ writesC) :
    after opsC W (Proc.devRef .tc r) = W (Proc.devRef .tc r) :=
  after_of_writes_sub opsC W writesC_sub hr

/-- The buffers the fourth stretch writes, in order. -/
private abbrev writesD : List (Ref sig .tc) :=
  [main_v76, main_v77, main_v78, main_v79, main_v80, main_v81, main_call5.cst.ref, main_call5.v0.ref, main_call5.v1.ref, main_v83, main_v84, main_v85, main_v86, main_v87, main_v88, main_cst_10, main_v89, main_v90, main_cst_11, main_v91, main_v92]

/-- Every operation of the stretch writes one buffer, and that buffer is in the list. -/
private theorem writesD_sub : (opsD : List (HloOp τ sig (Elt F))).Forall fun op => op.writes ⊆ (writesD.map (Proc.devRef (τ := τ) .tc)).toFinset := by
  repeat (first | refine ⟨single_sub_of_mem (by decide), ?_⟩ | exact single_sub_of_mem (by decide))

/-- So a buffer outside the list holds after the stretch what it held before. -/
private theorem keepD (W : Valuation τ sig (Elt F)) {r : Ref sig .tc} (hr : r ∉ writesD) :
    after opsD W (Proc.devRef .tc r) = W (Proc.devRef .tc r) :=
  after_of_writes_sub opsD W writesD_sub hr

/-! ## Each stretch at its result buffers -/

/-- The first stretch leaves the rectified normalised first layer in the buffer the second matrix product reads. -/
private theorem stageA_v22 (W : Valuation τ sig (Elt F)) :
    after opsA W (main_v22 : DevRef τ sig) = tH (W (main_arg0 : DevRef τ sig)) (W (main_arg1 : DevRef τ sig)) (W (main_arg2 : DevRef τ sig)) (W (main_arg3 : DevRef τ sig)) (W (main_arg4 : DevRef τ sig)) := by
  after_results_simp
  simp only [TRef.ofBuf, TRef.toBuf, cast_eq]
  rfl

/-- The second stretch's trunk output, read off the buffer the first stretch filled. -/
private theorem stageB_v26 (W : Valuation τ sig (Elt F)) :
    after opsB W (main_v26 : DevRef τ sig) = tZ (W (main_v22 : DevRef τ sig)) (W (main_arg5 : DevRef τ sig)) (W (main_arg6 : DevRef τ sig)) := by
  after_results_simp
  rfl

/-- The second stretch's boxes. -/
private theorem stageB_v41 (W : Valuation τ sig (Elt F)) :
    after opsB W (main_v41 : DevRef τ sig) = tBoxes (tZ (W (main_v22 : DevRef τ sig)) (W (main_arg5 : DevRef τ sig)) (W (main_arg6 : DevRef τ sig))) (W (main_arg7 : DevRef τ sig)) (W (main_arg8 : DevRef τ sig)) (W (main_arg9 : DevRef τ sig)) (W (main_arg10 : DevRef τ sig)) := by
  after_results_simp
  simp only [TRef.ofBuf, TRef.toBuf, cast_eq]
  rfl

/-- The second stretch's scales. -/
private theorem stageB_v60 (W : Valuation τ sig (Elt F)) :
    after opsB W (main_v60 : DevRef τ sig) = tScales (tZ (W (main_v22 : DevRef τ sig)) (W (main_arg5 : DevRef τ sig)) (W (main_arg6 : DevRef τ sig))) (W (main_arg11 : DevRef τ sig)) (W (main_arg12 : DevRef τ sig)) (W (main_arg13 : DevRef τ sig)) (W (main_arg14 : DevRef τ sig)) := by
  after_results_simp
  simp only [TRef.ofBuf, TRef.toBuf, cast_eq]
  rfl

/-- The third stretch's context, over the trunk output it finds. -/
private theorem stageC_v75 (W : Valuation τ sig (Elt F)) :
    after opsC W (main_v75 : DevRef τ sig) = tCtx (W (main_v26 : DevRef τ sig)) (W (main_arg15 : DevRef τ sig)) (W (main_arg16 : DevRef τ sig)) (W (main_arg17 : DevRef τ sig)) (W (main_arg18 : DevRef τ sig)) := by
  after_results_simp
  simp only [TRef.ofBuf, TRef.toBuf, cast_eq]
  rfl

/-- The fourth stretch's confidence, over the trunk output and the three heads it finds. -/
private theorem stageD_v92 (W : Valuation τ sig (Elt F)) :
    after opsD W (main_v92 : DevRef τ sig) = tConf (W (main_v26 : DevRef τ sig)) (W (main_v41 : DevRef τ sig)) (W (main_v60 : DevRef τ sig)) (W (main_v75 : DevRef τ sig)) (W (main_arg19 : DevRef τ sig)) (W (main_arg20 : DevRef τ sig)) (W (main_arg21 : DevRef τ sig)) (W (main_arg22 : DevRef τ sig)) := by
  after_results_simp
  simp only [TRef.ofBuf, TRef.toBuf, cast_eq]
  rfl

/-! ## The four stretches in a row -/

/-- Two lists in a row: the second runs from what the first leaves (each operation of the first acts in turn on the
    contents, and the fold over the joined list passes through the same contents). -/
private theorem after_two (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The whole list run from `V` is the four stretches run one after the other. -/
private theorem after_ops_split (V : Valuation τ sig (Elt F)) :
    after ops V = after opsD (after opsC (after opsB (after opsA V))) := by
  rw [show (ops : List (HloOp τ sig (Elt F))) = opsA ++ (opsB ++ (opsC ++ opsD)) from rfl,
    after_two, after_two, after_two]

/-- A buffer none of the four stretches writes holds after the whole list what it held before. -/
private theorem after_keep (V : Valuation τ sig (Elt F)) {r : Ref sig .tc} (hA : r ∉ writesA) (hB : r ∉ writesB)
    (hC : r ∉ writesC) (hD : r ∉ writesD) : after ops V (Proc.devRef .tc r) = V (Proc.devRef .tc r) := by
  rw [after_ops_split, keepD _ hD, keepC _ hC, keepB _ hB, keepA _ hA]

/-- The trunk output after the first two stretches, as a term of the first seven arguments. -/
private theorem afterAB_v26 (V : Valuation τ sig (Elt F)) :
    after opsB (after opsA V) (main_v26 : DevRef τ sig) = Tz (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  rw [stageB_v26, stageA_v22, keepA _ (r := main_arg5) (by decide), keepA _ (r := main_arg6) (by decide)]
  rfl

/-- The boxes after the first two stretches. -/
private theorem afterAB_v41 (V : Valuation τ sig (Elt F)) :
    after opsB (after opsA V) (main_v41 : DevRef τ sig) = T41 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [stageB_v41, stageA_v22, keepA _ (r := main_arg5) (by decide), keepA _ (r := main_arg6) (by decide), keepA _ (r := main_arg7) (by decide), keepA _ (r := main_arg8) (by decide), keepA _ (r := main_arg9) (by decide), keepA _ (r := main_arg10) (by decide)]
  rfl

/-- The scales after the first two stretches. -/
private theorem afterAB_v60 (V : Valuation τ sig (Elt F)) :
    after opsB (after opsA V) (main_v60 : DevRef τ sig) = T60 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg11 : DevRef τ sig)) (V (main_arg12 : DevRef τ sig)) (V (main_arg13 : DevRef τ sig)) (V (main_arg14 : DevRef τ sig)) := by
  rw [stageB_v60, stageA_v22, keepA _ (r := main_arg5) (by decide), keepA _ (r := main_arg6) (by decide), keepA _ (r := main_arg11) (by decide), keepA _ (r := main_arg12) (by decide), keepA _ (r := main_arg13) (by decide), keepA _ (r := main_arg14) (by decide)]
  rfl

/-- The context after the first three stretches. -/
private theorem afterABC_v75 (V : Valuation τ sig (Elt F)) :
    after opsC (after opsB (after opsA V)) (main_v75 : DevRef τ sig) = T75 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg15 : DevRef τ sig)) (V (main_arg16 : DevRef τ sig)) (V (main_arg17 : DevRef τ sig)) (V (main_arg18 : DevRef τ sig)) := by
  rw [stageC_v75, afterAB_v26, keepB _ (r := main_arg15) (by decide), keepA _ (r := main_arg15) (by decide), keepB _ (r := main_arg16) (by decide), keepA _ (r := main_arg16) (by decide), keepB _ (r := main_arg17) (by decide), keepA _ (r := main_arg17) (by decide), keepB _ (r := main_arg18) (by decide), keepA _ (r := main_arg18) (by decide)]
  rfl

/-! ## The whole list at its results and at its arguments -/

/-- The box result after the whole list is the box term of the arguments' contents. -/
theorem after_v41 (V : Valuation τ sig (Elt F)) :
    after ops V (main_v41 : DevRef τ sig) = T41 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [after_ops_split, keepD _ (r := main_v41) (by decide), keepC _ (r := main_v41) (by decide), afterAB_v41]

theorem after_v60 (V : Valuation τ sig (Elt F)) :
    after ops V (main_v60 : DevRef τ sig) = T60 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg11 : DevRef τ sig)) (V (main_arg12 : DevRef τ sig)) (V (main_arg13 : DevRef τ sig)) (V (main_arg14 : DevRef τ sig)) := by
  rw [after_ops_split, keepD _ (r := main_v60) (by decide), keepC _ (r := main_v60) (by decide), afterAB_v60]

theorem after_v75 (V : Valuation τ sig (Elt F)) :
    after ops V (main_v75 : DevRef τ sig) = T75 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg15 : DevRef τ sig)) (V (main_arg16 : DevRef τ sig)) (V (main_arg17 : DevRef τ sig)) (V (main_arg18 : DevRef τ sig)) := by
  rw [after_ops_split, keepD _ (r := main_v75) (by decide), afterABC_v75]

theorem after_v92 (V : Valuation τ sig (Elt F)) :
    after ops V (main_v92 : DevRef τ sig) = T92 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) := by
  rw [after_ops_split, stageD_v92, keepC _ (r := main_v26) (by decide), keepC _ (r := main_v41) (by decide), keepC _ (r := main_v60) (by decide), afterABC_v75,
    afterAB_v26, afterAB_v41, afterAB_v60,
    keepC _ (r := main_arg19) (by decide), keepB _ (r := main_arg19) (by decide), keepA _ (r := main_arg19) (by decide),
    keepC _ (r := main_arg20) (by decide), keepB _ (r := main_arg20) (by decide), keepA _ (r := main_arg20) (by decide),
    keepC _ (r := main_arg21) (by decide), keepB _ (r := main_arg21) (by decide), keepA _ (r := main_arg21) (by decide),
    keepC _ (r := main_arg22) (by decide), keepB _ (r := main_arg22) (by decide), keepA _ (r := main_arg22) (by decide)]
  rfl

/-- No operation writes an argument. -/
theorem after_arg0 (V : Valuation τ sig (Elt F)) : after ops V (main_arg0 : DevRef τ sig) = V (main_arg0 : DevRef τ sig) := by
  exact after_keep V (by decide) (by decide) (by decide) (by decide)
theorem after_arg1 (V : Valuation τ sig (Elt F)) : after ops V (main_arg1 : DevRef τ sig) = V (main_arg1 : DevRef τ sig) := by
  exact after_keep V (by decide) (by decide) (by decide) (by decide)
theorem after_arg2 (V : Valuation τ sig (Elt F)) : after ops V (main_arg2 : DevRef τ sig) = V (main_arg2 : DevRef τ sig) := by
  exact after_keep V (by decide) (by decide) (by decide) (by decide)
theorem after_arg3 (V : Valuation τ sig (Elt F)) : after ops V (main_arg3 : DevRef τ sig) = V (main_arg3 : DevRef τ sig) := by
  exact after_keep V (by decide) (by decide) (by decide) (by decide)
theorem after_arg4 (V : Valuation τ sig (Elt F)) : after ops V (main_arg4 : DevRef τ sig) = V (main_arg4 : DevRef τ sig) := by
  exact after_keep V (by decide) (by decide) (by decide) (by decide)
theorem after_arg5 (V : Valuation τ sig (Elt F)) : after ops V (main_arg5 : DevRef τ sig) = V (main_arg5 : DevRef τ sig) := by
  exact after_keep V (by decide) (by decide) (by decide) (by decide)
theorem after_arg6 (V : Valuation τ sig (Elt F)) : after ops V (main_arg6 : DevRef τ sig) = V (main_arg6 : DevRef τ sig) := by
  exact after_keep V (by decide) (by decide) (by decide) (by decide)
theorem after_arg7 (V : Valuation τ sig (Elt F)) : after ops V (main_arg7 : DevRef τ sig) = V (main_arg7 : DevRef τ sig) := by
  exact after_keep V (by decide) (by decide) (by decide) (by decide)
theorem after_arg8 (V : Valuation τ sig (Elt F)) : after ops V (main_arg8 : DevRef τ sig) = V (main_arg8 : DevRef τ sig) := by
  exact after_keep V (by decide) (by decide) (by decide) (by decide)
theorem after_arg9 (V : Valuation τ sig (Elt F)) : after ops V (main_arg9 : DevRef τ sig) = V (main_arg9 : DevRef τ sig) := by
  exact after_keep V (by decide) (by decide) (by decide) (by decide)
theorem after_arg10 (V : Valuation τ sig (Elt F)) : after ops V (main_arg10 : DevRef τ sig) = V (main_arg10 : DevRef τ sig) := by
  exact after_keep V (by decide) (by decide) (by decide) (by decide)
theorem after_arg11 (V : Valuation τ sig (Elt F)) : after ops V (main_arg11 : DevRef τ sig) = V (main_arg11 : DevRef τ sig) := by
  exact after_keep V (by decide) (by decide) (by decide) (by decide)
theorem after_arg12 (V : Valuation τ sig (Elt F)) : after ops V (main_arg12 : DevRef τ sig) = V (main_arg12 : DevRef τ sig) := by
  exact after_keep V (by decide) (by decide) (by decide) (by decide)
theorem after_arg13 (V : Valuation τ sig (Elt F)) : after ops V (main_arg13 : DevRef τ sig) = V (main_arg13 : DevRef τ sig) := by
  exact after_keep V (by decide) (by decide) (by decide) (by decide)
theorem after_arg14 (V : Valuation τ sig (Elt F)) : after ops V (main_arg14 : DevRef τ sig) = V (main_arg14 : DevRef τ sig) := by
  exact after_keep V (by decide) (by decide) (by decide) (by decide)
theorem after_arg15 (V : Valuation τ sig (Elt F)) : after ops V (main_arg15 : DevRef τ sig) = V (main_arg15 : DevRef τ sig) := by
  exact after_keep V (by decide) (by decide) (by decide) (by decide)
theorem after_arg16 (V : Valuation τ sig (Elt F)) : after ops V (main_arg16 : DevRef τ sig) = V (main_arg16 : DevRef τ sig) := by
  exact after_keep V (by decide) (by decide) (by decide) (by decide)
theorem after_arg17 (V : Valuation τ sig (Elt F)) : after ops V (main_arg17 : DevRef τ sig) = V (main_arg17 : DevRef τ sig) := by
  exact after_keep V (by decide) (by decide) (by decide) (by decide)
theorem after_arg18 (V : Valuation τ sig (Elt F)) : after ops V (main_arg18 : DevRef τ sig) = V (main_arg18 : DevRef τ sig) := by
  exact after_keep V (by decide) (by decide) (by decide) (by decide)
theorem after_arg19 (V : Valuation τ sig (Elt F)) : after ops V (main_arg19 : DevRef τ sig) = V (main_arg19 : DevRef τ sig) := by
  exact after_keep V (by decide) (by decide) (by decide) (by decide)
theorem after_arg20 (V : Valuation τ sig (Elt F)) : after ops V (main_arg20 : DevRef τ sig) = V (main_arg20 : DevRef τ sig) := by
  exact after_keep V (by decide) (by decide) (by decide) (by decide)
theorem after_arg21 (V : Valuation τ sig (Elt F)) : after ops V (main_arg21 : DevRef τ sig) = V (main_arg21 : DevRef τ sig) := by
  exact after_keep V (by decide) (by decide) (by decide) (by decide)
theorem after_arg22 (V : Valuation τ sig (Elt F)) : after ops V (main_arg22 : DevRef τ sig) = V (main_arg22 : DevRef τ sig) := by
  exact after_keep V (by decide) (by decide) (by decide) (by decide)

end Cert.ReferenceIdeal.Hand

end
-- ==== Proof.RefRow.lean ====
/-
  The second program's four results, entry by entry.

  Each stage of the second program (an affine layer, a row's mean and variance, the normalisation, a rectifier, the
  logistic function, the stretch of the scales, the 263 numbers side by side) is read at one entry (r, j) of its array
  and found to be the row function of HeadRow at row r of the stage's operand: a matrix product's entry is the sum over
  the shared axis in the operands' order, a broadcast bias or scalar reads the bias' column or the scalar, a lane sum is
  the sum over the 256 columns from the initial value 0, and the program's select between the variance and a
  not-a-number constant takes the variance because 256 - 0 > 0.  Chained from the features to each result, the four
  results are the four row functions applied to the features' rows.
-/
import proofs.«161107_g884763263511_cont_9to1_m_545_23_alg».proof.Proof.RefTerms
import proofs.«161107_g884763263511_cont_9to1_m_545_23_alg».proof.Proof.HeadRow
import proofs.«161107_g884763263511_cont_9to1_m_545_23_alg».proof.Proof.LibPlainDot
import Idealize.ShloMosaic.PureOps.Ideal.Laws
import Idealize.ShloMosaic.Lib.Pipeline.Value
import Idealize.ShloMosaic.Lib.ValueLayout
import Idealize.ShloMosaic.Lib.IdealHost

noncomputable section

namespace Cert.ReferenceIdeal.Row

open Cert.ReferenceIdeal Cert.ReferenceIdeal.Gen Cert.ReferenceIdeal.Terms HeadRow Idealize.ShloMosaic Idealize.ShloMosaic.ValueIdx

/-- A bias laid over the rows reads the bias at the column. -/
private theorem bias_apply {n : Nat} (h1 : (⟨1, ![n]⟩ : Shape).BroadcastsInDim ⟨2, ![1, n]⟩ ![1])
    (h2 : (⟨2, ![1, n]⟩ : Shape).BroadcastsInDim ⟨2, ![20000, n]⟩ ![0, 1]) (a : Arr1 n) (r : Fin 20000) (j : Fin n) :
    broadcastInDim (⟨2, ![20000, n]⟩ : Shape) ![0, 1] h2 (broadcastInDim (⟨2, ![1, n]⟩ : Shape) ![1] h1 a) (ix2 r j) = vec a j := by
  refine (broadcastInDim_apply _ h2 _ (ix2 r j) (ix2 0 j) ?_).trans ?_
  · intro c
    match c with
    | ⟨0, _⟩ => rfl
    | ⟨1, _⟩ =>
      show j.val = if n = 1 then 0 else j.val
      split
      · next h => have := j.isLt; omega
      · rfl
  · refine (broadcastInDim_apply _ h1 _ (ix2 0 j) (ix1 j) ?_).trans rfl
    intro c
    match c with
    | ⟨0, _⟩ =>
      show j.val = if n = 1 then 0 else j.val
      split
      · next h => have := j.isLt; omega
      · rfl

/-- The five biases of the program, each laid over the 20000 rows. -/
private theorem bias256_apply (a : FVec Ideal S256 .f32) (r : Fin 20000) (j : Fin 256) : bias256 a (ix2 r j) = vec a j :=
  bias_apply _ _ a r j
private theorem bias128_apply (a : FVec Ideal S128 .f32) (r : Fin 20000) (j : Fin 128) : bias128 a (ix2 r j) = vec a j :=
  bias_apply _ _ a r j
private theorem bias4_apply (a : FVec Ideal S4 .f32) (r : Fin 20000) (j : Fin 4) : bias4 a (ix2 r j) = vec a j :=
  bias_apply _ _ a r j
private theorem bias2_apply (a : FVec Ideal S2 .f32) (r : Fin 20000) (j : Fin 2) : bias2 a (ix2 r j) = vec a j :=
  bias_apply _ _ a r j
private theorem bias1_apply (a : FVec Ideal S1 .f32) (r : Fin 20000) (j : Fin 1) : bias1 a (ix2 r j) = vec a j :=
  bias_apply _ _ a r j

/-- A matrix product of the host read at an entry: the sum over the shared axis. -/
private theorem dot_apply {R K C : Nat} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ .f32) (w : FVec Ideal ⟨2, ![K, C]⟩ .f32) (p : Fin R) (q : Fin C) :
    Host.dotGeneral d none l w (ix2 p q) = ∑ k : Fin K, rowOf l p k * mat w k q := by
  simp only [Host.dotGeneral]
  rw [Ideal.dotGeneral_apply]
  exact PlainDot.sum_eq d hlb hln hlc hrb hrn hrc l w p q

/-- The first layer at an entry: the features' row through the affine layer. -/
private theorem tX1_apply (a0 : FVec Ideal S20000x512 .f32) (a1 : FVec Ideal S512x256 .f32) (a2 : FVec Ideal S256 .f32)
    (r : Fin 20000) (j : Fin 256) : tX1 a0 a1 a2 (ix2 r j) = lin (mat a1) (vec a2) (rowOf a0 r) j := by
  unfold tX1 lin
  rw [addf_apply, bias256_apply, dot_apply _ rfl rfl rfl rfl rfl rfl]

/-- A scalar laid over an array reads the scalar. -/
private theorem scal_apply {T : Shape} (h : S_.BroadcastsInDim T ![]) (b : BitVec 32) (j : T.Idx) :
    broadcastInDim T ![] h (constant (F := Ideal) S_ .f32 b) j = Ideal.ofBits .f32 b :=
  broadcastInDim_scalar_apply h _ j

/-- The lane sum of a row. -/
private theorem rowSum_apply (x : FVec Ideal S20000x256 .f32) (r : Fin 20000) (q : Fin 1) :
    rowSum x (ix2 r q) = ∑ j : Fin 256, rowOf x r j := by
  unfold rowSum
  refine (broadcastInDim_apply _ _ _ (ix2 r q) (ix1 r) ?_).trans ?_
  · intro c
    match c with
    | ⟨0, _⟩ => rfl
  · rw [hostReduceAdd_apply]
    have h : S20000x256.Reduces [1] S20000 := by decide
    rw [Ideal.hostReduceAdd_single reducesTo_S20000x256_S20000_d1 h]
    rw [constant_apply, Ideal.ofBits_zero_f32, zero_add]
    show ∑ k : Fin 256, x (h.lift (ix1 r) k) = ∑ j : Fin 256, x (ix2 r j)
    refine Finset.sum_congr rfl fun k _ => congrArg x ?_
    funext c
    apply Fin.ext
    match c with
    | ⟨0, _⟩ => rfl
    | ⟨1, _⟩ => rfl

/-- The word 0x43800000 is the number 256. -/
private theorem c256_eq : c256 = ((256 : ℝ) : EReal) := by
  simp [Ideal.ofBits, Ideal.ieee, -EReal.coe_mul]; norm_num

/-- A row's mean: its lane sum divided by 256. -/
private theorem tMean_apply (x : FVec Ideal S20000x256 .f32) (r : Fin 20000) (q : Fin 1) :
    tMean x (ix2 r q) = mean (rowOf x r) := by
  unfold tMean mean
  rw [hostDivf_apply, rowSum_apply, scal_apply]

/-- The variance's divisor: the integer word 0 converts to the real 0, and 256 - 0 = 256. -/
private theorem tDen_apply (i : S_.Idx) : tDen (F := Ideal) i = c256 := by
  unfold tDen
  rw [subf_apply, constant_apply, sitofp_apply]
  show c256 - (((0#32 : BitVec 32).toInt : ℝ) : EReal) = c256
  simp

/-- A column laid over the 256 lanes reads the column at the row. -/
private theorem col256_apply (v : FVec Ideal S20000x1 .f32) (r : Fin 20000) (j : Fin 256) : col256 v (ix2 r j) = v (ix2 r 0) := by
  unfold col256
  refine broadcastInDim_apply _ _ _ (ix2 r j) (ix2 r 0) ?_
  intro c
  match c with
  | ⟨0, _⟩ => rfl
  | ⟨1, _⟩ => rfl

/-- A row's distances from its mean. -/
private theorem tCentred_apply (x : FVec Ideal S20000x256 .f32) (r : Fin 20000) (j : Fin 256) :
    tCentred x (ix2 r j) = rowOf x r j - mean (rowOf x r) := by
  unfold tCentred
  rw [subf_apply, col256_apply, tMean_apply]
  rfl

/-- The variance the program selects: 256 - 0 is above zero, so the select takes the mean of squared distances. -/
private theorem tVar_apply (x : FVec Ideal S20000x256 .f32) (r : Fin 20000) (q : Fin 1) :
    tVar x (ix2 r q) = varR (rowOf x r) := by
  unfold tVar varR
  rw [select_apply]
  have hc : broadcastInDim S20000x1 ![] bcast_S_S20000x1 (cmpf .ogt (tDen (F := Ideal)) (constant S_ .f32 0x00000000#32)) (ix2 r q) = 1#1 := by
    rw [broadcastInDim_scalar_apply, cmpf_apply, tDen_apply, constant_apply, Ideal.cmpf_def, Ideal.ofBits_zero_f32, c256_eq]
    unfold Ideal.cmp
    have h : (0 : EReal) < ((256 : ℝ) : EReal) := by exact_mod_cast (by norm_num : (0 : ℝ) < 256)
    simp [h]
  rw [hc, select_one, hostDivf_apply, rowSum_apply, broadcastInDim_scalar_apply, tDen_apply]
  refine congrArg (fun s => Ideal.div s c256) (Finset.sum_congr rfl fun j _ => ?_)
  show mulf (tCentred x) (tCentred x) (ix2 r j) = _
  rw [mulf_apply, tCentred_apply]

/-- The normalised, scaled, shifted and rectified row: the quotient by the root of the variance plus the small constant. -/
private theorem tNorm_apply (x : FVec Ideal S20000x256 .f32) (a3 a4 : FVec Ideal S256 .f32) (r : Fin 20000) (j : Fin 256) :
    tNorm x a3 a4 (ix2 r j) = normR (vec a3) (vec a4) (rowOf x r) j := by
  unfold tNorm normR
  rw [maximumf_apply, addf_apply, mulf_apply, hostDivf_apply, tCentred_apply, col256_apply, bias256_apply, bias256_apply, scal_apply]
  show max (Ideal.div _ (FloatOps.hostUnary .sqrt (addf (tVar x) _ (ix2 r 0))) * _ + _) _ = _
  rw [Ideal.hostUnary_sqrt_def, addf_apply, tVar_apply, scal_apply]

/-- The stage lemmas for whole rows: a row of a stage is the row function of the row of its operand. -/
private theorem rowOf_tX1 (a0 : FVec Ideal S20000x512 .f32) (a1 : FVec Ideal S512x256 .f32) (a2 : FVec Ideal S256 .f32) (r : Fin 20000) :
    rowOf (tX1 a0 a1 a2) r = lin (mat a1) (vec a2) (rowOf a0 r) := funext fun j => tX1_apply a0 a1 a2 r j

private theorem rowOf_tNorm (x : FVec Ideal S20000x256 .f32) (a3 a4 : FVec Ideal S256 .f32) (r : Fin 20000) :
    rowOf (tNorm x a3 a4) r = normR (vec a3) (vec a4) (rowOf x r) := funext fun j => tNorm_apply x a3 a4 r j

/-- The trunk's second affine layer at an entry. -/
private theorem tZ_apply (h : FVec Ideal S20000x256 .f32) (a5 : FVec Ideal S256x256 .f32) (a6 : FVec Ideal S256 .f32)
    (r : Fin 20000) (j : Fin 256) : tZ h a5 a6 (ix2 r j) = lin (mat a5) (vec a6) (rowOf h r) j := by
  unfold tZ lin
  rw [addf_apply, bias256_apply, dot_apply _ rfl rfl rfl rfl rfl rfl]

private theorem rowOf_tZ (h : FVec Ideal S20000x256 .f32) (a5 : FVec Ideal S256x256 .f32) (a6 : FVec Ideal S256 .f32) (r : Fin 20000) :
    rowOf (tZ h a5 a6) r = lin (mat a5) (vec a6) (rowOf h r) := funext fun j => tZ_apply h a5 a6 r j

/-- A head's rectified hidden layer at an entry. -/
private theorem tHid_apply (z : FVec Ideal S20000x256 .f32) (w : FVec Ideal S256x128 .f32) (b : FVec Ideal S128 .f32)
    (r : Fin 20000) (j : Fin 128) : tHid z w b (ix2 r j) = relu (lin (mat w) (vec b) (rowOf z r)) j := by
  unfold tHid relu lin
  rw [maximumf_apply, addf_apply, bias128_apply, dot_apply _ rfl rfl rfl rfl rfl rfl, scal_apply]

private theorem rowOf_tHid (z : FVec Ideal S20000x256 .f32) (w : FVec Ideal S256x128 .f32) (b : FVec Ideal S128 .f32) (r : Fin 20000) :
    rowOf (tHid z w b) r = relu (lin (mat w) (vec b) (rowOf z r)) := funext fun j => tHid_apply z w b r j

/-- A head's last affine layer at an entry, for the three widths 4, 2 and 1. -/
private theorem tPre4_apply (h : FVec Ideal S20000x128 .f32) (w : FVec Ideal S128x4 .f32) (b : FVec Ideal S4 .f32)
    (r : Fin 20000) (j : Fin 4) : tPre4 h w b (ix2 r j) = lin (mat w) (vec b) (rowOf h r) j := by
  unfold tPre4 lin
  rw [addf_apply, bias4_apply, dot_apply _ rfl rfl rfl rfl rfl rfl]
private theorem tPre2_apply (h : FVec Ideal S20000x128 .f32) (w : FVec Ideal S128x2 .f32) (b : FVec Ideal S2 .f32)
    (r : Fin 20000) (j : Fin 2) : tPre2 h w b (ix2 r j) = lin (mat w) (vec b) (rowOf h r) j := by
  unfold tPre2 lin
  rw [addf_apply, bias2_apply, dot_apply _ rfl rfl rfl rfl rfl rfl]
private theorem tPre1_apply (h : FVec Ideal S20000x128 .f32) (w : FVec Ideal S128x1 .f32) (b : FVec Ideal S1 .f32)
    (r : Fin 20000) (j : Fin 1) : tPre1 h w b (ix2 r j) = lin (mat w) (vec b) (rowOf h r) j := by
  unfold tPre1 lin
  rw [addf_apply, bias1_apply, dot_apply _ rfl rfl rfl rfl rfl rfl]

/-- One over one plus the exponential of the negative is the logistic function, by its definition. -/
private theorem tSig4_apply (p : FVec Ideal S20000x4 .f32) (i : S20000x4.Idx) : tSig4 p i = Ideal.logistic (p i) := by
  unfold tSig4 Ideal.logistic
  rw [hostDivf_apply, addf_apply, scal_apply, Ideal.ofBits_one_f32]
  rfl
private theorem tSig2_apply (p : FVec Ideal S20000x2 .f32) (i : S20000x2.Idx) : tSig2 p i = Ideal.logistic (p i) := by
  unfold tSig2 Ideal.logistic
  rw [hostDivf_apply, addf_apply, scal_apply, Ideal.ofBits_one_f32]
  rfl
private theorem tSig1_apply (p : FVec Ideal S20000x1 .f32) (i : S20000x1.Idx) : tSig1 p i = Ideal.logistic (p i) := by
  unfold tSig1 Ideal.logistic
  rw [hostDivf_apply, addf_apply, scal_apply, Ideal.ofBits_one_f32]
  rfl

/-- The scales stretched by the span and moved by the least size, at an entry. -/
private theorem tStretch_apply (s : FVec Ideal S20000x2 .f32) (i : S20000x2.Idx) : tStretch s i = s i * cspan + cmin := by
  unfold tStretch
  rw [addf_apply, mulf_apply, scal_apply, scal_apply]

/-- The three heads at an entry: hidden layer, last layer, logistic function (and the stretch for the scales). -/
private theorem tBoxes_apply (z : FVec Ideal S20000x256 .f32) (a7 : FVec Ideal S256x128 .f32) (a8 : FVec Ideal S128 .f32)
    (a9 : FVec Ideal S128x4 .f32) (a10 : FVec Ideal S4 .f32) (r : Fin 20000) (q : Fin 4) :
    tBoxes z a7 a8 a9 a10 (ix2 r q)
      = Ideal.logistic (lin (mat a9) (vec a10) (relu (lin (mat a7) (vec a8) (rowOf z r))) q) := by
  unfold tBoxes
  rw [tSig4_apply, tPre4_apply, rowOf_tHid]

private theorem tScales_apply (z : FVec Ideal S20000x256 .f32) (a11 : FVec Ideal S256x128 .f32) (a12 : FVec Ideal S128 .f32)
    (a13 : FVec Ideal S128x2 .f32) (a14 : FVec Ideal S2 .f32) (r : Fin 20000) (q : Fin 2) :
    tScales z a11 a12 a13 a14 (ix2 r q)
      = Ideal.logistic (lin (mat a13) (vec a14) (relu (lin (mat a11) (vec a12) (rowOf z r))) q) * cspan + cmin := by
  unfold tScales
  rw [tStretch_apply, tSig2_apply, tPre2_apply, rowOf_tHid]

private theorem tCtx_apply (z : FVec Ideal S20000x256 .f32) (a15 : FVec Ideal S256x128 .f32) (a16 : FVec Ideal S128 .f32)
    (a17 : FVec Ideal S128x1 .f32) (a18 : FVec Ideal S1 .f32) (r : Fin 20000) (q : Fin 1) :
    tCtx z a15 a16 a17 a18 (ix2 r q)
      = Ideal.logistic (lin (mat a17) (vec a18) (relu (lin (mat a15) (vec a16) (rowOf z r))) q) := by
  unfold tCtx
  rw [tSig1_apply, tPre1_apply, rowOf_tHid]

/-- The seven head outputs side by side, read at a column: the piece the column falls in. -/
private theorem cat7_apply (bx : FVec Ideal S20000x4 .f32) (sc : FVec Ideal S20000x2 .f32) (cx : FVec Ideal S20000x1 .f32)
    (r : Fin 20000) (m : Fin 7) :
    concatenate S20000x7 1 [⟨S20000x4, bx⟩, ⟨S20000x2, sc⟩, ⟨S20000x1, cx⟩] concatenates_S20000x4_S20000x2_S20000x1_S20000x7_d1 (ix2 r m)
      = cat7 (rowOf bx r) (rowOf sc r) (rowOf cx r) m := by
  unfold cat7
  by_cases h4 : m.val < 4
  · rw [dif_pos h4]
    refine concatenate_apply_piece (t := S20000x7) 1 _ _ (ix2 r m) 0 (by show 0 < 3; omega) S20000x4 bx rfl rfl 0 rfl
      (ix2 r ⟨m.val, h4⟩) ?_ ?_
    · intro b hb
      match b with
      | ⟨0, _⟩ => rfl
      | ⟨1, _⟩ => exact absurd rfl hb
    · show 0 + m.val = m.val
      omega
  · rw [dif_neg h4]
    by_cases h6 : m.val < 6
    · rw [dif_pos h6]
      refine concatenate_apply_piece (t := S20000x7) 1 _ _ (ix2 r m) 1 (by show 1 < 3; omega) S20000x2 sc rfl rfl 4 rfl
        (ix2 r ⟨m.val - 4, by omega⟩) ?_ ?_
      · intro b hb
        match b with
        | ⟨0, _⟩ => rfl
        | ⟨1, _⟩ => exact absurd rfl hb
      · show 4 + (m.val - 4) = m.val
        omega
    · rw [dif_neg h6]
      refine concatenate_apply_piece (t := S20000x7) 1 _ _ (ix2 r m) 2 (by show 2 < 3; omega) S20000x1 cx rfl rfl 6 rfl
        (ix2 r ⟨m.val - 6, by have := m.isLt; omega⟩) ?_ ?_
      · intro b hb
        match b with
        | ⟨0, _⟩ => rfl
        | ⟨1, _⟩ => exact absurd rfl hb
      · show 6 + (m.val - 6) = m.val
        omega

/-- The 263 inputs of the confidence head at a column: the trunk's output below column 256, the seven head outputs from there on. -/
private theorem tCat_apply (z : FVec Ideal S20000x256 .f32) (bx : FVec Ideal S20000x4 .f32) (sc : FVec Ideal S20000x2 .f32)
    (cx : FVec Ideal S20000x1 .f32) (r : Fin 20000) (k : Fin 263) :
    tCat z bx sc cx (ix2 r k) = cat263 (rowOf z r) (cat7 (rowOf bx r) (rowOf sc r) (rowOf cx r)) k := by
  unfold tCat cat263
  by_cases hk : k.val < 256
  · rw [dif_pos hk]
    refine concatenate_pair_apply_left (t := S20000x263) (s₁ := S20000x256) (s₂ := S20000x7) 1 z _ _ (ix2 r k) rfl
      (ix2 r ⟨k.val, hk⟩) ?_
    intro b
    match b with
    | ⟨0, _⟩ => rfl
    | ⟨1, _⟩ => rfl
  · rw [dif_neg hk]
    refine (concatenate_pair_apply_right (t := S20000x263) (s₁ := S20000x256) (s₂ := S20000x7) 1 z _ _ (ix2 r k) rfl rfl
      (ix2 r ⟨k.val - 256, by have := k.isLt; omega⟩) ?_ ?_).trans (cat7_apply bx sc cx r _)
    · intro b hb
      match b with
      | ⟨0, _⟩ => rfl
      | ⟨1, _⟩ => exact absurd rfl hb
    · show k.val - 256 + 256 = k.val
      omega

private theorem rowOf_tCat (z : FVec Ideal S20000x256 .f32) (bx : FVec Ideal S20000x4 .f32) (sc : FVec Ideal S20000x2 .f32)
    (cx : FVec Ideal S20000x1 .f32) (r : Fin 20000) :
    rowOf (tCat z bx sc cx) r = cat263 (rowOf z r) (cat7 (rowOf bx r) (rowOf sc r) (rowOf cx r)) :=
  funext fun k => tCat_apply z bx sc cx r k

/-- The confidence at an entry: the 263 inputs through the hidden layer, the last column and the logistic function. -/
private theorem tConf_apply (z : FVec Ideal S20000x256 .f32) (bx : FVec Ideal S20000x4 .f32) (sc : FVec Ideal S20000x2 .f32)
    (cx : FVec Ideal S20000x1 .f32) (a19 : FVec Ideal S263x128 .f32) (a20 : FVec Ideal S128 .f32)
    (a21 : FVec Ideal S128x1 .f32) (a22 : FVec Ideal S1 .f32) (r : Fin 20000) (q : Fin 1) :
    tConf z bx sc cx a19 a20 a21 a22 (ix2 r q)
      = Ideal.logistic (lin (mat a21) (vec a22) (relu (lin (mat a19) (vec a20)
          (cat263 (rowOf z r) (cat7 (rowOf bx r) (rowOf sc r) (rowOf cx r))))) q) := by
  unfold tConf
  rw [tSig1_apply, tPre1_apply]
  congr 2
  funext j
  show maximumf _ _ (ix2 r j) = _
  unfold relu lin
  rw [maximumf_apply, addf_apply, bias128_apply, dot_apply _ rfl rfl rfl rfl rfl rfl, scal_apply, rowOf_tCat]

/-- A row of the trunk's output is the trunk's row function of the features' row. -/
private theorem rowOf_Tz (a0 : FVec Ideal S20000x512 .f32) (a1 : FVec Ideal S512x256 .f32) (a2 a3 a4 : FVec Ideal S256 .f32) (a5 : FVec Ideal S256x256 .f32)
    (a6 : FVec Ideal S256 .f32) (a7 : FVec Ideal S256x128 .f32) (a8 : FVec Ideal S128 .f32) (a9 : FVec Ideal S128x4 .f32) (a10 : FVec Ideal S4 .f32)
    (a11 : FVec Ideal S256x128 .f32) (a12 : FVec Ideal S128 .f32) (a13 : FVec Ideal S128x2 .f32) (a14 : FVec Ideal S2 .f32)
    (a15 : FVec Ideal S256x128 .f32) (a16 : FVec Ideal S128 .f32) (a17 : FVec Ideal S128x1 .f32) (a18 : FVec Ideal S1 .f32)
    (a19 : FVec Ideal S263x128 .f32) (a20 : FVec Ideal S128 .f32) (a21 : FVec Ideal S128x1 .f32) (a22 : FVec Ideal S1 .f32) (r : Fin 20000) :
    rowOf (Tz a0 a1 a2 a3 a4 a5 a6) r = zR (paramsOf a1 a2 a3 a4 a5 a6 a7 a8 a9 a10 a11 a12 a13 a14 a15 a16 a17 a18 a19 a20 a21 a22).toCommon (rowOf a0 r) := by
  unfold Tz tH
  rw [rowOf_tZ, rowOf_tNorm, rowOf_tX1]
  rfl

/-- The three head results at an entry are the row functions of the features' row: the fields of the weights read off the arrays are those arrays' coordinates, by definition. -/
private theorem T41_apply (a0 : FVec Ideal S20000x512 .f32) (a1 : FVec Ideal S512x256 .f32) (a2 a3 a4 : FVec Ideal S256 .f32) (a5 : FVec Ideal S256x256 .f32)
    (a6 : FVec Ideal S256 .f32) (a7 : FVec Ideal S256x128 .f32) (a8 : FVec Ideal S128 .f32) (a9 : FVec Ideal S128x4 .f32) (a10 : FVec Ideal S4 .f32)
    (a11 : FVec Ideal S256x128 .f32) (a12 : FVec Ideal S128 .f32) (a13 : FVec Ideal S128x2 .f32) (a14 : FVec Ideal S2 .f32)
    (a15 : FVec Ideal S256x128 .f32) (a16 : FVec Ideal S128 .f32) (a17 : FVec Ideal S128x1 .f32) (a18 : FVec Ideal S1 .f32)
    (a19 : FVec Ideal S263x128 .f32) (a20 : FVec Ideal S128 .f32) (a21 : FVec Ideal S128x1 .f32) (a22 : FVec Ideal S1 .f32) (r : Fin 20000) (q : Fin 4) :
    T41 a0 a1 a2 a3 a4 a5 a6 a7 a8 a9 a10 (ix2 r q) = boxesR (paramsOf a1 a2 a3 a4 a5 a6 a7 a8 a9 a10 a11 a12 a13 a14 a15 a16 a17 a18 a19 a20 a21 a22) (rowOf a0 r) q := by
  unfold T41
  rw [tBoxes_apply, rowOf_Tz a0 a1 a2 a3 a4 a5 a6 a7 a8 a9 a10 a11 a12 a13 a14 a15 a16 a17 a18 a19 a20 a21 a22]
  rfl

private theorem T60_apply (a0 : FVec Ideal S20000x512 .f32) (a1 : FVec Ideal S512x256 .f32) (a2 a3 a4 : FVec Ideal S256 .f32) (a5 : FVec Ideal S256x256 .f32)
    (a6 : FVec Ideal S256 .f32) (a7 : FVec Ideal S256x128 .f32) (a8 : FVec Ideal S128 .f32) (a9 : FVec Ideal S128x4 .f32) (a10 : FVec Ideal S4 .f32)
    (a11 : FVec Ideal S256x128 .f32) (a12 : FVec Ideal S128 .f32) (a13 : FVec Ideal S128x2 .f32) (a14 : FVec Ideal S2 .f32)
    (a15 : FVec Ideal S256x128 .f32) (a16 : FVec Ideal S128 .f32) (a17 : FVec Ideal S128x1 .f32) (a18 : FVec Ideal S1 .f32)
    (a19 : FVec Ideal S263x128 .f32) (a20 : FVec Ideal S128 .f32) (a21 : FVec Ideal S128x1 .f32) (a22 : FVec Ideal S1 .f32) (r : Fin 20000) (q : Fin 2) :
    T60 a0 a1 a2 a3 a4 a5 a6 a11 a12 a13 a14 (ix2 r q) = scalesR (paramsOf a1 a2 a3 a4 a5 a6 a7 a8 a9 a10 a11 a12 a13 a14 a15 a16 a17 a18 a19 a20 a21 a22) (rowOf a0 r) q := by
  unfold T60
  rw [tScales_apply, rowOf_Tz a0 a1 a2 a3 a4 a5 a6 a7 a8 a9 a10 a11 a12 a13 a14 a15 a16 a17 a18 a19 a20 a21 a22]
  rfl

private theorem T75_apply (a0 : FVec Ideal S20000x512 .f32) (a1 : FVec Ideal S512x256 .f32) (a2 a3 a4 : FVec Ideal S256 .f32) (a5 : FVec Ideal S256x256 .f32)
    (a6 : FVec Ideal S256 .f32) (a7 : FVec Ideal S256x128 .f32) (a8 : FVec Ideal S128 .f32) (a9 : FVec Ideal S128x4 .f32) (a10 : FVec Ideal S4 .f32)
    (a11 : FVec Ideal S256x128 .f32) (a12 : FVec Ideal S128 .f32) (a13 : FVec Ideal S128x2 .f32) (a14 : FVec Ideal S2 .f32)
    (a15 : FVec Ideal S256x128 .f32) (a16 : FVec Ideal S128 .f32) (a17 : FVec Ideal S128x1 .f32) (a18 : FVec Ideal S1 .f32)
    (a19 : FVec Ideal S263x128 .f32) (a20 : FVec Ideal S128 .f32) (a21 : FVec Ideal S128x1 .f32) (a22 : FVec Ideal S1 .f32) (r : Fin 20000) (q : Fin 1) :
    T75 a0 a1 a2 a3 a4 a5 a6 a15 a16 a17 a18 (ix2 r q) = ctxR (paramsOf a1 a2 a3 a4 a5 a6 a7 a8 a9 a10 a11 a12 a13 a14 a15 a16 a17 a18 a19 a20 a21 a22) (rowOf a0 r) q := by
  unfold T75
  rw [tCtx_apply, rowOf_Tz a0 a1 a2 a3 a4 a5 a6 a7 a8 a9 a10 a11 a12 a13 a14 a15 a16 a17 a18 a19 a20 a21 a22]
  rfl

/-- The box result, entry by entry, is the row function of the features' row. -/
theorem T41_eq (a0 : FVec Ideal S20000x512 .f32) (a1 : FVec Ideal S512x256 .f32) (a2 a3 a4 : FVec Ideal S256 .f32) (a5 : FVec Ideal S256x256 .f32)
    (a6 : FVec Ideal S256 .f32) (a7 : FVec Ideal S256x128 .f32) (a8 : FVec Ideal S128 .f32) (a9 : FVec Ideal S128x4 .f32) (a10 : FVec Ideal S4 .f32)
    (a11 : FVec Ideal S256x128 .f32) (a12 : FVec Ideal S128 .f32) (a13 : FVec Ideal S128x2 .f32) (a14 : FVec Ideal S2 .f32)
    (a15 : FVec Ideal S256x128 .f32) (a16 : FVec Ideal S128 .f32) (a17 : FVec Ideal S128x1 .f32) (a18 : FVec Ideal S1 .f32)
    (a19 : FVec Ideal S263x128 .f32) (a20 : FVec Ideal S128 .f32) (a21 : FVec Ideal S128x1 .f32) (a22 : FVec Ideal S1 .f32) :
    T41 (F := Ideal) a0 a1 a2 a3 a4 a5 a6 a7 a8 a9 a10 = GR_boxes a0 a1 a2 a3 a4 a5 a6 a7 a8 a9 a10 a11 a12 a13 a14 a15 a16 a17 a18 a19 a20 a21 a22 := by
  funext i
  obtain ⟨r, q, rfl⟩ : ∃ (r : Fin 20000) (q : Fin 4), i = ix2 r q := ⟨i 0, i 1, eq_ix2 i⟩
  exact T41_apply a0 a1 a2 a3 a4 a5 a6 a7 a8 a9 a10 a11 a12 a13 a14 a15 a16 a17 a18 a19 a20 a21 a22 r q

theorem T60_eq (a0 : FVec Ideal S20000x512 .f32) (a1 : FVec Ideal S512x256 .f32) (a2 a3 a4 : FVec Ideal S256 .f32) (a5 : FVec Ideal S256x256 .f32)
    (a6 : FVec Ideal S256 .f32) (a7 : FVec Ideal S256x128 .f32) (a8 : FVec Ideal S128 .f32) (a9 : FVec Ideal S128x4 .f32) (a10 : FVec Ideal S4 .f32)
    (a11 : FVec Ideal S256x128 .f32) (a12 : FVec Ideal S128 .f32) (a13 : FVec Ideal S128x2 .f32) (a14 : FVec Ideal S2 .f32)
    (a15 : FVec Ideal S256x128 .f32) (a16 : FVec Ideal S128 .f32) (a17 : FVec Ideal S128x1 .f32) (a18 : FVec Ideal S1 .f32)
    (a19 : FVec Ideal S263x128 .f32) (a20 : FVec Ideal S128 .f32) (a21 : FVec Ideal S128x1 .f32) (a22 : FVec Ideal S1 .f32) :
    T60 (F := Ideal) a0 a1 a2 a3 a4 a5 a6 a11 a12 a13 a14 = GR_scales a0 a1 a2 a3 a4 a5 a6 a7 a8 a9 a10 a11 a12 a13 a14 a15 a16 a17 a18 a19 a20 a21 a22 := by
  funext i
  obtain ⟨r, q, rfl⟩ : ∃ (r : Fin 20000) (q : Fin 2), i = ix2 r q := ⟨i 0, i 1, eq_ix2 i⟩
  exact T60_apply a0 a1 a2 a3 a4 a5 a6 a7 a8 a9 a10 a11 a12 a13 a14 a15 a16 a17 a18 a19 a20 a21 a22 r q

theorem T75_eq (a0 : FVec Ideal S20000x512 .f32) (a1 : FVec Ideal S512x256 .f32) (a2 a3 a4 : FVec Ideal S256 .f32) (a5 : FVec Ideal S256x256 .f32)
    (a6 : FVec Ideal S256 .f32) (a7 : FVec Ideal S256x128 .f32) (a8 : FVec Ideal S128 .f32) (a9 : FVec Ideal S128x4 .f32) (a10 : FVec Ideal S4 .f32)
    (a11 : FVec Ideal S256x128 .f32) (a12 : FVec Ideal S128 .f32) (a13 : FVec Ideal S128x2 .f32) (a14 : FVec Ideal S2 .f32)
    (a15 : FVec Ideal S256x128 .f32) (a16 : FVec Ideal S128 .f32) (a17 : FVec Ideal S128x1 .f32) (a18 : FVec Ideal S1 .f32)
    (a19 : FVec Ideal S263x128 .f32) (a20 : FVec Ideal S128 .f32) (a21 : FVec Ideal S128x1 .f32) (a22 : FVec Ideal S1 .f32) :
    T75 (F := Ideal) a0 a1 a2 a3 a4 a5 a6 a15 a16 a17 a18 = GR_ctx a0 a1 a2 a3 a4 a5 a6 a7 a8 a9 a10 a11 a12 a13 a14 a15 a16 a17 a18 a19 a20 a21 a22 := by
  funext i
  obtain ⟨r, q, rfl⟩ : ∃ (r : Fin 20000) (q : Fin 1), i = ix2 r q := ⟨i 0, i 1, eq_ix2 i⟩
  exact T75_apply a0 a1 a2 a3 a4 a5 a6 a7 a8 a9 a10 a11 a12 a13 a14 a15 a16 a17 a18 a19 a20 a21 a22 r q

theorem T92_eq (a0 : FVec Ideal S20000x512 .f32) (a1 : FVec Ideal S512x256 .f32) (a2 a3 a4 : FVec Ideal S256 .f32) (a5 : FVec Ideal S256x256 .f32)
    (a6 : FVec Ideal S256 .f32) (a7 : FVec Ideal S256x128 .f32) (a8 : FVec Ideal S128 .f32) (a9 : FVec Ideal S128x4 .f32) (a10 : FVec Ideal S4 .f32)
    (a11 : FVec Ideal S256x128 .f32) (a12 : FVec Ideal S128 .f32) (a13 : FVec Ideal S128x2 .f32) (a14 : FVec Ideal S2 .f32)
    (a15 : FVec Ideal S256x128 .f32) (a16 : FVec Ideal S128 .f32) (a17 : FVec Ideal S128x1 .f32) (a18 : FVec Ideal S1 .f32)
    (a19 : FVec Ideal S263x128 .f32) (a20 : FVec Ideal S128 .f32) (a21 : FVec Ideal S128x1 .f32) (a22 : FVec Ideal S1 .f32) :
    T92 (F := Ideal) a0 a1 a2 a3 a4 a5 a6 a7 a8 a9 a10 a11 a12 a13 a14 a15 a16 a17 a18 a19 a20 a21 a22 = GR_conf a0 a1 a2 a3 a4 a5 a6 a7 a8 a9 a10 a11 a12 a13 a14 a15 a16 a17 a18 a19 a20 a21 a22 := by
  funext i
  obtain ⟨r, q, rfl⟩ : ∃ (r : Fin 20000) (q : Fin 1), i = ix2 r q := ⟨i 0, i 1, eq_ix2 i⟩
  obtain rfl : q = 0 := Subsingleton.elim _ _
  unfold T92
  rw [tConf_apply, rowOf_Tz a0 a1 a2 a3 a4 a5 a6 a7 a8 a9 a10 a11 a12 a13 a14 a15 a16 a17 a18 a19 a20 a21 a22]
  have hb : rowOf (T41 a0 a1 a2 a3 a4 a5 a6 a7 a8 a9 a10) r = boxesR (paramsOf a1 a2 a3 a4 a5 a6 a7 a8 a9 a10 a11 a12 a13 a14 a15 a16 a17 a18 a19 a20 a21 a22) (rowOf a0 r) :=
    funext fun k => T41_apply a0 a1 a2 a3 a4 a5 a6 a7 a8 a9 a10 a11 a12 a13 a14 a15 a16 a17 a18 a19 a20 a21 a22 r k
  have hs : rowOf (T60 a0 a1 a2 a3 a4 a5 a6 a11 a12 a13 a14) r = scalesR (paramsOf a1 a2 a3 a4 a5 a6 a7 a8 a9 a10 a11 a12 a13 a14 a15 a16 a17 a18 a19 a20 a21 a22) (rowOf a0 r) :=
    funext fun k => T60_apply a0 a1 a2 a3 a4 a5 a6 a7 a8 a9 a10 a11 a12 a13 a14 a15 a16 a17 a18 a19 a20 a21 a22 r k
  have hx : rowOf (T75 a0 a1 a2 a3 a4 a5 a6 a15 a16 a17 a18) r = ctxR (paramsOf a1 a2 a3 a4 a5 a6 a7 a8 a9 a10 a11 a12 a13 a14 a15 a16 a17 a18 a19 a20 a21 a22) (rowOf a0 r) :=
    funext fun k => T75_apply a0 a1 a2 a3 a4 a5 a6 a7 a8 a9 a10 a11 a12 a13 a14 a15 a16 a17 a18 a19 a20 a21 a22 r k
  rw [hb, hs, hx]
  rfl

end Cert.ReferenceIdeal.Row

end
-- ==== Proof.RefWhole.lean ====
/-
  The second program's run, with its four results stated entry by entry through the row functions: the operation
  list's value at each result buffer is the stage term of the arguments, and each stage term read at an index is the
  row function of the features' row.
-/
import proofs.«161107_g884763263511_cont_9to1_m_545_23_alg».proof.Proof.RefRun
import proofs.«161107_g884763263511_cont_9to1_m_545_23_alg».proof.Proof.RefStages
import proofs.«161107_g884763263511_cont_9to1_m_545_23_alg».proof.Proof.RefRow
import proofs.«161107_g884763263511_cont_9to1_m_545_23_alg».proof.Proof.HeadRow

noncomputable section

namespace Cert.ReferenceIdeal.Whole

open Cert.ReferenceIdeal Cert.ReferenceIdeal.Gen Idealize.ShloMosaic Idealize.ShloMosaic.TcCoe Idealize.SL.Sem
open Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41) = HeadRow.GR_boxes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_v60) = HeadRow.GR_scales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_v75) = HeadRow.GR_ctx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_v92) = HeadRow.GR_conf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run (defs (F := Ideal)) _ _).mono (fun r h c =>
    ⟨(h c main_v41).trans ((Hand.after_v41 _).trans (Row.T41_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))),
      (h c main_v60).trans ((Hand.after_v60 _).trans (Row.T60_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))),
      (h c main_v75).trans ((Hand.after_v75 _).trans (Row.T75_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))),
      (h c main_v92).trans ((Hand.after_v92 _).trans (Row.T92_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))),
      (h c main_arg0).trans (Hand.after_arg0 _),
      (h c main_arg1).trans (Hand.after_arg1 _),
      (h c main_arg2).trans (Hand.after_arg2 _),
      (h c main_arg3).trans (Hand.after_arg3 _),
      (h c main_arg4).trans (Hand.after_arg4 _),
      (h c main_arg5).trans (Hand.after_arg5 _),
      (h c main_arg6).trans (Hand.after_arg6 _),
      (h c main_arg7).trans (Hand.after_arg7 _),
      (h c main_arg8).trans (Hand.after_arg8 _),
      (h c main_arg9).trans (Hand.after_arg9 _),
      (h c main_arg10).trans (Hand.after_arg10 _),
      (h c main_arg11).trans (Hand.after_arg11 _),
      (h c main_arg12).trans (Hand.after_arg12 _),
      (h c main_arg13).trans (Hand.after_arg13 _),
      (h c main_arg14).trans (Hand.after_arg14 _),
      (h c main_arg15).trans (Hand.after_arg15 _),
      (h c main_arg16).trans (Hand.after_arg16 _),
      (h c main_arg17).trans (Hand.after_arg17 _),
      (h c main_arg18).trans (Hand.after_arg18 _),
      (h c main_arg19).trans (Hand.after_arg19 _),
      (h c main_arg20).trans (Hand.after_arg20 _),
      (h c main_arg21).trans (Hand.after_arg21 _),
      (h c main_arg22).trans (Hand.after_arg22 _)⟩)
    (Hand.run_main (F := Ideal) m ρ)

end Cert.ReferenceIdeal.Whole

end
-- ==== Proof.HeadAlgebra.lean ====
import proofs.«161107_g884763263511_cont_9to1_m_545_23_alg».proof.Proof.HeadRow
import Mathlib.Algebra.BigOperators.Fin
import Mathlib.Tactic.NormNum
import Mathlib.Tactic.Ring
import Mathlib.Tactic.Linarith

/-
  One row of the detection head: the first program's spelling equals the second program's on a real features row
  with a real first matrix and first bias (and, for the confidence, a real confidence matrix).

  The first layer's output is then a row of real numbers, so the mean and both variances are real numbers; the two
  variance formulas agree over the reals and are not negative, so the number under the root is a positive real and
  multiplying by the reciprocal root is dividing by the root.  From there on both programs compute the same trunk.
  The three small heads only read the packed seven at fixed places.  For the confidence the sum over the 263 inputs
  splits into the first 256 and the last seven; the seven logistic values are always real, so with real rows
  256..262 the stretch and the shift of the two scales move from the inputs to the rows and the bias by
  distributivity over the reals, and the 256-term sum and the bias only change places in a sum.
-/

noncomputable section

namespace HeadRow

open Idealize.ShloMosaic

/-! ## The constants

Of the six printed words only four matter here: 256 is the real number 256, the small constant under the root is a
positive real, and the span and the least size are real numbers. -/

private theorem c256_eq : c256 = ((256 : ℝ) : EReal) := by
  simp [Ideal.ofBits, Ideal.ieee, -EReal.coe_mul]; norm_num

private theorem ceps_pos : ∃ e : ℝ, 0 < e ∧ ceps = (e : EReal) := by
  simp only [ceps, Ideal.ofBits, Ideal.ieee]
  simp [-EReal.coe_mul]

private theorem cspan_real : IsReal cspan := by
  simp only [cspan, Ideal.ofBits, Ideal.ieee]
  simp [-EReal.coe_mul]
  exact ⟨_, rfl⟩

private theorem cmin_real : IsReal cmin := by
  simp only [cmin, Ideal.ofBits, Ideal.ieee]
  simp [-EReal.coe_mul]
  exact ⟨_, rfl⟩

/-! ## Real numbers inside the extended reals -/

/-- The inclusion of the reals carries a finite sum to the sum of the inclusions (induction on the index set). -/
private theorem coe_sum {ι : Type} (s : Finset ι) (a : ι → ℝ) :
    ((∑ i ∈ s, a i : ℝ) : EReal) = ∑ i ∈ s, (a i : EReal) := by
  classical
  refine Finset.induction_on s (by simp) ?_
  intro i t hi ih
  rw [Finset.sum_insert hi, Finset.sum_insert hi, EReal.coe_add, ih]

/-- The logistic function takes real values everywhere: 0 at the bottom, 1 at the top, 1 / (1 + e^(-r)) at a real r. -/
private theorem logistic_real (x : EReal) : IsReal (Ideal.logistic x) := by
  induction x using EReal.rec
  · exact ⟨0, by simp⟩
  · exact ⟨_, by rw [Ideal.logistic_coe]⟩
  · exact ⟨1, by simp⟩

/-- The first layer of a real row through a real matrix and a real bias is real: a finite sum of products of reals
plus a real. -/
private theorem x1_real (C : Common) (f : Fin 512 → EReal) (hf : ∀ k, IsReal (f k))
    (hW : ∀ k j, IsReal (C.W1 k j)) (hb : ∀ j, IsReal (C.b1 j)) :
    ∃ r : Fin 256 → ℝ, ∀ j, x1 C f j = (r j : EReal) := by
  choose fr hfr using hf
  choose Wr hWr using hW
  choose br hbr using hb
  refine ⟨fun j => (∑ k, fr k * Wr k j) + br j, fun j => ?_⟩
  simp only [x1, lin, hfr, hWr, hbr]
  rw [EReal.coe_add, coe_sum]
  simp only [EReal.coe_mul]

/-! ## The layer normalisation -/

/-- Over the reals the mean of the squares less the squared mean is the mean of the squared distances from the
mean: expand the square and use that the sum is 256 times the mean. -/
private theorem var_real (r : Fin 256 → ℝ) (m : ℝ) (hm : m = (∑ j, r j) * (1 / 256)) :
    (∑ j, r j * r j) * (1 / 256) - m * m = (∑ j, (r j - m) * (r j - m)) * (1 / 256) := by
  have h1 : ∀ j, (r j - m) * (r j - m) = r j * r j - 2 * m * r j + m * m := fun j => by ring
  have hS : ∑ j, r j = 256 * m := by rw [hm]; ring
  simp only [h1, Finset.sum_add_distrib, Finset.sum_sub_distrib, ← Finset.mul_sum, Finset.sum_const,
    Finset.card_univ, Fintype.card_fin, nsmul_eq_mul]
  rw [hS]; push_cast; ring

/-- On a real row the two spellings of the normalisation agree: both variances are the same real number, not
negative, so the number under the root is a positive real s, and times 1/√s is the same as divided by √s. -/
private theorem norm_eq (g be x : Fin 256 → EReal) (r : Fin 256 → ℝ) (hx : ∀ j, x j = (r j : EReal)) :
    normK g be x = normR g be x := by
  obtain ⟨e, he, hce⟩ := ceps_pos
  obtain ⟨m, hm⟩ : ∃ m : ℝ, m = (∑ j, r j) * (1 / 256) := ⟨_, rfl⟩
  have h256 : (256 : ℝ) ≠ 0 := by norm_num
  have hmean : mean x = (m : EReal) := by
    rw [mean, c256_eq, Ideal.div_coe h256, hm]
    simp only [hx]
    rw [← coe_sum, ← EReal.coe_mul]
  have hvR : varR x = (((∑ j, (r j - m) * (r j - m)) * (1 / 256) : ℝ) : EReal) := by
    rw [varR, c256_eq, Ideal.div_coe h256, hmean]
    simp only [hx, ← EReal.coe_sub, ← EReal.coe_mul]
    rw [← coe_sum, ← EReal.coe_mul]
  have hvK : varK x = (((∑ j, r j * r j) * (1 / 256) - m * m : ℝ) : EReal) := by
    rw [varK, c256_eq, Ideal.div_coe h256, hmean]
    simp only [hx, ← EReal.coe_mul]
    rw [← coe_sum, ← EReal.coe_mul, ← EReal.coe_sub]
  have hnn : 0 ≤ (∑ j, (r j - m) * (r j - m)) * (1 / 256) :=
    mul_nonneg (Finset.sum_nonneg fun j _ => mul_self_nonneg _) (by norm_num)
  obtain ⟨s, hs⟩ : ∃ s : ℝ, s = (∑ j, (r j - m) * (r j - m)) * (1 / 256) + e := ⟨_, rfl⟩
  have hspos : 0 < s := by rw [hs]; linarith
  have hK : varK x + ceps = (s : EReal) := by rw [hvK, var_real r m hm, hce, ← EReal.coe_add, hs]
  have hR : varR x + ceps = (s : EReal) := by rw [hvR, hce, ← EReal.coe_add, hs]
  funext j
  simp only [normK, normR]
  rw [hK, hR, hmean, hx, Ideal.rsqrt_coe, Ideal.sqrt_coe, if_neg (not_lt.mpr hspos.le), if_neg hspos.ne',
    if_neg (not_lt.mpr hspos.le), Ideal.div_coe (Real.sqrt_pos.mpr hspos).ne', one_div]

/-- The trunk's output is the same in both spellings on a real row with a real first layer. -/
private theorem z_eq (C : Common) (f : Fin 512 → EReal) (hf : ∀ k, IsReal (f k))
    (hW : ∀ k j, IsReal (C.W1 k j)) (hb : ∀ j, IsReal (C.b1 j)) : zK C f = zR C f := by
  obtain ⟨r, hr⟩ := x1_real C f hf hW hb
  rw [zK, zR, norm_eq C.g C.be (x1 C f) r hr]

/-! ## Reading the packed seven -/

/-- The packed seven read at its first four places, at places 4 and 5, and at place 6. -/
private theorem cat7_lo (a : Fin 4 → EReal) (b : Fin 2 → EReal) (c : Fin 1 → EReal) (q : Fin 4) :
    cat7 a b c ⟨q.val, by have := q.isLt; omega⟩ = a q := by
  unfold cat7
  rw [dif_pos (show q.val < 4 from q.isLt)]

private theorem cat7_mid (a : Fin 4 → EReal) (b : Fin 2 → EReal) (c : Fin 1 → EReal) (q : Fin 2) :
    cat7 a b c ⟨q.val + 4, by have := q.isLt; omega⟩ = b q := by
  unfold cat7
  rw [dif_neg (show ¬ q.val + 4 < 4 by omega), dif_pos (show q.val + 4 < 6 by have := q.isLt; omega)]
  congr 1

private theorem cat7_hi (a : Fin 4 → EReal) (b : Fin 2 → EReal) (c : Fin 1 → EReal) :
    cat7 a b c 6 = c 0 := rfl

/-! ## The confidence head's first layer -/

/-- The 263 inputs read at the first 256 places and at the last seven. -/
private theorem cat263_lo (z : Fin 256 → EReal) (u : Fin 7 → EReal) (k : Fin 256) :
    cat263 z u (Fin.castAdd 7 k) = z k := by
  unfold cat263
  rw [dif_pos (show (Fin.castAdd 7 k).val < 256 from k.isLt)]
  rfl

private theorem cat263_hi (z : Fin 256 → EReal) (u : Fin 7 → EReal) (i : Fin 7) :
    cat263 z u (Fin.natAdd 256 i) = u i := by
  unfold cat263
  rw [dif_neg (show ¬ (Fin.natAdd 256 i).val < 256 by simp)]
  congr 1
  ext
  simp

/-- The sum over the 263 inputs is the sum over the first 256 against rows 0..255 plus the sum over the last seven
against rows 256..262. -/
private theorem sum263 (P : Params) (z : Fin 256 → EReal) (u : Fin 7 → EReal) (j : Fin 128) :
    ∑ k : Fin 263, cat263 z u k * P.fW1 k j
      = (∑ k : Fin 256, z k * P.toK.fLo k j) + ∑ i : Fin 7, u i * P.toK.fHi i j := by
  have h := Fin.sum_univ_add (a := 256) (b := 7) (fun k : Fin (256 + 7) => cat263 z u k * P.fW1 k j)
  refine h.trans (congrArg₂ (· + ·) (Finset.sum_congr rfl fun k _ => ?_) (Finset.sum_congr rfl fun i _ => ?_))
  · rw [cat263_lo]; rfl
  · rw [cat263_hi]; rfl

/-- The seven products of the first program, one by one. -/
private theorem sumK (C : Common) (z : Fin 256 → EReal) (H : Fin 7 → Fin 128 → EReal) (j : Fin 128) :
    ∑ i : Fin 7, sig7 C z i * fHiS H i j
      = Ideal.logistic (preL C z 0) * H 0 j + Ideal.logistic (preL C z 1) * H 1 j
        + Ideal.logistic (preL C z 2) * H 2 j + Ideal.logistic (preL C z 3) * H 3 j
        + Ideal.logistic (preS C z 0) * (H 4 j * cspan) + Ideal.logistic (preS C z 1) * (H 5 j * cspan)
        + Ideal.logistic (preC C z 0) * H 6 j := by
  rw [Fin.sum_univ_seven]; rfl

/-- The seven products of the second program, one by one. -/
private theorem sumR (C : Common) (z : Fin 256 → EReal) (H : Fin 7 → Fin 128 → EReal) (j : Fin 128) :
    ∑ i : Fin 7, cat7 (boxesZ C z) (scalesZ C z) (ctxZ C z) i * H i j
      = Ideal.logistic (preL C z 0) * H 0 j + Ideal.logistic (preL C z 1) * H 1 j
        + Ideal.logistic (preL C z 2) * H 2 j + Ideal.logistic (preL C z 3) * H 3 j
        + (Ideal.logistic (preS C z 0) * cspan + cmin) * H 4 j
        + (Ideal.logistic (preS C z 1) * cspan + cmin) * H 5 j
        + Ideal.logistic (preC C z 0) * H 6 j := by
  rw [Fin.sum_univ_seven]; rfl

/-- Over the reals, stretching the two scale inputs and moving them by the least size is the same as stretching
their two rows and adding least size times the two rows. -/
private theorem seven (s0 s1 s2 s3 s4 s5 s6 h0 h1 h2 h3 h4 h5 h6 sp mn : ℝ) :
    (s0 : EReal) * h0 + (s1 : EReal) * h1 + (s2 : EReal) * h2 + (s3 : EReal) * h3
        + ((s4 : EReal) * sp + mn) * h4 + ((s5 : EReal) * sp + mn) * h5 + (s6 : EReal) * h6
      = ((s0 : EReal) * h0 + (s1 : EReal) * h1 + (s2 : EReal) * h2 + (s3 : EReal) * h3
          + (s4 : EReal) * ((h4 : EReal) * sp) + (s5 : EReal) * ((h5 : EReal) * sp) + (s6 : EReal) * h6)
        + (mn : EReal) * ((h4 : EReal) + h5) := by
  simp only [← EReal.coe_mul, ← EReal.coe_add]
  congr 1; ring

/-- The hidden layer of the confidence head is the same in both spellings when rows 256..262 are real: the seven
logistic values are always real, so the seven-term identity above applies, and the 256-term sum and the bias only
move inside a sum of four terms. -/
private theorem hid_eq (P : Params) (hF : ∀ k j, IsReal (P.fW1 k j)) (z : Fin 256 → EReal) (j : Fin 128) :
    hidK P.toK.fLo P.toK.fHi P.toK.fb1 z (sig7 P.toCommon z) j
      = relu (lin P.fW1 P.fb1
          (cat263 z (cat7 (boxesZ P.toCommon z) (scalesZ P.toCommon z) (ctxZ P.toCommon z)))) j := by
  have hH : ∀ i, IsReal (P.toK.fHi i j) := fun i => hF _ _
  have hB : ∑ i : Fin 7, cat7 (boxesZ P.toCommon z) (scalesZ P.toCommon z) (ctxZ P.toCommon z) i * P.toK.fHi i j
      = (∑ i : Fin 7, sig7 P.toCommon z i * fHiS P.toK.fHi i j)
        + cmin * (P.toK.fHi 4 j + P.toK.fHi 5 j) := by
    obtain ⟨s0, e0⟩ := logistic_real (preL P.toCommon z 0)
    obtain ⟨s1, e1⟩ := logistic_real (preL P.toCommon z 1)
    obtain ⟨s2, e2⟩ := logistic_real (preL P.toCommon z 2)
    obtain ⟨s3, e3⟩ := logistic_real (preL P.toCommon z 3)
    obtain ⟨s4, e4⟩ := logistic_real (preS P.toCommon z 0)
    obtain ⟨s5, e5⟩ := logistic_real (preS P.toCommon z 1)
    obtain ⟨s6, e6⟩ := logistic_real (preC P.toCommon z 0)
    obtain ⟨h0, g0⟩ := hH 0
    obtain ⟨h1, g1⟩ := hH 1
    obtain ⟨h2, g2⟩ := hH 2
    obtain ⟨h3, g3⟩ := hH 3
    obtain ⟨h4, g4⟩ := hH 4
    obtain ⟨h5, g5⟩ := hH 5
    obtain ⟨h6, g6⟩ := hH 6
    obtain ⟨sp, esp⟩ := cspan_real
    obtain ⟨mn, emn⟩ := cmin_real
    rw [sumK, sumR, e0, e1, e2, e3, e4, e5, e6, g0, g1, g2, g3, g4, g5, g6, esp, emn]
    exact seven s0 s1 s2 s3 s4 s5 s6 h0 h1 h2 h3 h4 h5 h6 sp mn
  unfold hidK relu lin
  rw [sum263, hB]
  congr 1
  show _ = _ + P.toK.fb1 j
  rw [add_assoc, add_assoc, add_assoc, add_comm (P.toK.fb1 j)]

/-! ## The four results -/

/-- On a row whose first layer is finite the two spellings of the box numbers agree. -/
theorem boxes_eq (P : Params) (f : Fin 512 → EReal) (hf : ∀ k, IsReal (f k)) (hW : ∀ k j, IsReal (P.W1 k j))
    (hb : ∀ j, IsReal (P.b1 j)) (q : Fin 4) : boxesK P.toCommon f q = boxesR P f q := by
  rw [boxesK, boxesR, z_eq P.toCommon f hf hW hb, boxesZ, sig7, cat7_lo]

theorem scales_eq (P : Params) (f : Fin 512 → EReal) (hf : ∀ k, IsReal (f k)) (hW : ∀ k j, IsReal (P.W1 k j))
    (hb : ∀ j, IsReal (P.b1 j)) (q : Fin 2) : scalesK P.toCommon f q = scalesR P f q := by
  rw [scalesK, scalesR, z_eq P.toCommon f hf hW hb, scalesZ, sig7, cat7_mid]

theorem ctx_eq (P : Params) (f : Fin 512 → EReal) (hf : ∀ k, IsReal (f k)) (hW : ∀ k j, IsReal (P.W1 k j))
    (hb : ∀ j, IsReal (P.b1 j)) (q : Fin 1) : ctxK P.toCommon f q = ctxR P f q := by
  rw [ctxK, ctxR, z_eq P.toCommon f hf hW hb, ctxZ, sig7, cat7_hi, Subsingleton.elim q 0]

theorem conf_eq (P : Params) (f : Fin 512 → EReal) (hf : ∀ k, IsReal (f k)) (hW : ∀ k j, IsReal (P.W1 k j))
    (hb : ∀ j, IsReal (P.b1 j)) (hF : ∀ k j, IsReal (P.fW1 k j)) (q : Fin 1) : confK P.toK f q = confR P f q := by
  have hz : zK P.toK.toCommon f = zR P.toCommon f := z_eq P.toCommon f hf hW hb
  have hh := hid_eq P hF (zR P.toCommon f)
  unfold confK confR confZ
  rw [hz]
  show Ideal.logistic ((∑ k : Fin 128, hidK P.toK.fLo P.toK.fHi P.toK.fb1 (zR P.toCommon f)
      (sig7 P.toCommon (zR P.toCommon f)) k * P.fW2 k 0) + P.fb2 0) = _
  simp only [hh]
  rfl

end HeadRow

end
-- ==== Proof.HeadWhole.lean ====
/-
  The two spellings of the four result arrays agree wherever the features, the first matrix, the first bias and
  (for the confidence) the confidence head's first matrix hold real numbers: entry (r, q) of each array is the row
  function of row r, and the row functions agree on such rows.
-/
import proofs.«161107_g884763263511_cont_9to1_m_545_23_alg».proof.Proof.HeadAlgebra

noncomputable section

namespace HeadRow

open Idealize.ShloMosaic Idealize.ShloMosaic.ValueIdx

section
variable (a0 : Arr2 20000 512) (a1 : Arr2 512 256) (a2 a3 a4 : Arr1 256) (a5 : Arr2 256 256) (a6 : Arr1 256)
    (a7 : Arr2 256 128) (a8 : Arr1 128) (a9 : Arr2 128 4) (a10 : Arr1 4)
    (a11 : Arr2 256 128) (a12 : Arr1 128) (a13 : Arr2 128 2) (a14 : Arr1 2)
    (a15 : Arr2 256 128) (a16 : Arr1 128) (a17 : Arr2 128 1) (a18 : Arr1 1)
    (a19 : Arr2 263 128) (a20 : Arr1 128) (a21 : Arr2 128 1) (a22 : Arr1 1)

theorem GK_boxes_eq (h0 : ∀ i, IsReal (a0 i)) (h1 : ∀ i, IsReal (a1 i)) (h2 : ∀ i, IsReal (a2 i)) :
    GK_boxes a0 a1 a2 a3 a4 a5 a6 a7 a8 a9 a10 a11 a12 a13 a14 a15 a16 a17 a18 a19 a20 a21 a22 = GR_boxes a0 a1 a2 a3 a4 a5 a6 a7 a8 a9 a10 a11 a12 a13 a14 a15 a16 a17 a18 a19 a20 a21 a22 := by
  funext i
  exact boxes_eq (paramsOf a1 a2 a3 a4 a5 a6 a7 a8 a9 a10 a11 a12 a13 a14 a15 a16 a17 a18 a19 a20 a21 a22) (rowOf a0 (i 0)) (fun _ => h0 _) (fun _ _ => h1 _) (fun _ => h2 _) (i 1)

theorem GK_scales_eq (h0 : ∀ i, IsReal (a0 i)) (h1 : ∀ i, IsReal (a1 i)) (h2 : ∀ i, IsReal (a2 i)) :
    GK_scales a0 a1 a2 a3 a4 a5 a6 a7 a8 a9 a10 a11 a12 a13 a14 a15 a16 a17 a18 a19 a20 a21 a22 = GR_scales a0 a1 a2 a3 a4 a5 a6 a7 a8 a9 a10 a11 a12 a13 a14 a15 a16 a17 a18 a19 a20 a21 a22 := by
  funext i
  exact scales_eq (paramsOf a1 a2 a3 a4 a5 a6 a7 a8 a9 a10 a11 a12 a13 a14 a15 a16 a17 a18 a19 a20 a21 a22) (rowOf a0 (i 0)) (fun _ => h0 _) (fun _ _ => h1 _) (fun _ => h2 _) (i 1)

theorem GK_ctx_eq (h0 : ∀ i, IsReal (a0 i)) (h1 : ∀ i, IsReal (a1 i)) (h2 : ∀ i, IsReal (a2 i)) :
    GK_ctx a0 a1 a2 a3 a4 a5 a6 a7 a8 a9 a10 a11 a12 a13 a14 a15 a16 a17 a18 a19 a20 a21 a22 = GR_ctx a0 a1 a2 a3 a4 a5 a6 a7 a8 a9 a10 a11 a12 a13 a14 a15 a16 a17 a18 a19 a20 a21 a22 := by
  funext i
  exact ctx_eq (paramsOf a1 a2 a3 a4 a5 a6 a7 a8 a9 a10 a11 a12 a13 a14 a15 a16 a17 a18 a19 a20 a21 a22) (rowOf a0 (i 0)) (fun _ => h0 _) (fun _ _ => h1 _) (fun _ => h2 _) (i 1)

theorem GK_conf_eq (h0 : ∀ i, IsReal (a0 i)) (h1 : ∀ i, IsReal (a1 i)) (h2 : ∀ i, IsReal (a2 i))
    (h19 : ∀ i, IsReal (a19 i)) :
    GK_conf a0 a1 a2 a3 a4 a5 a6 a7 a8 a9 a10 a11 a12 a13 a14 a15 a16 a17 a18 a19 a20 a21 a22 = GR_conf a0 a1 a2 a3 a4 a5 a6 a7 a8 a9 a10 a11 a12 a13 a14 a15 a16 a17 a18 a19 a20 a21 a22 := by
  funext i
  exact conf_eq (paramsOf a1 a2 a3 a4 a5 a6 a7 a8 a9 a10 a11 a12 a13 a14 a15 a16 a17 a18 a19 a20 a21 a22) (rowOf a0 (i 0)) (fun _ => h0 _) (fun _ _ => h1 _) (fun _ => h2 _) (fun _ _ => h19 _) (i 1)

end

/-! ## The same, from arrays that agree: what the second program computes from its own copies of the arguments -/

section
variable (a0 : Arr2 20000 512) (a1 : Arr2 512 256) (a2 a3 a4 : Arr1 256) (a5 : Arr2 256 256) (a6 : Arr1 256)
    (a7 : Arr2 256 128) (a8 : Arr1 128) (a9 : Arr2 128 4) (a10 : Arr1 4)
    (a11 : Arr2 256 128) (a12 : Arr1 128) (a13 : Arr2 128 2) (a14 : Arr1 2)
    (a15 : Arr2 256 128) (a16 : Arr1 128) (a17 : Arr2 128 1) (a18 : Arr1 1)
    (a19 : Arr2 263 128) (a20 : Arr1 128) (a21 : Arr2 128 1) (a22 : Arr1 1)
  (b0 : Arr2 20000 512) (b1 : Arr2 512 256) (b2 b3 b4 : Arr1 256) (b5 : Arr2 256 256) (b6 : Arr1 256)
    (b7 : Arr2 256 128) (b8 : Arr1 128) (b9 : Arr2 128 4) (b10 : Arr1 4)
    (b11 : Arr2 256 128) (b12 : Arr1 128) (b13 : Arr2 128 2) (b14 : Arr1 2)
    (b15 : Arr2 256 128) (b16 : Arr1 128) (b17 : Arr2 128 1) (b18 : Arr1 1)
    (b19 : Arr2 263 128) (b20 : Arr1 128) (b21 : Arr2 128 1) (b22 : Arr1 1)

theorem GR_boxes_of_agree (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (e14 : b14 = a14) (e15 : b15 = a15) (e16 : b16 = a16) (e17 : b17 = a17) (e18 : b18 = a18) (e19 : b19 = a19) (e20 : b20 = a20) (e21 : b21 = a21) (e22 : b22 = a22)
    (h0 : ∀ i, IsReal (a0 i)) (h1 : ∀ i, IsReal (a1 i)) (h2 : ∀ i, IsReal (a2 i)) :
    GR_boxes b0 b1 b2 b3 b4 b5 b6 b7 b8 b9 b10 b11 b12 b13 b14 b15 b16 b17 b18 b19 b20 b21 b22 = GK_boxes a0 a1 a2 a3 a4 a5 a6 a7 a8 a9 a10 a11 a12 a13 a14 a15 a16 a17 a18 a19 a20 a21 a22 := by
  subst e0; subst e1; subst e2; subst e3; subst e4; subst e5; subst e6; subst e7; subst e8; subst e9; subst e10; subst e11; subst e12; subst e13; subst e14; subst e15; subst e16; subst e17; subst e18; subst e19; subst e20; subst e21; subst e22
  exact (GK_boxes_eq b0 b1 b2 b3 b4 b5 b6 b7 b8 b9 b10 b11 b12 b13 b14 b15 b16 b17 b18 b19 b20 b21 b22 h0 h1 h2).symm

theorem GR_scales_of_agree (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (e14 : b14 = a14) (e15 : b15 = a15) (e16 : b16 = a16) (e17 : b17 = a17) (e18 : b18 = a18) (e19 : b19 = a19) (e20 : b20 = a20) (e21 : b21 = a21) (e22 : b22 = a22)
    (h0 : ∀ i, IsReal (a0 i)) (h1 : ∀ i, IsReal (a1 i)) (h2 : ∀ i, IsReal (a2 i)) :
    GR_scales b0 b1 b2 b3 b4 b5 b6 b7 b8 b9 b10 b11 b12 b13 b14 b15 b16 b17 b18 b19 b20 b21 b22 = GK_scales a0 a1 a2 a3 a4 a5 a6 a7 a8 a9 a10 a11 a12 a13 a14 a15 a16 a17 a18 a19 a20 a21 a22 := by
  subst e0; subst e1; subst e2; subst e3; subst e4; subst e5; subst e6; subst e7; subst e8; subst e9; subst e10; subst e11; subst e12; subst e13; subst e14; subst e15; subst e16; subst e17; subst e18; subst e19; subst e20; subst e21; subst e22
  exact (GK_scales_eq b0 b1 b2 b3 b4 b5 b6 b7 b8 b9 b10 b11 b12 b13 b14 b15 b16 b17 b18 b19 b20 b21 b22 h0 h1 h2).symm

theorem GR_ctx_of_agree (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (e14 : b14 = a14) (e15 : b15 = a15) (e16 : b16 = a16) (e17 : b17 = a17) (e18 : b18 = a18) (e19 : b19 = a19) (e20 : b20 = a20) (e21 : b21 = a21) (e22 : b22 = a22)
    (h0 : ∀ i, IsReal (a0 i)) (h1 : ∀ i, IsReal (a1 i)) (h2 : ∀ i, IsReal (a2 i)) :
    GR_ctx b0 b1 b2 b3 b4 b5 b6 b7 b8 b9 b10 b11 b12 b13 b14 b15 b16 b17 b18 b19 b20 b21 b22 = GK_ctx a0 a1 a2 a3 a4 a5 a6 a7 a8 a9 a10 a11 a12 a13 a14 a15 a16 a17 a18 a19 a20 a21 a22 := by
  subst e0; subst e1; subst e2; subst e3; subst e4; subst e5; subst e6; subst e7; subst e8; subst e9; subst e10; subst e11; subst e12; subst e13; subst e14; subst e15; subst e16; subst e17; subst e18; subst e19; subst e20; subst e21; subst e22
  exact (GK_ctx_eq b0 b1 b2 b3 b4 b5 b6 b7 b8 b9 b10 b11 b12 b13 b14 b15 b16 b17 b18 b19 b20 b21 b22 h0 h1 h2).symm

theorem GR_conf_of_agree (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (e14 : b14 = a14) (e15 : b15 = a15) (e16 : b16 = a16) (e17 : b17 = a17) (e18 : b18 = a18) (e19 : b19 = a19) (e20 : b20 = a20) (e21 : b21 = a21) (e22 : b22 = a22)
    (h0 : ∀ i, IsReal (a0 i)) (h1 : ∀ i, IsReal (a1 i)) (h2 : ∀ i, IsReal (a2 i)) (h19 : ∀ i, IsReal (a19 i)) :
    GR_conf b0 b1 b2 b3 b4 b5 b6 b7 b8 b9 b10 b11 b12 b13 b14 b15 b16 b17 b18 b19 b20 b21 b22 = GK_conf a0 a1 a2 a3 a4 a5 a6 a7 a8 a9 a10 a11 a12 a13 a14 a15 a16 a17 a18 a19 a20 a21 a22 := by
  subst e0; subst e1; subst e2; subst e3; subst e4; subst e5; subst e6; subst e7; subst e8; subst e9; subst e10; subst e11; subst e12; subst e13; subst e14; subst e15; subst e16; subst e17; subst e18; subst e19; subst e20; subst e21; subst e22
  exact (GK_conf_eq b0 b1 b2 b3 b4 b5 b6 b7 b8 b9 b10 b11 b12 b13 b14 b15 b16 b17 b18 b19 b20 b21 b22 h0 h1 h2 h19).symm

end

end HeadRow

end
-- ==== Proof.FiniteInputs.lean ====
import proofs.«161107_g884763263511_cont_9to1_m_545_23_alg».proof.Defs
import proofs.«161107_g884763263511_cont_9to1_m_545_23_alg».proof.Proof.Gen.Pre_finite_inputs
import proofs.«161107_g884763263511_cont_9to1_m_545_23_alg».proof.Proof.Gen.KernelIdeal
import proofs.«161107_g884763263511_cont_9to1_m_545_23_alg».proof.Proof.HeadRow
import Idealize.ShloMosaic.Lib.ReduceAll
import Idealize.ShloMosaic.Lib.ValueIdx

noncomputable section

namespace Cert.FiniteIn

open Cert.KernelIdeal Idealize.ShloMosaic Idealize.ShloMosaic.TcCoe Idealize.SL.Sem HeadRow

/-- An extended real whose absolute value, written max x (-x), compares strictly below the word of +∞ is a real
    number: the word decodes to ⊤, and at x = ⊤ or x = ⊥ the maximum is ⊤, which is not below itself. -/
private theorem isReal_of_abs_lt (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- The rank-0 shape has one index. -/
private instance subsingleton_scalar_idx : Subsingleton (⟨0, ![]⟩ : Shape).Idx :=
  ⟨fun a b => funext fun d => d.elim0⟩

/-- For an array of any shape: if the conjunction over all entries of "|x| < +∞" is true, every entry is a real
    number. The all-reduction being 1 makes each compared bit 1, and the bit at an entry is the comparison of
    max (x i) (-(x i)) with the word of +∞. -/
private theorem isReal_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu ValueIdx.ix0 = 1#1)
    (i : s.Idx) : IsReal (x i) :=
  isReal_of_abs_lt (x i) (Host.reduce_andi_all _ _ hr hu ValueIdx.ix0 e i)

/-- A conjunction of two rank-0 bits that is 1 has both bits 1. -/
private theorem and_scalar {a b : IVec (⟨0, ![]⟩ : Shape) 1} (h : andi a b ValueIdx.ix0 = 1#1) :
    a ValueIdx.ix0 = 1#1 ∧ b ValueIdx.ix0 = 1#1 :=
  IntOp.andi_eq_one.1 h

/-- Under the precondition every entry of the features, of the first matrix, of the first bias and of the
    confidence head's first matrix is a real number. -/
theorem of_pre (m : (ℓ : Loc nD τ sig) → Buf (Elt Ideal) ℓ) (h : Cert.Pre_KernelIdeal m) (c : Dev nD) :
    (∀ i, IsReal (m ((c.tc : Thread nD τ).loc main_arg0) i))
    ∧ (∀ i, IsReal (m ((c.tc : Thread nD τ).loc main_arg1) i))
    ∧ (∀ i, IsReal (m ((c.tc : Thread nD τ).loc main_arg2) i))
    ∧ (∀ i, IsReal (m ((c.tc : Thread nD τ).loc main_arg19) i)) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6] at h0
  obtain ⟨h21, -⟩ := and_scalar h0
  obtain ⟨h20, -⟩ := and_scalar h21
  obtain ⟨h19, -⟩ := and_scalar h20
  obtain ⟨h18, e19⟩ := and_scalar h19
  obtain ⟨h17, -⟩ := and_scalar h18
  obtain ⟨h16, -⟩ := and_scalar h17
  obtain ⟨h15, -⟩ := and_scalar h16
  obtain ⟨h14, -⟩ := and_scalar h15
  obtain ⟨h13, -⟩ := and_scalar h14
  obtain ⟨h12, -⟩ := and_scalar h13
  obtain ⟨h11, -⟩ := and_scalar h12
  obtain ⟨h10, -⟩ := and_scalar h11
  obtain ⟨h9, -⟩ := and_scalar h10
  obtain ⟨h8, -⟩ := and_scalar h9
  obtain ⟨h7, -⟩ := and_scalar h8
  obtain ⟨h6, -⟩ := and_scalar h7
  obtain ⟨h5, -⟩ := and_scalar h6
  obtain ⟨h4, -⟩ := and_scalar h5
  obtain ⟨h3, -⟩ := and_scalar h4
  obtain ⟨h2, -⟩ := and_scalar h3
  obtain ⟨h1, e2⟩ := and_scalar h2
  obtain ⟨e0, e1⟩ := and_scalar h1
  exact ⟨fun i => isReal_of_all _ _ _ _ e0 i, fun i => isReal_of_all _ _ _ _ e1 i,
    fun i => isReal_of_all _ _ _ _ e2 i, fun i => isReal_of_all _ _ _ _ e19 i⟩

end Cert.FiniteIn

end
-- ==== Proof.lean ====
/-
  The certificate of the fused detection head.

  The kernel fuses, on row blocks of 4000 of a [20000, 512] input, an affine layer, a layer normalisation, a rectifier,
  a second affine layer, three two-layer heads ending in the logistic function (boxes, scales stretched into
  [least size, greatest size], a context score) and a confidence head over the trunk's 256 numbers and the seven head
  outputs.  The reference does the same with whole-array operations.  Both are read, entry by entry, as a function of
  one row of the input and the weights; the two row functions differ in three places (how the variance is written,
  reciprocal root against root and quotient, and where the confidence head's first layer applies the scales' stretch)
  and agree on finite inputs.

  The three frames: the kernel's two are the generated frame certificates; the reference's is its run with the
  results dropped.  The idealisation rewrote nothing.  The value claim: both runs end with the four results at one
  and the same function of the arguments.
-/
import proofs.«161107_g884763263511_cont_9to1_m_545_23_alg».proof.Defs
import proofs.«161107_g884763263511_cont_9to1_m_545_23_alg».proof.Proof.Gen.Kernel
import proofs.«161107_g884763263511_cont_9to1_m_545_23_alg».proof.Proof.Gen.Kernel.Frame
import proofs.«161107_g884763263511_cont_9to1_m_545_23_alg».proof.Proof.Gen.KernelIdeal
import proofs.«161107_g884763263511_cont_9to1_m_545_23_alg».proof.Proof.Gen.KernelIdeal.Frame
import proofs.«161107_g884763263511_cont_9to1_m_545_23_alg».proof.Proof.Gen.ReferenceIdeal
import proofs.«161107_g884763263511_cont_9to1_m_545_23_alg».proof.Proof.Gen.Pre_finite_inputs
import proofs.«161107_g884763263511_cont_9to1_m_545_23_alg».proof.Proof.KernelArray
import proofs.«161107_g884763263511_cont_9to1_m_545_23_alg».proof.Proof.RefWhole
import proofs.«161107_g884763263511_cont_9to1_m_545_23_alg».proof.Proof.HeadWhole
import proofs.«161107_g884763263511_cont_9to1_m_545_23_alg».proof.Proof.FiniteInputs
import Idealize.ShloMosaic.Adequacy
import Idealize.ShloMosaic.Init

noncomputable section

namespace Cert.Proof

open Idealize.ShloMosaic Idealize.ShloMosaic.TcCoe Idealize.SL.Sem HeadRow

theorem frame_k : Cert.frame_Kernel := fun m ρ _ => Cert.Kernel.Gen.frame m ρ

theorem frame_ki : Cert.frame_KernelIdeal := fun m ρ _ => Cert.KernelIdeal.Gen.frame m ρ

/-- The reference's run keeps its arguments: its run with the four results dropped. -/
theorem frame_ri : Cert.frame_ReferenceIdeal := fun m ρ _ =>
  (θ_run (Cert.ReferenceIdeal.defs (F := Ideal)) _ _).mono (fun _ h c => (h c).2.2.2.2) (Cert.ReferenceIdeal.Whole.run m ρ)

theorem preserves : Cert.preserves_Kernel_KernelIdeal := trivial

/-- Both programs end with the four results at the kernel's spelling of the row functions of the arguments: the
    kernel by its run, the reference by its run, the agreement of the arguments, and the agreement of the two
    spellings on finite inputs, which the precondition gives. -/
theorem algebraic : Cert.algebraic_KernelIdeal_ReferenceIdeal := by
  intro m ρ m' ρ' hpre hagree
  refine ⟨fun c => GK_boxes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), fun c => GK_scales (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)),
    fun c => GK_ctx (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), fun c => GK_conf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), Cert.KernelIdeal.Whole.run m ρ, ?_⟩
  refine (θ_run (Cert.ReferenceIdeal.defs (F := Ideal)) _ _).mono (fun r h c => ?_) (Cert.ReferenceIdeal.Whole.run m' ρ')
  obtain ⟨h0, h1, h2, h19⟩ := Cert.FiniteIn.of_pre m hpre c
  obtain ⟨e0, e1, e2, e3, e4, e5, e6, e7, e8, e9, e10, e11, e12, e13, e14, e15, e16, e17, e18, e19, e20, e21, e22⟩ := hagree c
  refine ⟨(h c).1.trans ?_, (h c).2.1.trans ?_, (h c).2.2.1.trans ?_, (h c).2.2.2.1.trans ?_, (h c).2.2.2.2⟩
  · exact GR_boxes_of_agree _ _ _ _ _ _ _ _ _ _ _ _ _ _ _ _ _ _ _ _ _ _ _ _ _ _ _ _ _ _ _ _ _ _ _ _ _ _ _ _ _ _ _ _ _ _ e0 e1 e2 e3 e4 e5 e6 e7 e8 e9 e10 e11 e12 e13 e14 e15 e16 e17 e18 e19 e20 e21 e22 h0 h1 h2
  · exact GR_scales_of_agree _ _ _ _ _ _ _ _ _ _ _ _ _ _ _ _ _ _ _ _ _ _ _ _ _ _ _ _ _ _ _ _ _ _ _ _ _ _ _ _ _ _ _ _ _ _ e0 e1 e2 e3 e4 e5 e6 e7 e8 e9 e10 e11 e12 e13 e14 e15 e16 e17 e18 e19 e20 e21 e22 h0 h1 h2
  · exact GR_ctx_of_agree _ _ _ _ _ _ _ _ _ _ _ _ _ _ _ _ _ _ _ _ _ _ _ _ _ _ _ _ _ _ _ _ _ _ _ _ _ _ _ _ _ _ _ _ _ _ e0 e1 e2 e3 e4 e5 e6 e7 e8 e9 e10 e11 e12 e13 e14 e15 e16 e17 e18 e19 e20 e21 e22 h0 h1 h2
  · exact GR_conf_of_agree _ _ _ _ _ _ _ _ _ _ _ _ _ _ _ _ _ _ _ _ _ _ _ _ _ _ _ _ _ _ _ _ _ _ _ _ _ _ _ _ _ _ _ _ _ _ e0 e1 e2 e3 e4 e5 e6 e7 e8 e9 e10 e11 e12 e13 e14 e15 e16 e17 e18 e19 e20 e21 e22 h0 h1 h2 h19

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
